-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S10000x128 : Shape := ⟨2, ![10000, 128]⟩
abbrev S50000 : Shape := ⟨1, ![50000]⟩
abbrev S10000 : Shape := ⟨1, ![10000]⟩
abbrev S400000 : Shape := ⟨1, ![400000]⟩
abbrev S80000 : Shape := ⟨1, ![80000]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S50000 : S_.BroadcastsInDim S50000 (![] : Fin 0 → Fin S50000.rank)
  reducesTo_S50000_S_d0 : S50000.ReducesTo [0] S_
  bcast_S_S10000 : S_.BroadcastsInDim S10000 (![] : Fin 0 → Fin S10000.rank)
  reducesTo_S10000_S_d0 : S10000.ReducesTo [0] S_
  bcast_S_S80000 : S_.BroadcastsInDim S80000 (![] : Fin 0 → Fin S80000.rank)
  reducesTo_S80000_S_d0 : S80000.ReducesTo [0] S_
  bcast_S_S400000 : S_.BroadcastsInDim S400000 (![] : Fin 0 → Fin S400000.rank)
  reducesTo_S400000_S_d0 : S400000.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v79 : IVec S_ 1) (main_v84 : IVec S400000 1) : IVec S_ 1 :=
  let main_c_33 : IVec S_ 1 := constantI S_ 1 1#1
  let main_v85 : IVec S_ 1 := (fun x v => Host.reduce IntOp.andi x v reducesTo_S400000_S_d0 h_S_) main_v84 main_c_33
  let main_v86 : IVec S_ 1 := andi main_v79 main_v85
  main_v86

def fn_part4 {F : FTy → Type} [FloatOps F] (main_arg5 : IVec S400000 32) (main_arg7 : IVec S80000 32) (main_arg10 : IVec S400000 32) (main_v65 : IVec S_ 1) (main_v67 : IVec S400000 1) : IVec S_ 1 :=
  let main_c_26 : IVec S_ 32 := constantI S_ 32 10000#32
  let main_v68 : IVec S400000 32 := broadcastInDim S400000 ![] bcast_S_S400000 main_c_26
  let main_v69 : IVec S400000 1 := cmpi .slt main_arg5 main_v68
  let main_v70 : IVec S400000 1 := andi main_v67 main_v69
  let main_c_27 : IVec S_ 1 := constantI S_ 1 1#1
  let main_v71 : IVec S_ 1 := (fun x v => Host.reduce IntOp.andi x v reducesTo_S400000_S_d0 h_S_) main_v70 main_c_27
  let main_v72 : IVec S_ 1 := andi main_v65 main_v71
  let main_c_28 : IVec S_ 32 := constantI S_ 32 0#32
  let main_v73 : IVec S80000 32 := broadcastInDim S80000 ![] bcast_S_S80000 main_c_28
  let main_v74 : IVec S80000 1 := cmpi .sge main_arg7 main_v73
  let main_c_29 : IVec S_ 32 := constantI S_ 32 10000#32
  let main_v75 : IVec S80000 32 := broadcastInDim S80000 ![] bcast_S_S80000 main_c_29
  let main_v76 : IVec S80000 1 := cmpi .slt main_arg7 main_v75
  let main_v77 : IVec S80000 1 := andi main_v74 main_v76
  let main_c_30 : IVec S_ 1 := constantI S_ 1 1#1
  let main_v78 : IVec S_ 1 := (fun x v => Host.reduce IntOp.andi x v reducesTo_S80000_S_d0 h_S_) main_v77 main_c_30
  let main_v79 : IVec S_ 1 := andi main_v72 main_v78
  let main_c_31 : IVec S_ 32 := constantI S_ 32 0#32
  let main_v80 : IVec S400000 32 := broadcastInDim S400000 ![] bcast_S_S400000 main_c_31
  let main_v81 : IVec S400000 1 := cmpi .sge main_arg10 main_v80
  let main_c_32 : IVec S_ 32 := constantI S_ 32 50000#32
  let main_v82 : IVec S400000 32 := broadcastInDim S400000 ![] bcast_S_S400000 main_c_32
  let main_v83 : IVec S400000 1 := cmpi .slt main_arg10 main_v82
  let main_v84 : IVec S400000 1 := andi main_v81 main_v83
  fn_part5 (F := F) main_v79 main_v84

def fn_part3 {F : FTy → Type} [FloatOps F] (main_arg4 : IVec S400000 32) (main_arg5 : IVec S400000 32) (main_arg7 : IVec S80000 32) (main_arg10 : IVec S400000 32) (main_arg17 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S400000 32 := broadcastInDim S400000 ![] bcast_S_S400000 main_c_22
  let main_v60 : IVec S400000 1 := cmpi .sge main_arg4 main_v59
  let main_c_23 : IVec S_ 32 := constantI S_ 32 50000#32
  let main_v61 : IVec S400000 32 := broadcastInDim S400000 ![] bcast_S_S400000 main_c_23
  let main_v62 : IVec S400000 1 := cmpi .slt main_arg4 main_v61
  let main_v63 : IVec S400000 1 := andi main_v60 main_v62
  let main_c_24 : IVec S_ 1 := constantI S_ 1 1#1
  let main_v64 : IVec S_ 1 := (fun x v => Host.reduce IntOp.andi x v reducesTo_S400000_S_d0 h_S_) main_v63 main_c_24
  let main_v65 : IVec S_ 1 := andi main_v58 main_v64
  let main_c_25 : IVec S_ 32 := constantI S_ 32 0#32
  let main_v66 : IVec S400000 32 := broadcastInDim S400000 ![] bcast_S_S400000 main_c_25
  let main_v67 : IVec S400000 1 := cmpi .sge main_arg5 main_v66
  fn_part4 (F := F) main_arg5 main_arg7 main_arg10 main_v65 main_v67

def fn_part2 {F : FTy → Type} [FloatOps F] (main_arg4 : IVec S400000 32) (main_arg5 : IVec S400000 32) (main_arg7 : IVec S80000 32) (main_arg10 : IVec S400000 32) (main_arg13 : FVec F S128x128 .f32) (main_arg14 : FVec F S128x256 .f32) (main_arg15 : FVec F S128 .f32) (main_arg16 : FVec F S128x256 .f32) (main_arg17 : FVec F S128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x256 .f32 := Host.absf main_arg14
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg16
  let main_cst_18 : FVec F S_ .f32 := constant S_ .f32 0x7F800000#32
  let main_v50 : FVec F S128x256 .f32 := broadcastInDim S128x256 ![] bcast_S_S128x256 main_cst_18
  fn_part3 (F := F) main_arg4 main_arg5 main_arg7 main_arg10 main_arg17 main_v48 main_v49 main_v50

def fn_part1 {F : FTy → Type} [FloatOps F] (main_arg4 : IVec S400000 32) (main_arg5 : IVec S400000 32) (main_arg7 : IVec S80000 32) (main_arg8 : FVec F S80000 .f32) (main_arg10 : IVec S400000 32) (main_arg11 : FVec F S400000 .f32) (main_arg12 : FVec F S128x128 .f32) (main_arg13 : FVec F S128x128 .f32) (main_arg14 : FVec F S128x256 .f32) (main_arg15 : FVec F S128 .f32) (main_arg16 : FVec F S128x256 .f32) (main_arg17 : FVec F S128 .f32) (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  let main_v19 : FVec F S80000 .f32 := Host.absf main_arg8
  let main_cst_6 : FVec F S_ .f32 := constant S_ .f32 0x7F800000#32
  let main_v20 : FVec F S80000 .f32 := broadcastInDim S80000 ![] bcast_S_S80000 main_cst_6
  let main_v21 : IVec S80000 1 := cmpf .olt main_v19 main_v20
  let main_c_7 : IVec S_ 1 := constantI S_ 1 1#1
  let main_v22 : IVec S_ 1 := (fun x v => Host.reduce IntOp.andi x v reducesTo_S80000_S_d0 h_S_) main_v21 main_c_7
  let main_v23 : IVec S_ 1 := andi main_v18 main_v22
  let main_v24 : FVec F S400000 .f32 := Host.absf main_arg11
  let main_cst_8 : FVec F S_ .f32 := constant S_ .f32 0x7F800000#32
  let main_v25 : FVec F S400000 .f32 := broadcastInDim S400000 ![] bcast_S_S400000 main_cst_8
  let main_v26 : IVec S400000 1 := cmpf .olt main_v24 main_v25
  let main_c_9 : IVec S_ 1 := constantI S_ 1 1#1
  let main_v27 : IVec S_ 1 := (fun x v => Host.reduce IntOp.andi x v reducesTo_S400000_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg5 main_arg7 main_arg10 main_arg13 main_arg14 main_arg15 main_arg16 main_arg17 main_v33

def fn {F : FTy → Type} [FloatOps F] (main_arg0 : FVec F S50000x128 .f32) (main_arg1 : FVec F S10000x128 .f32) (main_arg2 : FVec F S50000 .f32) (main_arg3 : FVec F S10000 .f32) (main_arg4 : IVec S400000 32) (main_arg5 : IVec S400000 32) (main_arg6 : IVec S80000 32) (main_arg7 : IVec S80000 32) (main_arg8 : FVec F S80000 .f32) (main_arg9 : IVec S400000 32) (main_arg10 : IVec S400000 32) (main_arg11 : FVec F S400000 .f32) (main_arg12 : FVec F S128x128 .f32) (main_arg13 : FVec F S128x128 .f32) (main_arg14 : FVec F S128x256 .f32) (main_arg15 : FVec F S128 .f32) (main_arg16 : FVec F S128x256 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S50000 .f32 := Host.absf main_arg2
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_arg4 main_arg5 main_arg7 main_arg8 main_arg10 main_arg11 main_arg12 main_arg13 main_arg14 main_arg15 main_arg16 main_arg17 main_v13 main_v16
-- ==== Kernel.lean ====
abbrev S50000x128 : Shape := ⟨2, ![50000, 128]⟩
abbrev S10000x128 : Shape := ⟨2, ![10000, 128]⟩
abbrev S50000 : Shape := ⟨1, ![50000]⟩
abbrev S10000 : Shape := ⟨1, ![10000]⟩
abbrev S400000 : Shape := ⟨1, ![400000]⟩
abbrev S80000 : Shape := ⟨1, ![80000]⟩
abbrev S128x128 : Shape := ⟨2, ![128, 128]⟩
abbrev S128x256 : Shape := ⟨2, ![128, 256]⟩
abbrev S128 : Shape := ⟨1, ![128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S1x128 : Shape := ⟨2, ![1, 128]⟩
abbrev S4000x128 : Shape := ⟨2, ![4000, 128]⟩
abbrev S80000x1 : Shape := ⟨2, ![80000, 1]⟩
abbrev S80000x128 : Shape := ⟨2, ![80000, 128]⟩
abbrev S5000x128 : Shape := ⟨2, ![5000, 128]⟩
abbrev S10000x1 : Shape := ⟨2, ![10000, 1]⟩
abbrev S2000x128 : Shape := ⟨2, ![2000, 128]⟩

abbrev nBuf : Space → Nat
  | .hbm => 246
  | .vmem => 28
  | .smem => 0
  | _ => 0

abbrev hbmTy0_0 (i : Nat) : BufTy := match i % 128 with
  | 0 => ⟨S50000x128, .f32⟩
  | 1 => ⟨S10000x128, .f32⟩
  | 2 => ⟨S50000, .f32⟩
  | 3 => ⟨S10000, .f32⟩
  | 4 => ⟨S400000, .i32⟩
  | 5 => ⟨S400000, .i32⟩
  | 6 => ⟨S80000, .i32⟩
  | 7 => ⟨S80000, .i32⟩
  | 8 => ⟨S80000, .f32⟩
  | 9 => ⟨S400000, .i32⟩
  | 10 => ⟨S400000, .i32⟩
  | 11 => ⟨S400000, .f32⟩
  | 12 => ⟨S128x128, .f32⟩
  | 13 => ⟨S128x128, .f32⟩
  | 14 => ⟨S128x256, .f32⟩
  | 15 => ⟨S128, .f32⟩
  | 16 => ⟨S128x256, .f32⟩
  | 17 => ⟨S128, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S1, .i32⟩
  | 27 => ⟨S_, .i32⟩
  | 28 => ⟨S400000x1, .i32⟩
  | 29 => ⟨S400000x1, .i1⟩
  | 30 => ⟨S1x1, .i32⟩
  | 31 => ⟨S400000x1, .i32⟩
  | 32 => ⟨S400000x1, .i1⟩
  | 33 => ⟨S400000x1, .i1⟩
  | 34 => ⟨S_, .i1⟩
  | 35 => ⟨S400000, .i1⟩
  | 36 => ⟨S400000x128, .f32⟩
  | 37 => ⟨S400000x128, .i1⟩
  | 38 => ⟨S_, .f32⟩
  | 39 => ⟨S400000x128, .f32⟩
  | 40 => ⟨S400000x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S1, .i32⟩
  | 50 => ⟨S_, .i32⟩
  | 51 => ⟨S400000x1, .i32⟩
  | 52 => ⟨S400000x1, .i1⟩
  | 53 => ⟨S1x1, .i32⟩
  | 54 => ⟨S400000x1, .i32⟩
  | 55 => ⟨S400000x1, .i1⟩
  | 56 => ⟨S400000x1, .i1⟩
  | 57 => ⟨S_, .i1⟩
  | 58 => ⟨S400000, .i1⟩
  | 59 => ⟨S400000x128, .f32⟩
  | 60 => ⟨S400000x128, .i1⟩
  | 61 => ⟨S_, .f32⟩
  | 62 => ⟨S400000x128, .f32⟩
  | 63 => ⟨S400000x128, .f32⟩
  | 64 => ⟨S128x128, .f32⟩
  | 65 => ⟨S128x128, .f32⟩
  | 66 => ⟨S128x128, .f32⟩
  | 67 => ⟨S128x128, .f32⟩
  | 68 => ⟨S1x128, .f32⟩
  | 69 => ⟨S400000x128, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000, .f32⟩
  | 79 => ⟨S400000x1, .f32⟩
  | 80 => ⟨S400000x128, .f32⟩
  | 81 => ⟨S400000x128, .f32⟩
  | 82 => ⟨S_, .f32⟩
  | 83 => ⟨S10000x128, .f32⟩
  | 84 => ⟨S400000x1, .i32⟩
  | 85 => ⟨S10000x128, .f32⟩
  | 86 => ⟨S_, .i32⟩
  | 87 => ⟨S80000, .i32⟩
  | 88 => ⟨S80000, .i1⟩
  | 89 => ⟨S_, .i32⟩
  | 90 => ⟨S80000, .i32⟩
  | 91 => ⟨S80000, .i32⟩
  | 92 => ⟨S80000, .i32⟩
  | 93 => ⟨S80000x1, .i32⟩
  | 94 => ⟨S1, .i32⟩
  | 95 => ⟨S_, .i32⟩
  | 96 => ⟨S80000x1, .i32⟩
  | 97 => ⟨S80000x1, .i1⟩
  | 98 => ⟨S1x1, .i32⟩
  | 99 => ⟨S80000x1, .i32⟩
  | 100 => ⟨S80000x1, .i1⟩
  | 101 => ⟨S80000x1, .i1⟩
  | 102 => ⟨S_, .i1⟩
  | 103 => ⟨S80000, .i1⟩
  | 104 => ⟨S80000x128, .f32⟩
  | 105 => ⟨S80000x128, .i1⟩
  | 106 => ⟨S_, .f32⟩
  | 107 => ⟨S80000x128, .f32⟩
  | 108 => ⟨S80000x128, .f32⟩
  | 109 => ⟨S80000x1, .f32⟩
  | 110 => ⟨S80000x128, .f32⟩
  | 111 => ⟨S80000x128, .f32⟩
  | 112 => ⟨S_, .f32⟩
  | 113 => ⟨S10000x128, .f32⟩
  | 114 => ⟨S80000x1, .i32⟩
  | 115 => ⟨S10000x128, .f32⟩
  | 116 => ⟨S10000x128, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S1, .i32⟩
  | 126 => ⟨S_, .i32⟩
  | 127 => ⟨S400000x1, .i32⟩
  | _ => ⟨S50000x128, .f32⟩

abbrev hbmTy0_1 (i : Nat) : BufTy := match i % 128 with
  | 0 => ⟨S400000x1, .i1⟩
  | 1 => ⟨S1x1, .i32⟩
  | 2 => ⟨S400000x1, .i32⟩
  | 3 => ⟨S400000x1, .i1⟩
  | 4 => ⟨S400000x1, .i1⟩
  | 5 => ⟨S_, .i1⟩
  | 6 => ⟨S400000, .i1⟩
  | 7 => ⟨S400000x128, .f32⟩
  | 8 => ⟨S400000x128, .i1⟩
  | 9 => ⟨S_, .f32⟩
  | 10 => ⟨S400000x128, .f32⟩
  | 11 => ⟨S400000x128, .f32⟩
  | 12 => ⟨S_, .f32⟩
  | 13 => ⟨S50000x128, .f32⟩
  | 14 => ⟨S400000x1, .i32⟩
  | 15 => ⟨S50000x128, .f32⟩
  | 16 => ⟨S128x128, .f32⟩
  | 17 => ⟨S50000x128, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S1, .i32⟩
  | 27 => ⟨S_, .i32⟩
  | 28 => ⟨S400000x1, .i32⟩
  | 29 => ⟨S400000x1, .i1⟩
  | 30 => ⟨S1x1, .i32⟩
  | 31 => ⟨S400000x1, .i32⟩
  | 32 => ⟨S400000x1, .i1⟩
  | 33 => ⟨S400000x1, .i1⟩
  | 34 => ⟨S_, .i1⟩
  | 35 => ⟨S400000, .i1⟩
  | 36 => ⟨S400000x128, .f32⟩
  | 37 => ⟨S400000x128, .i1⟩
  | 38 => ⟨S_, .f32⟩
  | 39 => ⟨S400000x128, .f32⟩
  | 40 => ⟨S400000x128, .f32⟩
  | 41 => ⟨S128x128, .f32⟩
  | 42 => ⟨S128x128, .f32⟩
  | 43 => ⟨S128x128, .f32⟩
  | 44 => ⟨S128x128, .f32⟩
  | 45 => ⟨S1x128, .f32⟩
  | 46 => ⟨S400000x128, .f32⟩
  | 47 => ⟨S_, .f32⟩
  | 48 => ⟨S10000x128, .f32⟩
  | 49 => ⟨S400000x1, .i32⟩
  | 50 => ⟨S10000x128, .f32⟩
  | 51 => ⟨S10000x1, .f32⟩
  | 52 => ⟨S10000x128, .f32⟩
  | 53 => ⟨S10000x128, .f32⟩
  | 54 => ⟨S_, .f32⟩
  | 55 => ⟨S50000x128, .f32⟩
  | 56 => ⟨S400000x1, .i32⟩
  | 57 => ⟨S50000x128, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S1, .i32⟩
  | 67 => ⟨S_, .i32⟩
  | 68 => ⟨S400000x1, .i32⟩
  | 69 => ⟨S400000x1, .i1⟩
  | 70 => ⟨S1x1, .i32⟩
  | 71 => ⟨S400000x1, .i32⟩
  | 72 => ⟨S400000x1, .i1⟩
  | 73 => ⟨S400000x1, .i1⟩
  | 74 => ⟨S_, .i1⟩
  | 75 => ⟨S400000, .i1⟩
  | 76 => ⟨S400000x128, .f32⟩
  | 77 => ⟨S400000x128, .i1⟩
  | 78 => ⟨S_, .f32⟩
  | 79 => ⟨S400000x128, .f32⟩
  | 80 => ⟨S400000x128, .f32⟩
  | 81 => ⟨S400000x1, .f32⟩
  | 82 => ⟨S400000x128, .f32⟩
  | 83 => ⟨S400000x128, .f32⟩
  | 84 => ⟨S_, .f32⟩
  | 85 => ⟨S50000x128, .f32⟩
  | 86 => ⟨S400000x1, .i32⟩
  | 87 => ⟨S50000x128, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S1, .i32⟩
  | 97 => ⟨S_, .i32⟩
  | 98 => ⟨S400000x1, .i32⟩
  | 99 => ⟨S400000x1, .i1⟩
  | 100 => ⟨S1x1, .i32⟩
  | 101 => ⟨S400000x1, .i32⟩
  | 102 => ⟨S400000x1, .i1⟩
  | 103 => ⟨S400000x1, .i1⟩
  | 104 => ⟨S_, .i1⟩
  | 105 => ⟨S400000, .i1⟩
  | 106 => ⟨S400000x128, .f32⟩
  | 107 => ⟨S400000x128, .i1⟩
  | 108 => ⟨S_, .f32⟩
  | 109 => ⟨S400000x128, .f32⟩
  | 110 => ⟨S400000x128, .f32⟩
  | 111 => ⟨S_, .f32⟩
  | 112 => ⟨S10000x128, .f32⟩
  | 113 => ⟨S400000x1, .i32⟩
  | 114 => ⟨S10000x128, .f32⟩
  | 115 => ⟨S10000x128, .f32⟩
  | 116 => ⟨S128x128, .f32⟩
  | 117 => ⟨S10000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S4000x128, .f32⟩
  | .local _ .vmem, ⟨22, _⟩ => ⟨S4000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v1 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_c : Ref sig .tc := ⟨.hbm, 70, rfl⟩
abbrev main_v8 : Ref sig .tc := ⟨.hbm, 71, rfl⟩
abbrev main_v9 : Ref sig .tc := ⟨.hbm, 72, rfl⟩
abbrev main_c_0 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_cst : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v21 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_cst_1 : Ref sig .tc := ⟨.hbm, 112, rfl⟩
abbrev main_v25 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v29 : Ref sig .tc := ⟨.hbm, 139, rfl⟩
abbrev main_cst_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call4_c : Ref sig .tc := ⟨.hbm, 146, rfl⟩
abbrev main_call4_v0 : Ref sig .tc := ⟨.hbm, 147, rfl⟩
abbrev main_call4_v1 : Ref sig .tc := ⟨.hbm, 148, rfl⟩
abbrev main_call4_c_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_c_1 : Ref sig .tc := ⟨.hbm, 154, rfl⟩
abbrev main_call4_c_2 : Ref sig .tc := ⟨.hbm, 155, rfl⟩
abbrev main_call4_v6 : Ref sig .tc := ⟨.hbm, 156, rfl⟩
abbrev main_call4_v7 : Ref sig .tc := ⟨.hbm, 157, rfl⟩
abbrev main_call4_v8 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_c_3 : Ref sig .tc := ⟨.hbm, 162, rfl⟩
abbrev main_call4_v12 : Ref sig .tc := ⟨.hbm, 163, rfl⟩
abbrev main_call4_v13 : Ref sig .tc := ⟨.hbm, 164, rfl⟩
abbrev main_call4_v14 : Ref sig .tc := ⟨.hbm, 165, rfl⟩
abbrev main_call4_cst : Ref sig .tc := ⟨.hbm, 166, rfl⟩
abbrev main_call4_v15 : Ref sig .tc := ⟨.hbm, 167, rfl⟩
abbrev main_v35 : Ref sig .tc := ⟨.hbm, 168, rfl⟩
abbrev main_v36 : Ref sig .tc := ⟨.hbm, 169, rfl⟩
abbrev main_v37 : Ref sig .tc := ⟨.hbm, 170, rfl⟩
abbrev main_v38 : Ref sig .tc := ⟨.hbm, 171, rfl⟩
abbrev main_v39 : Ref sig .tc := ⟨.hbm, 172, rfl⟩
abbrev main_v40 : Ref sig .tc := ⟨.hbm, 173, rfl⟩
abbrev main_v41 : Ref sig .tc := ⟨.hbm, 174, rfl⟩
abbrev main_cst_3 : Ref sig .tc := ⟨.hbm, 175, rfl⟩
abbrev main_v42 : Ref sig .tc := ⟨.hbm, 176, rfl⟩
abbrev main_v43 : Ref sig .tc := ⟨.hbm, 177, rfl⟩
abbrev main_v44 : Ref sig .tc := ⟨.hbm, 178, rfl⟩
abbrev main_v45 : Ref sig .tc := ⟨.hbm, 179, rfl⟩
abbrev main_v46 : Ref sig .tc := ⟨.hbm, 180, rfl⟩
abbrev main_v47 : Ref sig .tc := ⟨.hbm, 181, rfl⟩
abbrev main_cst_4 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_call5_c : Ref sig .tc := ⟨.hbm, 186, rfl⟩
abbrev main_call5_v0 : Ref sig .tc := ⟨.hbm, 187, rfl⟩
abbrev main_call5_v1 : Ref sig .tc := ⟨.hbm, 188, rfl⟩
abbrev main_call5_c_0 : Ref sig .tc := ⟨.hbm, 189, rfl⟩
abbrev main_call5_v2 : Ref sig .tc := ⟨.hbm, 190, rfl⟩
abbrev main_call5_v3 : Ref sig .tc := ⟨.hbm, 191, rfl⟩
abbrev main_call5_v4 : Ref sig .tc := ⟨.hbm, 192, rfl⟩
abbrev main_call5_v5 : Ref sig .tc := ⟨.hbm, 193, rfl⟩
abbrev main_call5_c_1 : Ref sig .tc := ⟨.hbm, 194, rfl⟩
abbrev main_call5_c_2 : Ref sig .tc := ⟨.hbm, 195, rfl⟩
abbrev main_call5_v6 : Ref sig .tc := ⟨.hbm, 196, rfl⟩
abbrev main_call5_v7 : Ref sig .tc := ⟨.hbm, 197, rfl⟩
abbrev main_call5_v8 : Ref sig .tc := ⟨.hbm, 198, rfl⟩
abbrev main_call5_v9 : Ref sig .tc := ⟨.hbm, 199, rfl⟩
abbrev main_call5_v10 : Ref sig .tc := ⟨.hbm, 200, rfl⟩
abbrev main_call5_v11 : Ref sig .tc := ⟨.hbm, 201, rfl⟩
abbrev main_call5_c_3 : Ref sig .tc := ⟨.hbm, 202, rfl⟩
abbrev main_call5_v12 : Ref sig .tc := ⟨.hbm, 203, rfl⟩
abbrev main_call5_v13 : Ref sig .tc := ⟨.hbm, 204, rfl⟩
abbrev main_call5_v14 : Ref sig .tc := ⟨.hbm, 205, rfl⟩
abbrev main_call5_cst : Ref sig .tc := ⟨.hbm, 206, rfl⟩
abbrev main_call5_v15 : Ref sig .tc := ⟨.hbm, 207, rfl⟩
abbrev main_v51 : Ref sig .tc := ⟨.hbm, 208, rfl⟩
abbrev main_v52 : Ref sig .tc := ⟨.hbm, 209, rfl⟩
abbrev main_v53 : Ref sig .tc := ⟨.hbm, 210, rfl⟩
abbrev main_v54 : Ref sig .tc := ⟨.hbm, 211, rfl⟩
abbrev main_cst_5 : Ref sig .tc := ⟨.hbm, 212, rfl⟩
abbrev main_v55 : Ref sig .tc := ⟨.hbm, 213, rfl⟩
abbrev main_v56 : Ref sig .tc := ⟨.hbm, 214, rfl⟩
abbrev main_v57 : Ref sig .tc := ⟨.hbm, 215, rfl⟩
abbrev main_call6_c : Ref sig .tc := ⟨.hbm, 216, rfl⟩
abbrev main_call6_v0 : Ref sig .tc := ⟨.hbm, 217, rfl⟩
abbrev main_call6_v1 : Ref sig .tc := ⟨.hbm, 218, rfl⟩
abbrev main_call6_c_0 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_call6_v5 : Ref sig .tc := ⟨.hbm, 223, rfl⟩
abbrev main_call6_c_1 : Ref sig .tc := ⟨.hbm, 224, rfl⟩
abbrev main_call6_c_2 : Ref sig .tc := ⟨.hbm, 225, rfl⟩
abbrev main_call6_v6 : Ref sig .tc := ⟨.hbm, 226, rfl⟩
abbrev main_call6_v7 : Ref sig .tc := ⟨.hbm, 227, rfl⟩
abbrev main_call6_v8 : Ref sig .tc := ⟨.hbm, 228, rfl⟩
abbrev main_call6_v9 : Ref sig .tc := ⟨.hbm, 229, rfl⟩
abbrev main_call6_v10 : Ref sig .tc := ⟨.hbm, 230, rfl⟩
abbrev main_call6_v11 : Ref sig .tc := ⟨.hbm, 231, rfl⟩
abbrev main_call6_c_3 : Ref sig .tc := ⟨.hbm, 232, rfl⟩
abbrev main_call6_v12 : Ref sig .tc := ⟨.hbm, 233, rfl⟩
abbrev main_call6_v13 : Ref sig .tc := ⟨.hbm, 234, rfl⟩
abbrev main_call6_v14 : Ref sig .tc := ⟨.hbm, 235, rfl⟩
abbrev main_call6_cst : Ref sig .tc := ⟨.hbm, 236, rfl⟩
abbrev main_call6_v15 : Ref sig .tc := ⟨.hbm, 237, rfl⟩
abbrev main_v58 : Ref sig .tc := ⟨.hbm, 238, rfl⟩
abbrev main_cst_6 : Ref sig .tc := ⟨.hbm, 239, rfl⟩
abbrev main_v59 : Ref sig .tc := ⟨.hbm, 240, rfl⟩
abbrev main_v60 : Ref sig .tc := ⟨.hbm, 241, rfl⟩
abbrev main_v61 : Ref sig .tc := ⟨.hbm, 242, rfl⟩
abbrev main_v62 : Ref sig .tc := ⟨.hbm, 243, rfl⟩
abbrev main_v63 : Ref sig .tc := ⟨.hbm, 244, rfl⟩
abbrev main_v64 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S400000x1_S400000x128_0_1 : S400000x1.BroadcastsInDim S400000x128 (![0, 1] : Fin 2 → Fin S400000x128.rank)
  bcast_S_S10000x128 : S_.BroadcastsInDim S10000x128 (![] : Fin 0 → Fin S10000x128.rank)
  bcast_S_S80000 : S_.BroadcastsInDim S80000 (![] : Fin 0 → Fin S80000.rank)
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S1x1_S80000x1_0_1 : S1x1.BroadcastsInDim S80000x1 (![0, 1] : Fin 2 → Fin S80000x1.rank)
  reducesTo_S80000x1_S80000_d1 : S80000x1.ReducesTo [1] S80000
  bcast_S80000_S80000x128_0 : S80000.BroadcastsInDim S80000x128 (![0] : Fin 1 → Fin S80000x128.rank)
  bcast_S_S80000x128 : S_.BroadcastsInDim S80000x128 (![] : Fin 0 → Fin S80000x128.rank)
  bcast_S80000x1_S80000x128_0_1 : S80000x1.BroadcastsInDim S80000x128 (![0, 1] : Fin 2 → Fin S80000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  gather_S50000x128_S400000x1_S400000x128_1_0_n_n_0_1_1128_wf : GatherDims.WF S50000x128 S400000x1 S400000x128 [1] [0] [] [0] [] 1 ![1, 128]
  gather_S10000x128_S400000x1_S400000x128_1_0_n_n_0_1_1128_wf : GatherDims.WF S10000x128 S400000x1 S400000x128 [1] [0] [] [0] [] 1 ![1, 128]
  dot_S4000x128_S128x128_S4000x128_1_0_0_1_n_n_wf : DotDims.WF S4000x128 S128x128 S4000x128 [1] [0] [0] [1] [] []
  gather_S50000_S400000x1_S400000_n_0_n_n_0_1_1_wf : GatherDims.WF S50000 S400000x1 S400000 [] [0] [] [0] [] 1 ![1]
  scatter_S10000x128_S400000x1_S400000x128_1_0_0_1_wf : ScatterDims.WF S10000x128 S400000x1 S400000x128 [1] [0] [0] 1
  gather_S10000x128_S80000x1_S80000x128_1_0_n_n_0_1_1128_wf : GatherDims.WF S10000x128 S80000x1 S80000x128 [1] [0] [] [0] [] 1 ![1, 128]
  scatter_S10000x128_S80000x1_S80000x128_1_0_0_1_wf : ScatterDims.WF S10000x128 S80000x1 S80000x128 [1] [0] [0] 1
  scatter_S50000x128_S400000x1_S400000x128_1_0_0_1_wf : ScatterDims.WF S50000x128 S400000x1 S400000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S400000x128.size a
  hwx0_5 : ∀ i : grid0.Coords, EltTy.bits .f32 = 32 ∨ (Rect.block (s := S400000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .f32 = 32 ∨ (Rect.block (s := S400000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S400000x128.size a
  hwx2_5 : ∀ i : grid2.Coords, EltTy.bits .f32 = 32 ∨ (Rect.block (s := S400000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S10000x128.size a
  hwx3_2 : ∀ i : grid3.Coords, EltTy.bits .f32 = 32 ∨ (Rect.block (s := S10000x128) S2000x128.size (cc3_transform_2 i) (hinb3_2 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def scatter_S10000x128_S400000x1_S400000x128_1_0_0_1 : ScatterDims S10000x128 S400000x1 S400000x128 where
  updateWindowDims := [1]
  insertedWindowDims := [0]
  scatterDimsToOperandDims := [0]
  indexVectorDim := 1
  wf := scatter_S10000x128_S400000x1_S400000x128_1_0_0_1_wf
def gather_S10000x128_S80000x1_S80000x128_1_0_n_n_0_1_1128 : GatherDims S10000x128 S80000x1 S80000x128 where
  offsetDims := [1]
  collapsedSliceDims := [0]
  operandBatchingDims := []
  startIndicesBatchingDims := []
  startIndexMap := [0]
  indexVectorDim := 1
  sliceSizes := ![1, 128]
  wf := gather_S10000x128_S80000x1_S80000x128_1_0_n_n_0_1_1128_wf
def scatter_S10000x128_S80000x1_S80000x128_1_0_0_1 : ScatterDims S10000x128 S80000x1 S80000x128 where
  updateWindowDims := [1]
  insertedWindowDims := [0]
  scatterDimsToOperandDims := [0]
  indexVectorDim := 1
  wf := scatter_S10000x128_S80000x1_S80000x128_1_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S10000x128 : Shape := ⟨2, ![10000, 128]⟩
abbrev S50000 : Shape := ⟨1, ![50000]⟩
abbrev S10000 : Shape := ⟨1, ![10000]⟩
abbrev S400000 : Shape := ⟨1, ![400000]⟩
abbrev S80000 : Shape := ⟨1, ![80000]⟩
abbrev S128x128 : Shape := ⟨2, ![128, 128]⟩
abbrev S128x256 : Shape := ⟨2, ![128, 256]⟩
abbrev S128 : Shape := ⟨1, ![128]⟩
abbrev S_ : Shape := ⟨0, ![]⟩
abbrev S400000x1 : Shape := ⟨2, ![400000, 1]⟩
abbrev S400000x128 : Shape := ⟨2, ![400000, 128]⟩
abbrev S400000x256 : Shape := ⟨2, ![400000, 256]⟩
abbrev S256x128 : Shape := ⟨2, ![256, 128]⟩
abbrev S1x128 : Shape := ⟨2, ![1, 128]⟩
abbrev S80000x1 : Shape := ⟨2, ![80000, 1]⟩
abbrev S80000x128 : Shape := ⟨2, ![80000, 128]⟩
abbrev S10000x1 : Shape := ⟨2, ![10000, 1]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S10000x128, .f32⟩
  | 2 => ⟨S50000, .f32⟩
  | 3 => ⟨S10000, .f32⟩
  | 4 => ⟨S400000, .i32⟩
  | 5 => ⟨S400000, .i32⟩
  | 6 => ⟨S80000, .i32⟩
  | 7 => ⟨S80000, .i32⟩
  | 8 => ⟨S80000, .f32⟩
  | 9 => ⟨S400000, .i32⟩
  | 10 => ⟨S400000, .i32⟩
  | 11 => ⟨S400000, .f32⟩
  | 12 => ⟨S128x128, .f32⟩
  | 13 => ⟨S128x128, .f32⟩
  | 14 => ⟨S128x256, .f32⟩
  | 15 => ⟨S128, .f32⟩
  | 16 => ⟨S128x256, .f32⟩
  | 17 => ⟨S128, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x128, .f32⟩
  | 36 => ⟨S400000x256, .f32⟩
  | 37 => ⟨S256x128, .f32⟩
  | 38 => ⟨S400000x128, .f32⟩
  | 39 => ⟨S1x128, .f32⟩
  | 40 => ⟨S400000x128, .f32⟩
  | 41 => ⟨S400000x128, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000, .f32⟩
  | 51 => ⟨S400000x1, .f32⟩
  | 52 => ⟨S400000x128, .f32⟩
  | 53 => ⟨S400000x128, .f32⟩
  | 54 => ⟨S_, .f32⟩
  | 55 => ⟨S10000x128, .f32⟩
  | 56 => ⟨S400000x1, .i32⟩
  | 57 => ⟨S10000x128, .f32⟩
  | 58 => ⟨S80000x1, .f32⟩
  | 59 => ⟨S_, .i32⟩
  | 60 => ⟨S80000, .i32⟩
  | 61 => ⟨S80000, .i1⟩
  | 62 => ⟨S_, .i32⟩
  | 63 => ⟨S80000, .i32⟩
  | 64 => ⟨S80000, .i32⟩
  | 65 => ⟨S80000, .i32⟩
  | 66 => ⟨S80000x1, .i32⟩
  | 67 => ⟨S80000x128, .f32⟩
  | 68 => ⟨S80000x128, .f32⟩
  | 69 => ⟨S80000x128, .f32⟩
  | 70 => ⟨S_, .f32⟩
  | 71 => ⟨S10000x128, .f32⟩
  | 72 => ⟨S80000x1, .i32⟩
  | 73 => ⟨S10000x128, .f32⟩
  | 74 => ⟨S10000x128, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x128, .f32⟩
  | 84 => ⟨S_, .f32⟩
  | 85 => ⟨S50000x128, .f32⟩
  | 86 => ⟨S400000x1, .i32⟩
  | 87 => ⟨S50000x128, .f32⟩
  | 88 => ⟨S128x128, .f32⟩
  | 89 => ⟨S50000x128, .f32⟩
  | 90 => ⟨S_, .f32⟩
  | 91 => ⟨S50000x128, .f32⟩
  | 92 => ⟨S50000x128, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x128, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x128, .f32⟩
  | 111 => ⟨S400000x256, .f32⟩
  | 112 => ⟨S256x128, .f32⟩
  | 113 => ⟨S400000x128, .f32⟩
  | 114 => ⟨S1x128, .f32⟩
  | 115 => ⟨S400000x128, .f32⟩
  | 116 => ⟨S400000x128, .f32⟩
  | 117 => ⟨S_, .f32⟩
  | 118 => ⟨S10000x128, .f32⟩
  | 119 => ⟨S400000x1, .i32⟩
  | 120 => ⟨S10000x128, .f32⟩
  | 121 => ⟨S10000x1, .f32⟩
  | 122 => ⟨S10000x128, .f32⟩
  | 123 => ⟨S10000x128, .f32⟩
  | 124 => ⟨S_, .i32⟩
  | 125 => ⟨S400000, .i32⟩
  | 126 => ⟨S400000, .i1⟩
  | 127 => ⟨S_, .i32⟩
  | _ => ⟨S50000x128, .f32⟩

abbrev hbmTy0_1 (i : Nat) : BufTy := match i % 128 with
  | 0 => ⟨S400000, .i32⟩
  | 1 => ⟨S400000, .i32⟩
  | 2 => ⟨S400000, .i32⟩
  | 3 => ⟨S400000x1, .i32⟩
  | 4 => ⟨S400000x128, .f32⟩
  | 5 => ⟨S_, .f32⟩
  | 6 => ⟨S50000x128, .f32⟩
  | 7 => ⟨S400000x1, .i32⟩
  | 8 => ⟨S50000x128, .f32⟩
  | 9 => ⟨S400000x1, .f32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x128, .f32⟩
  | 19 => ⟨S400000x128, .f32⟩
  | 20 => ⟨S400000x128, .f32⟩
  | 21 => ⟨S_, .f32⟩
  | 22 => ⟨S50000x128, .f32⟩
  | 23 => ⟨S400000x1, .i32⟩
  | 24 => ⟨S50000x128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .f32⟩
  | 35 => ⟨S10000x128, .f32⟩
  | 36 => ⟨S400000x1, .i32⟩
  | 37 => ⟨S10000x128, .f32⟩
  | 38 => ⟨S10000x128, .f32⟩
  | 39 => ⟨S128x128, .f32⟩
  | 40 => ⟨S10000x128, .f32⟩
  | 41 => ⟨S_, .f32⟩
  | 42 => ⟨S10000x128, .f32⟩
  | 43 => ⟨S10000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call0_cst : Ref sig .tc := ⟨.hbm, 90, rfl⟩
abbrev main_call0_v0 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_c_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_19 : Ref sig .tc := ⟨.hbm, 138, rfl⟩
abbrev main_v97 : Ref sig .tc := ⟨.hbm, 139, rfl⟩
abbrev main_v98 : Ref sig .tc := ⟨.hbm, 140, rfl⟩
abbrev main_c_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_21 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c_22 : Ref sig .tc := ⟨.hbm, 153, rfl⟩
abbrev main_v109 : Ref sig .tc := ⟨.hbm, 154, rfl⟩
abbrev main_v110 : Ref sig .tc := ⟨.hbm, 155, rfl⟩
abbrev main_c_23 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_24 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_call1_cst : Ref sig .tc := ⟨.hbm, 169, rfl⟩
abbrev main_call1_v0 : Ref sig .tc := ⟨.hbm, 170, rfl⟩
abbrev main_v122 : Ref sig .tc := ⟨.hbm, 171, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  transposes_S128x256_S256x128_1_0 : S128x256.Transposes [1, 0] S256x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S400000x1_S400000x128_0_1 : S400000x1.BroadcastsInDim S400000x128 (![0, 1] : Fin 2 → Fin S400000x128.rank)
  bcast_S_S10000x128 : S_.BroadcastsInDim S10000x128 (![] : Fin 0 → Fin S10000x128.rank)
  bcast_S80000_S80000x1_0 : S80000.BroadcastsInDim S80000x1 (![0] : Fin 1 → Fin S80000x1.rank)
  bcast_S_S80000 : S_.BroadcastsInDim S80000 (![] : Fin 0 → Fin S80000.rank)
  bcast_S80000x1_S80000x128_0_1 : S80000x1.BroadcastsInDim S80000x128 (![0, 1] : Fin 2 → Fin S80000x128.rank)
  bcast_S_S50000x128 : S_.BroadcastsInDim S50000x128 (![] : Fin 0 → Fin S50000x128.rank)
  transposes_S128x128_S128x128_1_0 : S128x128.Transposes [1, 0] S128x128
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  gather_S50000x128_S400000x1_S400000x128_1_0_n_n_0_1_1128_wf : GatherDims.WF S50000x128 S400000x1 S400000x128 [1] [0] [] [0] [] 1 ![1, 128]
  gather_S10000x128_S400000x1_S400000x128_1_0_n_n_0_1_1128_wf : GatherDims.WF S10000x128 S400000x1 S400000x128 [1] [0] [] [0] [] 1 ![1, 128]
  dot_S400000x256_S256x128_S400000x128_1_0_0_1_n_n_wf : DotDims.WF S400000x256 S256x128 S400000x128 [1] [0] [0] [1] [] []
  gather_S50000_S400000x1_S400000_n_0_n_n_0_1_1_wf : GatherDims.WF S50000 S400000x1 S400000 [] [0] [] [0] [] 1 ![1]
  scatter_S10000x128_S400000x1_S400000x128_1_0_0_1_wf : ScatterDims.WF S10000x128 S400000x1 S400000x128 [1] [0] [0] 1
  gather_S10000x128_S80000x1_S80000x128_1_0_n_n_0_1_1128_wf : GatherDims.WF S10000x128 S80000x1 S80000x128 [1] [0] [] [0] [] 1 ![1, 128]
  scatter_S10000x128_S80000x1_S80000x128_1_0_0_1_wf : ScatterDims.WF S10000x128 S80000x1 S80000x128 [1] [0] [0] 1
  scatter_S50000x128_S400000x1_S400000x128_1_0_0_1_wf : ScatterDims.WF S50000x128 S400000x1 S400000x128 [1] [0] [0] 1
  dot_S50000x128_S128x128_S50000x128_1_0_0_1_n_n_wf : DotDims.WF S50000x128 S128x128 S50000x128 [1] [0] [0] [1] [] []
  dot_S10000x128_S128x128_S10000x128_1_0_0_1_n_n_wf : DotDims.WF S10000x128 S128x128 S10000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def scatter_S10000x128_S400000x1_S400000x128_1_0_0_1 : ScatterDims S10000x128 S400000x1 S400000x128 where
  updateWindowDims := [1]
  insertedWindowDims := [0]
  scatterDimsToOperandDims := [0]
  indexVectorDim := 1
  wf := scatter_S10000x128_S400000x1_S400000x128_1_0_0_1_wf
def gather_S10000x128_S80000x1_S80000x128_1_0_n_n_0_1_1128 : GatherDims S10000x128 S80000x1 S80000x128 where
  offsetDims := [1]
  collapsedSliceDims := [0]
  operandBatchingDims := []
  startIndicesBatchingDims := []
  startIndexMap := [0]
  indexVectorDim := 1
  sliceSizes := ![1, 128]
  wf := gather_S10000x128_S80000x1_S80000x128_1_0_n_n_0_1_1128_wf
def scatter_S10000x128_S80000x1_S80000x128_1_0_0_1 : ScatterDims S10000x128 S80000x1 S80000x128 where
  updateWindowDims := [1]
  insertedWindowDims := [0]
  scatterDimsToOperandDims := [0]
  indexVectorDim := 1
  wf := scatter_S10000x128_S80000x1_S80000x128_1_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The common value of the two programs, stage by stage, as functions on the extended reals.

  Both programs compute the same hypergraph layer.  The only places where they are written differently are the
  dense stages: the kernel multiplies the two gathered halves by the two halves of the weight matrix separately
  and adds the bias row, where the reference multiplies the joined [n, 256] rows by the whole transposed weight
  matrix; and the output projections, a product followed by the maximum with zero.  Each such stage is stated
  here once, index by index, and each program's stage is shown elsewhere to be this function.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev S400000x128 : Shape := ⟨2, ![400000, 128]⟩
abbrev S50000x128 : Shape := ⟨2, ![50000, 128]⟩
abbrev S10000x128 : Shape := ⟨2, ![10000, 128]⟩
abbrev S128x128 : Shape := ⟨2, ![128, 128]⟩
abbrev S128x256 : Shape := ⟨2, ![128, 256]⟩
abbrev S1x128 : Shape := ⟨2, ![1, 128]⟩
abbrev S128 : Shape := ⟨1, ![128]⟩
abbrev S50000 : Shape := ⟨1, ![50000]⟩
abbrev S10000 : Shape := ⟨1, ![10000]⟩
abbrev S400000 : Shape := ⟨1, ![400000]⟩
abbrev S80000 : Shape := ⟨1, ![80000]⟩

/-- Every entry of an index vector lies in [0, n), read as a signed 32-bit word: the rows a gather may name in a
    table of n rows. -/
def InRange {s : Shape} (idx : s.Idx → BitVec 32) (n : BitVec 32) : Prop :=
  ∀ i, IntOp.cmpi .sge (idx i) 0#32 = 1#1 ∧ IntOp.cmpi .slt (idx i) n = 1#1

/-- The left half of a [128, 256] weight matrix, transposed: entry (k, j) is W (j, k). -/
def wLo (w : S128x256.Idx → EReal) : S128x128.Idx → EReal :=
  fun i => w (ix2 (n0 := 128) (n1 := 256) (i 1) ⟨(i 0).val, by have := (i 0).isLt; simp at this; omega⟩)

/-- The right half of a [128, 256] weight matrix, transposed: entry (k, j) is W (j, 128 + k). -/
def wHi (w : S128x256.Idx → EReal) : S128x128.Idx → EReal :=
  fun i => w (ix2 (n0 := 128) (n1 := 256) (i 1) ⟨128 + (i 0).val, by have := (i 0).isLt; simp at this; omega⟩)

/-- A bias vector as a one-row matrix. -/
def row (b : S128.Idx → EReal) : S1x128.Idx → EReal :=
  fun i => b (ix1 (n := 128) (i 1))

/-- One output entry of the two-operand dense stage: row p of a times column q of wa, plus row p of b times
    column q of wb, plus the bias at q. -/
def affine2At (a b : S400000x128.Idx → EReal) (wa wb : S128x128.Idx → EReal) (bias : S1x128.Idx → EReal)
    (p : Fin 400000) (q : Fin 128) : EReal :=
  ((∑ k : Fin 128, a (ix2 p k) * wa (ix2 k q)) + (∑ k : Fin 128, b (ix2 p k) * wb (ix2 k q))) + bias (ix2 (0 : Fin 1) q)

/-- The two-operand dense stage over the 400000 incidences. -/
def affine2 (a b : S400000x128.Idx → EReal) (wa wb : S128x128.Idx → EReal) (bias : S1x128.Idx → EReal) :
    S400000x128.Idx → EReal :=
  fun i => affine2At a b wa wb bias (i 0) (i 1)

/-- One output entry of a projection followed by the maximum with zero. -/
def denseReluAt {n : Nat} (x : (⟨2, ![n, 128]⟩ : Shape).Idx → EReal) (w : S128x128.Idx → EReal) (p : Fin n) (q : Fin 128) : EReal :=
  max (∑ k : Fin 128, x (ix2 p k) * w (ix2 k q)) 0

/-- The node projection: 50000 rows. -/
def denseRelu50k (x : S50000x128.Idx → EReal) (w : S128x128.Idx → EReal) : S50000x128.Idx → EReal :=
  fun i => denseReluAt x w (i 0) (i 1)

/-- The hyperedge projection: 10000 rows. -/
def denseRelu10k (x : S10000x128.Idx → EReal) (w : S128x128.Idx → EReal) : S10000x128.Idx → EReal :=
  fun i => denseReluAt x w (i 0) (i 1)

/-- A sum over 256 terms is the sum of its first 128 and its last 128 terms.  On the extended reals addition is
    commutative and associative, which is all this uses. -/
theorem sum_256_split (f : Fin 256 → EReal) :
    (∑ k : Fin 256, f k) = (∑ k : Fin 128, f ⟨k.val, by omega⟩) + (∑ k : Fin 128, f ⟨128 + k.val, by omega⟩) := by
  exact Fin.sum_univ_add (a := 128) (b := 128) f

end Cert.Spec

end
-- ==== Proof.Args.lean ====
/-
  The eighteen argument arrays of the idealized kernel program, each under a short name and at its literal type:
  a0 vfeat, a1 efeat, a2 invDV, a3 invDE, a4 inc_src, a5 inc_dst, a6 emat_rows, a7 emat_cols, a8 emat_vals,
  a9 vmat_rows, a10 vmat_cols, a11 vmat_vals, a12 Wv, a13 We, a14 psi1_W, a15 psi1_b, a16 psi2_W, a17 psi2_b.
-/
import proofs.«416382_j85126251807356_1_alg».proof.Proof.Gen.KernelIdeal
import proofs.«416382_j85126251807356_1_alg».proof.Proof.Spec

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

/-- vfeat as launched. -/
abbrev a0 : Cert.Spec.S50000x128.Idx → EReal := m ((c.tc : Thread nD τ).loc main_arg0)
/-- efeat as launched. -/
abbrev a1 : Cert.Spec.S10000x128.Idx → EReal := m ((c.tc : Thread nD τ).loc main_arg1)
/-- invDV as launched. -/
abbrev a2 : Cert.Spec.S50000.Idx → EReal := m ((c.tc : Thread nD τ).loc main_arg2)
/-- invDE as launched. -/
abbrev a3 : Cert.Spec.S10000.Idx → EReal := m ((c.tc : Thread nD τ).loc main_arg3)
/-- inc_src as launched. -/
abbrev a4 : Cert.Spec.S400000.Idx → BitVec 32 := m ((c.tc : Thread nD τ).loc main_arg4)
/-- inc_dst as launched. -/
abbrev a5 : Cert.Spec.S400000.Idx → BitVec 32 := m ((c.tc : Thread nD τ).loc main_arg5)
/-- emat_rows as launched. -/
abbrev a6 : Cert.Spec.S80000.Idx → BitVec 32 := m ((c.tc : Thread nD τ).loc main_arg6)
/-- emat_cols as launched. -/
abbrev a7 : Cert.Spec.S80000.Idx → BitVec 32 := m ((c.tc : Thread nD τ).loc main_arg7)
/-- emat_vals as launched. -/
abbrev a8 : Cert.Spec.S80000.Idx → EReal := m ((c.tc : Thread nD τ).loc main_arg8)
/-- vmat_rows as launched. -/
abbrev a9 : Cert.Spec.S400000.Idx → BitVec 32 := m ((c.tc : Thread nD τ).loc main_arg9)
/-- vmat_cols as launched. -/
abbrev a10 : Cert.Spec.S400000.Idx → BitVec 32 := m ((c.tc : Thread nD τ).loc main_arg10)
/-- vmat_vals as launched. -/
abbrev a11 : Cert.Spec.S400000.Idx → EReal := m ((c.tc : Thread nD τ).loc main_arg11)
/-- Wv as launched. -/
abbrev a12 : Cert.Spec.S128x128.Idx → EReal := m ((c.tc : Thread nD τ).loc main_arg12)
/-- We as launched. -/
abbrev a13 : Cert.Spec.S128x128.Idx → EReal := m ((c.tc : Thread nD τ).loc main_arg13)
/-- psi1_W as launched. -/
abbrev a14 : Cert.Spec.S128x256.Idx → EReal := m ((c.tc : Thread nD τ).loc main_arg14)
/-- psi1_b as launched. -/
abbrev a15 : Cert.Spec.S128.Idx → EReal := m ((c.tc : Thread nD τ).loc main_arg15)
/-- psi2_W as launched. -/
abbrev a16 : Cert.Spec.S128x256.Idx → EReal := m ((c.tc : Thread nD τ).loc main_arg16)
/-- psi2_b as launched. -/
abbrev a17 : Cert.Spec.S128.Idx → EReal := m ((c.tc : Thread nD τ).loc main_arg17)

end Cert.KernelIdeal.Args

end
-- ==== Proof.PreIdx.lean ====
/-
  What the precondition says about the four index arrays the programs gather with: every entry of inc_src and of
  vmat_cols names a node row, every entry of inc_dst and of emat_cols a hyperedge row.  The printed predicate is a
  conjunction of whole-array tests; each test being all ones gives the bound at every entry.
-/
import proofs.«416382_j85126251807356_1_alg».proof.Defs
import proofs.«416382_j85126251807356_1_alg».proof.Proof.Gen.Pre_finite_inputs
import proofs.«416382_j85126251807356_1_alg».proof.Proof.Args
import Idealize.ShloMosaic.Lib.ReduceAll
import Idealize.ShloMosaic.Lib.StableHlo.Predicate

noncomputable section

namespace Cert.KernelIdeal.PreIdx

open Cert.KernelIdeal Cert.KernelIdeal.Args Cert.Spec
open Idealize.ShloMosaic Idealize.ShloMosaic.TcCoe Idealize.SL.Sem

/-- The shape of rank 0 has exactly one index. -/
instance subsingleton_scalar_idx : Subsingleton (⟨0, ![]⟩ : Shape).Idx := ⟨fun a b => funext fun d => d.elim0⟩

/-- A whole-array test "0 ≤ idx and idx < n" whose conjunction over all entries is 1 bounds every entry. -/
theorem inRange_of_all {s : Shape} {axes : List (Fin s.rank)} (idx : IVec s 32) (n : BitVec 32)
    (dims : Fin (⟨0, ![]⟩ : Shape).rank → Fin s.rank) (hb : (⟨0, ![]⟩ : Shape).BroadcastsInDim s dims)
    (hr : s.ReducesTo axes (⟨0, ![]⟩ : Shape)) (hu : 0 < (⟨0, ![]⟩ : Shape).numel)
    (e : Host.reduce IntOp.andi
        (andi (cmpi .sge idx (broadcastInDim s dims hb (constantI (⟨0, ![]⟩ : Shape) 32 0#32)))
          (cmpi .slt idx (broadcastInDim s dims hb (constantI (⟨0, ![]⟩ : Shape) 32 n))))
        (constantI (⟨0, ![]⟩ : Shape) 1 1#1) hr hu ValueIdx.ix0 = 1#1) : InRange idx n := by
  unfold InRange
  intro i
  exact IntOp.andi_eq_one.1 (Host.reduce_andi_all _ _ hr hu ValueIdx.ix0 e i)

/-- Under the precondition the four gather index arrays are in range on every device. -/
theorem ranges_of_pre (m : (ℓ : Loc nD τ sig) → Buf (Elt Ideal) ℓ) (h : Cert.Pre_KernelIdeal m) (c : Dev nD) :
    InRange (a4 m c) 50000#32 ∧ InRange (a5 m c) 10000#32 ∧ InRange (a7 m c) 10000#32 ∧ InRange (a10 m c) 50000#32 := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h1, t10⟩ := IntOp.andi_eq_one.1 h0
  obtain ⟨h2, t7⟩ := IntOp.andi_eq_one.1 h1
  obtain ⟨h3, t5⟩ := IntOp.andi_eq_one.1 h2
  obtain ⟨_, t4⟩ := IntOp.andi_eq_one.1 h3
  exact ⟨inRange_of_all _ _ _ _ _ _ t4, inRange_of_all _ _ _ _ _ _ t5, inRange_of_all _ _ _ _ _ _ t7,
    inRange_of_all _ _ _ _ _ _ t10⟩

end Cert.KernelIdeal.PreIdx

end
-- ==== Proof.RegionsAffine.lean ====
/-
  What each of the two two-operand dense pallas_calls leaves in its output array, as one function of the arrays the region finds
  on entry: every grid point writes its block of rows, the blocks tile the array, and inside a block an entry is the
  body's arithmetic on the rows and the weight matrices it loaded.
-/
import proofs.«416382_j85126251807356_1_alg».proof.Proof.Gen.KernelIdeal.Frame
import proofs.«416382_j85126251807356_1_alg».proof.Proof.Args
import Idealize.ShloMosaic.Lib.Pipeline.Value
import Idealize.ShloMosaic.Lib.ValueIdx
import Idealize.ShloMosaic.PureOps.Ideal.Laws

set_option maxRecDepth 16384

noncomputable section

namespace Cert.KernelIdeal.RegionAffine

open Cert.KernelIdeal Cert.KernelIdeal.Gen Cert.KernelIdeal.Args Cert.Spec
open Idealize.ShloMosaic Idealize.ShloMosaic.TcCoe Idealize.SL.Sem
open Idealize.ShloMosaic.Pipeline (Dat Cfg Window)
open Idealize.ShloMosaic.ValueIdx (ix2 eq_ix2)

variable (V : (c : Dev nD) → (b : Ref sig .tc) → Buf (Elt Ideal) ((c : Thread nD τ).loc b))
/-! ## The matrix product of a block of rows with a weight matrix, read at an entry -/

theorem lhs_rows_0 (i : Cert.KernelIdeal.S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin Cert.KernelIdeal.S4000x128.rank) ∈ dot_S4000x128_S128x128_S4000x128_1_0_0_1_n_n.lhsBatch by decide), dif_pos (show (0 : Fin Cert.KernelIdeal.S4000x128.rank) ∈ dot_S4000x128_S128x128_S4000x128_1_0_0_1_n_n.lhsNonContracting by decide)]
  rfl
theorem lhs_rows_1 (i : Cert.KernelIdeal.S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_rows_0 (i : Cert.KernelIdeal.S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_rows_1 (i : Cert.KernelIdeal.S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin Cert.KernelIdeal.S128x128.rank) ∈ dot_S4000x128_S128x128_S4000x128_1_0_0_1_n_n.rhsBatch by decide), dif_pos (show (1 : Fin Cert.KernelIdeal.S128x128.rank) ∈ dot_S4000x128_S128x128_S4000x128_1_0_0_1_n_n.rhsNonContracting by decide)]
  rfl

/-- Into a zero accumulator, entry (p, q) of the product of a [4000,128] block with a [128,128] matrix is the sum over
    k of row p at k times column q at k. -/
theorem rows_matmul_apply {φ₁ φ₂ : FTy} (a : FVec Ideal Cert.KernelIdeal.S4000x128 φ₁) (w : FVec Ideal Cert.KernelIdeal.S128x128 φ₂) (p : Fin 4000) (q : Fin 128) :
    matmul dot_S4000x128_S128x128_S4000x128_1_0_0_1_n_n none a w (constant (F := Ideal) Cert.KernelIdeal.S4000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_rows_0 _ _).trans hk
    | ⟨1, _⟩ => exact rhs_rows_1 _ _)
  rw [el, er]

/-- The bias row broadcast down the 4000 rows, read at (p, q), is the row at q. -/
theorem bias_rows_apply (b : FVec Ideal Cert.KernelIdeal.S1x128 .f32) (p : Fin 4000) (q : Fin 128) :
    broadcastTo Cert.KernelIdeal.S4000x128 b broadcasts_S1x128_S4000x128 (ix2 p q) = b (ix2 (0 : Fin 1) q) := by
  refine broadcastTo_apply b _ (ix2 p q) (ix2 (0 : Fin 1) q) fun a => ?_
  match a with
  | ⟨0, _⟩ => rfl
  | ⟨1, _⟩ => rfl

/-- The offset ![0, 0] is the zero offset. -/
theorem off_zero : (![0, 0] : Fin 2 → Nat) = fun _ => 0 := funext fun a => by fin_cases a <;> rfl

/-- The body's arithmetic on one block, entry by entry: row p of the first block times column q of the first matrix,
    plus row p of the second block times column q of the second matrix, plus the bias at q. -/
theorem pay0_apply (x0 x1 : Vec Ideal Cert.KernelIdeal.S4000x128 .f32) (x2 x3 : Vec Ideal Cert.KernelIdeal.S128x128 .f32)
    (x4 : Vec Ideal Cert.KernelIdeal.S1x128 .f32) (p : Fin 4000) (q : Fin 128) :
    k0_pay1 x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k0_pay1
  simp only [shapeCast_self]
  rw [ValueIdx.addf_apply, ValueIdx.addf_apply, rows_matmul_apply, rows_matmul_apply, bias_rows_apply]
  rfl

/-- One block of the stage. If the first two loaded blocks are rows T·4000 … of the arrays a and b, and the other three
    are the two weight matrices and the bias row, then the body's result at an entry of the block is the stage's value
    at the entry of the array T·4000 rows further down. -/
theorem pay0_block (A B : Cert.Spec.S400000x128.Idx → EReal) (WA WB : Cert.Spec.S128x128.Idx → EReal) (Bi : Cert.Spec.S1x128.Idx → EReal)
    (x0 x1 : Vec Ideal Cert.KernelIdeal.S4000x128 .f32) (x2 x3 : Vec Ideal Cert.KernelIdeal.S128x128 .f32)
    (x4 : Vec Ideal Cert.KernelIdeal.S1x128 .f32) (T : Nat)
    (h0 : ∀ (y : Cert.KernelIdeal.S4000x128.Idx) (z : Cert.Spec.S400000x128.Idx), (z 0).val = T * 4000 + (y 0).val → (z 1).val = (y 1).val → x0 y = A z)
    (h1 : ∀ (y : Cert.KernelIdeal.S4000x128.Idx) (z : Cert.Spec.S400000x128.Idx), (z 0).val = T * 4000 + (y 0).val → (z 1).val = (y 1).val → x1 y = B z)
    (h2 : ∀ y, x2 y = WA y) (h3 : ∀ y, x3 y = WB y) (h4 : ∀ y, x4 y = Bi y)
    (j : Cert.KernelIdeal.S4000x128.Idx) (i : Cert.Spec.S400000x128.Idx)
    (hi0 : (i 0).val = T * 4000 + (j 0).val) (hi1 : (i 1).val = (j 1).val) :
    k0_pay1 x0 x1 x2 x3 x4 j = affine2 A B WA WB Bi i := by
  obtain ⟨p, q, rfl⟩ : ∃ (p : Fin 4000) (q : Fin 128), j = ix2 p q := ⟨j 0, j 1, eq_ix2 j⟩
  obtain ⟨r, s, rfl⟩ : ∃ (r : Fin 400000) (s : Fin 128), i = ix2 r s := ⟨i 0, i 1, eq_ix2 i⟩
  have hr : r.val = T * 4000 + p.val := hi0
  obtain rfl : s = q := Fin.ext hi1
  rw [pay0_apply]
  show _ = ((∑ k : Fin 128, A (ix2 r k) * WA (ix2 k s)) + (∑ k : Fin 128, B (ix2 r k) * WB (ix2 k s))) + Bi (ix2 (0 : Fin 1) s)
  have e0 : ∀ k : Fin 128, x0 (ix2 p k) = A (ix2 r k) := fun k => h0 _ _ hr rfl
  have e1 : ∀ k : Fin 128, x1 (ix2 p k) = B (ix2 r k) := fun k => h1 _ _ hr rfl
  simp only [e0, e1, h2, h3, h4]

/-- The body's arithmetic on one block, entry by entry: row p of the first block times column q of the first matrix,
    plus row p of the second block times column q of the second matrix, plus the bias at q. -/
theorem pay2_apply (x0 x1 : Vec Ideal Cert.KernelIdeal.S4000x128 .f32) (x2 x3 : Vec Ideal Cert.KernelIdeal.S128x128 .f32)
    (x4 : Vec Ideal Cert.KernelIdeal.S1x128 .f32) (p : Fin 4000) (q : Fin 128) :
    k2_pay1 x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k2_pay1
  simp only [shapeCast_self]
  rw [ValueIdx.addf_apply, ValueIdx.addf_apply, rows_matmul_apply, rows_matmul_apply, bias_rows_apply]
  rfl

/-- One block of the stage. If the first two loaded blocks are rows T·4000 … of the arrays a and b, and the other three
    are the two weight matrices and the bias row, then the body's result at an entry of the block is the stage's value
    at the entry of the array T·4000 rows further down. -/
theorem pay2_block (A B : Cert.Spec.S400000x128.Idx → EReal) (WA WB : Cert.Spec.S128x128.Idx → EReal) (Bi : Cert.Spec.S1x128.Idx → EReal)
    (x0 x1 : Vec Ideal Cert.KernelIdeal.S4000x128 .f32) (x2 x3 : Vec Ideal Cert.KernelIdeal.S128x128 .f32)
    (x4 : Vec Ideal Cert.KernelIdeal.S1x128 .f32) (T : Nat)
    (h0 : ∀ (y : Cert.KernelIdeal.S4000x128.Idx) (z : Cert.Spec.S400000x128.Idx), (z 0).val = T * 4000 + (y 0).val → (z 1).val = (y 1).val → x0 y = A z)
    (h1 : ∀ (y : Cert.KernelIdeal.S4000x128.Idx) (z : Cert.Spec.S400000x128.Idx), (z 0).val = T * 4000 + (y 0).val → (z 1).val = (y 1).val → x1 y = B z)
    (h2 : ∀ y, x2 y = WA y) (h3 : ∀ y, x3 y = WB y) (h4 : ∀ y, x4 y = Bi y)
    (j : Cert.KernelIdeal.S4000x128.Idx) (i : Cert.Spec.S400000x128.Idx)
    (hi0 : (i 0).val = T * 4000 + (j 0).val) (hi1 : (i 1).val = (j 1).val) :
    k2_pay1 x0 x1 x2 x3 x4 j = affine2 A B WA WB Bi i := by
  obtain ⟨p, q, rfl⟩ : ∃ (p : Fin 4000) (q : Fin 128), j = ix2 p q := ⟨j 0, j 1, eq_ix2 j⟩
  obtain ⟨r, s, rfl⟩ : ∃ (r : Fin 400000) (s : Fin 128), i = ix2 r s := ⟨i 0, i 1, eq_ix2 i⟩
  have hr : r.val = T * 4000 + p.val := hi0
  obtain rfl : s = q := Fin.ext hi1
  rw [pay2_apply]
  show _ = ((∑ k : Fin 128, A (ix2 r k) * WA (ix2 k s)) + (∑ k : Fin 128, B (ix2 r k) * WB (ix2 k s))) + Bi (ix2 (0 : Fin 1) s)
  have e0 : ∀ k : Fin 128, x0 (ix2 p k) = A (ix2 r k) := fun k => h0 _ _ hr rfl
  have e1 : ∀ k : Fin 128, x1 (ix2 p k) = B (ix2 r k) := fun k => h1 _ _ hr rfl
  simp only [e0, e1, h2, h3, h4]

/-! ## The first stage: from the blocks to the array -/

/-- The printed block index maps, decided once over the 100 grid points: the two row windows move with the output
    window, block t at point t; the two weight matrices and the bias row stay at block (0, 0). -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 4000·t … of its array. -/
theorem rows0_0_read (c : Dev nD) (t : Fin cfg0.N) (y : Cert.KernelIdeal.S4000x128.Idx) (z : Cert.Spec.S400000x128.Idx)
    (hz0 : (z 0).val = win0_5.index t (0 : Fin 2) * 4000 + (y 0).val) (hz1 : (z 1).val = (y 1).val) :
    iblk0 (F := Ideal) V c 0 t y = V c main_v0 z := by
  obtain ⟨f00, f01, f10, f11, f20, f21, f30, f31, f40, f41, f50, f51⟩ := idx_facts0 t
  show V c main_v0 (((cfg0.win 0).blk t).view.emb y) = V c main_v0 z
  refine congrArg _ (funext fun a => Fin.ext ?_)
  match a with
  | ⟨0, _⟩ => show win0_0.index t (0 : Fin 2) * 4000 + 1 * (y 0).val = (z 0).val; omega
  | ⟨1, _⟩ => show win0_0.index t (1 : Fin 2) * 128 + 1 * (y 1).val = (z 1).val; omega

/-- Window 1's block at point t is rows 4000·t … of its array. -/
theorem rows0_1_read (c : Dev nD) (t : Fin cfg0.N) (y : Cert.KernelIdeal.S4000x128.Idx) (z : Cert.Spec.S400000x128.Idx)
    (hz0 : (z 0).val = win0_5.index t (0 : Fin 2) * 4000 + (y 0).val) (hz1 : (z 1).val = (y 1).val) :
    iblk0 (F := Ideal) V c 1 t y = V c main_v1 z := by
  obtain ⟨f00, f01, f10, f11, f20, f21, f30, f31, f40, f41, f50, f51⟩ := idx_facts0 t
  show V c main_v1 (((cfg0.win 1).blk t).view.emb y) = V c main_v1 z
  refine congrArg _ (funext fun a => Fin.ext ?_)
  match a with
  | ⟨0, _⟩ => show win0_1.index t (0 : Fin 2) * 4000 + 1 * (y 0).val = (z 0).val; omega
  | ⟨1, _⟩ => show win0_1.index t (1 : Fin 2) * 128 + 1 * (y 1).val = (z 1).val; omega

/-- Window 2 is staged whole at every point. -/
theorem whole0_2_read (c : Dev nD) (t : Fin cfg0.N) (y : Cert.KernelIdeal.S128x128.Idx) :
    iblk0 (F := Ideal) V c 2 t y = V c main_v3 y := by
  obtain ⟨f00, f01, f10, f11, f20, f21, f30, f31, f40, f41, f50, f51⟩ := idx_facts0 t
  show V c main_v3 (((cfg0.win 2).blk t).view.emb y) = V c main_v3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 is staged whole at every point. -/
theorem whole0_3_read (c : Dev nD) (t : Fin cfg0.N) (y : Cert.KernelIdeal.S128x128.Idx) :
    iblk0 (F := Ideal) V c 3 t y = V c main_v5 y := by
  obtain ⟨f00, f01, f10, f11, f20, f21, f30, f31, f40, f41, f50, f51⟩ := idx_facts0 t
  show V c main_v5 (((cfg0.win 3).blk t).view.emb y) = V c main_v5 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 is staged whole at every point. -/
theorem whole0_4_read (c : Dev nD) (t : Fin cfg0.N) (y : Cert.KernelIdeal.S1x128.Idx) :
    iblk0 (F := Ideal) V c 4 t y = V c main_v6 y := by
  obtain ⟨f00, f01, f10, f11, f20, f21, f30, f31, f40, f41, f50, f51⟩ := idx_facts0 t
  show V c main_v6 (((cfg0.win 4).blk t).view.emb y) = V c main_v6 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point t writes back is block t of the stage's value on the arrays the region finds on entry. -/
theorem flushed0_eq (c : Dev nD) (t : Fin cfg0.N) :
    (dat0 (F := Ideal) V c).flushed 5 t
      = ((cfg0.win 5).blk t).view.read (Elt Ideal) (affine2 (V c main_v0) (V c main_v1) (V c main_v3) (V c main_v5) (V c main_v6)) := by
  show (cfg0.win 5).cut (grid0.coords t) ((dat0 V c).after 5 t) = _
  rw [after0_5]
  unfold out0_5
  rw [View.canon_unit_zero off_zero]
  simp only [View.ld_unit_zero (S := Cert.KernelIdeal.S4000x128) off_zero, View.ld_unit_zero (S := Cert.KernelIdeal.S128x128) off_zero,
    View.ld_unit_zero (S := Cert.KernelIdeal.S1x128) off_zero]
  obtain ⟨f00, f01, f10, f11, f20, f21, f30, f31, f40, f41, f50, f51⟩ := idx_facts0 t
  funext j
  show k0_pay1 (iblk0 V c 0 t) (iblk0 V c 1 t) (iblk0 V c 2 t) (iblk0 V c 3 t) (iblk0 V c 4 t) ((cfg0.win 5).xinj (grid0.coords t) j)
    = (affine2 (V c main_v0) (V c main_v1) (V c main_v3) (V c main_v5) (V c main_v6)) (((cfg0.win 5).blk t).view.emb j)
  refine pay0_block _ _ _ _ _ _ _ _ _ _ (win0_5.index t (0 : Fin 2)) (rows0_0_read V c t) (rows0_1_read V c t)
    (whole0_2_read V c t) (whole0_3_read V c t) (whole0_4_read V c t) _ _ ?_ ?_
  · show win0_5.index t (0 : Fin 2) * 4000 + 1 * (j 0).val = win0_5.index t (0 : Fin 2) * 4000 + (j 0).val; omega
  · show win0_5.index t (1 : Fin 2) * 128 + 1 * (j 1).val = (j 1).val; omega

/-- An entry of the array is in point t's block iff each coordinate is in the block's range on its axis. -/
theorem mem_blk0 (t : Fin cfg0.N) (i : Cert.Spec.S400000x128.Idx) :
    i ∈ ((cfg0.win 5).blk t).view.set ↔ ∀ a : Fin 2, win0_5.index t a * Cert.KernelIdeal.S4000x128.size a ≤ (i a).val
      ∧ (i a).val < win0_5.index t a * Cert.KernelIdeal.S4000x128.size a + Cert.KernelIdeal.S4000x128.size a := by
  show i ∈ ((View.whole main_v7).slice (win0_5.rect t)).set ↔ _
  rw [View.set_slice_whole, Rect.mem_set_unit]
  exact Iff.rfl

/-- The blocks tile the array: row r is in the block of point r / 4000. -/
theorem cover0 (i : Cert.Spec.S400000x128.Idx) :
    ∃ t : Fin cfg0.N, (cfg0.win 5).flush t = true ∧ i ∈ ((cfg0.win 5).blk t).view.set := by
  have hi0 : (i 0).val < 400000 := (i 0).isLt
  have hi1 : (i 1).val < 128 := (i 1).isLt
  have ht : (i 0).val / 4000 < 100 := by omega
  obtain ⟨f00, f01, f10, f11, f20, f21, f30, f31, f40, f41, f50, f51⟩ := idx_facts0 ⟨(i 0).val / 4000, ht⟩
  have g50 : win0_5.index ⟨(i 0).val / 4000, ht⟩ (0 : Fin 2) = (i 0).val / 4000 := f50
  refine ⟨⟨(i 0).val / 4000, ht⟩, flush0_5 _, ?_⟩
  rw [mem_blk0]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    omega

/-- The first two-operand dense stage (psi1): 100 points of 4000 rows each. -/
theorem region0_out (c : Dev nD) :
    ((dat0 (F := Ideal) V c).arrAt 5 cfg0.N : Cert.Spec.S400000x128.Idx → EReal)
      = Cert.Spec.affine2 (V c main_v0) (V c main_v1) (V c main_v3) (V c main_v5) (V c main_v6) :=
  (dat0 (F := Ideal) V c).arrAt_eq_of_cover 5 _ (fun t _ => flushed0_eq V c t) cover0

/-! ## The second stage: from the blocks to the array -/

/-- The printed block index maps, decided once over the 100 grid points: the two row windows move with the output
    window, block t at point t; the two weight matrices and the bias row stay at block (0, 0). -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 4000·t … of its array. -/
theorem rows2_0_read (c : Dev nD) (t : Fin cfg2.N) (y : Cert.KernelIdeal.S4000x128.Idx) (z : Cert.Spec.S400000x128.Idx)
    (hz0 : (z 0).val = win2_5.index t (0 : Fin 2) * 4000 + (y 0).val) (hz1 : (z 1).val = (y 1).val) :
    iblk2 (F := Ideal) V c 0 t y = V c main_v35 z := by
  obtain ⟨f00, f01, f10, f11, f20, f21, f30, f31, f40, f41, f50, f51⟩ := idx_facts2 t
  show V c main_v35 (((cfg2.win 0).blk t).view.emb y) = V c main_v35 z
  refine congrArg _ (funext fun a => Fin.ext ?_)
  match a with
  | ⟨0, _⟩ => show win2_0.index t (0 : Fin 2) * 4000 + 1 * (y 0).val = (z 0).val; omega
  | ⟨1, _⟩ => show win2_0.index t (1 : Fin 2) * 128 + 1 * (y 1).val = (z 1).val; omega

/-- Window 1's block at point t is rows 4000·t … of its array. -/
theorem rows2_1_read (c : Dev nD) (t : Fin cfg2.N) (y : Cert.KernelIdeal.S4000x128.Idx) (z : Cert.Spec.S400000x128.Idx)
    (hz0 : (z 0).val = win2_5.index t (0 : Fin 2) * 4000 + (y 0).val) (hz1 : (z 1).val = (y 1).val) :
    iblk2 (F := Ideal) V c 1 t y = V c main_v1 z := by
  obtain ⟨f00, f01, f10, f11, f20, f21, f30, f31, f40, f41, f50, f51⟩ := idx_facts2 t
  show V c main_v1 (((cfg2.win 1).blk t).view.emb y) = V c main_v1 z
  refine congrArg _ (funext fun a => Fin.ext ?_)
  match a with
  | ⟨0, _⟩ => show win2_1.index t (0 : Fin 2) * 4000 + 1 * (y 0).val = (z 0).val; omega
  | ⟨1, _⟩ => show win2_1.index t (1 : Fin 2) * 128 + 1 * (y 1).val = (z 1).val; omega

/-- Window 2 is staged whole at every point. -/
theorem whole2_2_read (c : Dev nD) (t : Fin cfg2.N) (y : Cert.KernelIdeal.S128x128.Idx) :
    iblk2 (F := Ideal) V c 2 t y = V c main_v37 y := by
  obtain ⟨f00, f01, f10, f11, f20, f21, f30, f31, f40, f41, f50, f51⟩ := idx_facts2 t
  show V c main_v37 (((cfg2.win 2).blk t).view.emb y) = V c main_v37 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3 is staged whole at every point. -/
theorem whole2_3_read (c : Dev nD) (t : Fin cfg2.N) (y : Cert.KernelIdeal.S128x128.Idx) :
    iblk2 (F := Ideal) V c 3 t y = V c main_v39 y := by
  obtain ⟨f00, f01, f10, f11, f20, f21, f30, f31, f40, f41, f50, f51⟩ := idx_facts2 t
  show V c main_v39 (((cfg2.win 3).blk t).view.emb y) = V c main_v39 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 is staged whole at every point. -/
theorem whole2_4_read (c : Dev nD) (t : Fin cfg2.N) (y : Cert.KernelIdeal.S1x128.Idx) :
    iblk2 (F := Ideal) V c 4 t y = V c main_v40 y := by
  obtain ⟨f00, f01, f10, f11, f20, f21, f30, f31, f40, f41, f50, f51⟩ := idx_facts2 t
  show V c main_v40 (((cfg2.win 4).blk t).view.emb y) = V c main_v40 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point t writes back is block t of the stage's value on the arrays the region finds on entry. -/
theorem flushed2_eq (c : Dev nD) (t : Fin cfg2.N) :
    (dat2 (F := Ideal) V c).flushed 5 t
      = ((cfg2.win 5).blk t).view.read (Elt Ideal) (affine2 (V c main_v35) (V c main_v1) (V c main_v37) (V c main_v39) (V c main_v40)) := by
  show (cfg2.win 5).cut (grid2.coords t) ((dat2 V c).after 5 t) = _
  rw [after2_5]
  unfold out2_5
  rw [View.canon_unit_zero off_zero]
  simp only [View.ld_unit_zero (S := Cert.KernelIdeal.S4000x128) off_zero, View.ld_unit_zero (S := Cert.KernelIdeal.S128x128) off_zero,
    View.ld_unit_zero (S := Cert.KernelIdeal.S1x128) off_zero]
  obtain ⟨f00, f01, f10, f11, f20, f21, f30, f31, f40, f41, f50, f51⟩ := idx_facts2 t
  funext j
  show k2_pay1 (iblk2 V c 0 t) (iblk2 V c 1 t) (iblk2 V c 2 t) (iblk2 V c 3 t) (iblk2 V c 4 t) ((cfg2.win 5).xinj (grid2.coords t) j)
    = (affine2 (V c main_v35) (V c main_v1) (V c main_v37) (V c main_v39) (V c main_v40)) (((cfg2.win 5).blk t).view.emb j)
  refine pay2_block _ _ _ _ _ _ _ _ _ _ (win2_5.index t (0 : Fin 2)) (rows2_0_read V c t) (rows2_1_read V c t)
    (whole2_2_read V c t) (whole2_3_read V c t) (whole2_4_read V c t) _ _ ?_ ?_
  · show win2_5.index t (0 : Fin 2) * 4000 + 1 * (j 0).val = win2_5.index t (0 : Fin 2) * 4000 + (j 0).val; omega
  · show win2_5.index t (1 : Fin 2) * 128 + 1 * (j 1).val = (j 1).val; omega

/-- An entry of the array is in point t's block iff each coordinate is in the block's range on its axis. -/
theorem mem_blk2 (t : Fin cfg2.N) (i : Cert.Spec.S400000x128.Idx) :
    i ∈ ((cfg2.win 5).blk t).view.set ↔ ∀ a : Fin 2, win2_5.index t a * Cert.KernelIdeal.S4000x128.size a ≤ (i a).val
      ∧ (i a).val < win2_5.index t a * Cert.KernelIdeal.S4000x128.size a + Cert.KernelIdeal.S4000x128.size a := by
  show i ∈ ((View.whole main_v41).slice (win2_5.rect t)).set ↔ _
  rw [View.set_slice_whole, Rect.mem_set_unit]
  exact Iff.rfl

/-- The blocks tile the array: row r is in the block of point r / 4000. -/
theorem cover2 (i : Cert.Spec.S400000x128.Idx) :
    ∃ t : Fin cfg2.N, (cfg2.win 5).flush t = true ∧ i ∈ ((cfg2.win 5).blk t).view.set := by
  have hi0 : (i 0).val < 400000 := (i 0).isLt
  have hi1 : (i 1).val < 128 := (i 1).isLt
  have ht : (i 0).val / 4000 < 100 := by omega
  obtain ⟨f00, f01, f10, f11, f20, f21, f30, f31, f40, f41, f50, f51⟩ := idx_facts2 ⟨(i 0).val / 4000, ht⟩
  have g50 : win2_5.index ⟨(i 0).val / 4000, ht⟩ (0 : Fin 2) = (i 0).val / 4000 := f50
  refine ⟨⟨(i 0).val / 4000, ht⟩, flush2_5 _, ?_⟩
  rw [mem_blk2]
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    omega
  | ⟨1, _⟩ =>
    show win2_5.index ⟨(i 0).val / 4000, ht⟩ (1 : Fin 2) * 128 ≤ (i 1).val ∧ (i 1).val < win2_5.index ⟨(i 0).val / 4000, ht⟩ (1 : Fin 2) * 128 + 128
    omega

/-- The second two-operand dense stage (psi2): 100 points of 4000 rows each. -/
theorem region2_out (c : Dev nD) :
    ((dat2 (F := Ideal) V c).arrAt 5 cfg2.N : Cert.Spec.S400000x128.Idx → EReal)
      = Cert.Spec.affine2 (V c main_v35) (V c main_v1) (V c main_v37) (V c main_v39) (V c main_v40) :=
  (dat2 (F := Ideal) V c).arrAt_eq_of_cover 5 _ (fun t _ => flushed2_eq V c t) cover2

end Cert.KernelIdeal.RegionAffine

end
-- ==== Proof.RegionsDense.lean ====
/-
  What each of the two projection pallas_calls leaves in its output array, as one function of the arrays the region finds
  on entry: every grid point writes its block of rows, the blocks tile the array, and inside a block an entry is the
  body's arithmetic on the rows and the weight matrices it loaded.
-/
import proofs.«416382_j85126251807356_1_alg».proof.Proof.Gen.KernelIdeal.Frame
import proofs.«416382_j85126251807356_1_alg».proof.Proof.Args
import Idealize.ShloMosaic.Lib.Pipeline.Value
import Idealize.ShloMosaic.Lib.ValueIdx
import Idealize.ShloMosaic.PureOps.Ideal.Laws

set_option maxRecDepth 16384

noncomputable section

namespace Cert.KernelIdeal.RegionDense

open Cert.KernelIdeal Cert.KernelIdeal.Gen Cert.KernelIdeal.Args Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The body's arithmetic at one entry of a block -/

/-- The left operand of the 5000-row product is read at (row of the output, contraction coordinate) … -/
theorem lhs5000_0 (i : Cert.KernelIdeal.S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin Cert.KernelIdeal.S5000x128.rank) ∈ dot_S5000x128_S128x128_S5000x128_1_0_0_1_n_n.lhsBatch by decide), dif_pos (show (0 : Fin Cert.KernelIdeal.S5000x128.rank) ∈ dot_S5000x128_S128x128_S5000x128_1_0_0_1_n_n.lhsNonContracting by decide)]
  rfl
theorem lhs5000_1 (i : Cert.KernelIdeal.S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … and the right operand at (contraction coordinate, column of the output). -/
theorem rhs5000_0 (i : Cert.KernelIdeal.S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs5000_1 (i : Cert.KernelIdeal.S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin Cert.KernelIdeal.S128x128.rank) ∈ dot_S5000x128_S128x128_S5000x128_1_0_0_1_n_n.rhsBatch by decide), dif_pos (show (1 : Fin Cert.KernelIdeal.S128x128.rank) ∈ dot_S5000x128_S128x128_S5000x128_1_0_0_1_n_n.rhsNonContracting by decide)]
  rfl

/-- One entry of the product of a 5000-row block with the weight matrix, accumulated into zero: the sum over the
    128 contraction coordinates. -/
theorem matmul5000_apply (a : FVec Ideal Cert.KernelIdeal.S5000x128 .bf16) (b : FVec Ideal Cert.KernelIdeal.S128x128 .bf16)
    (p : Fin 5000) (q : Fin 128) :
    FloatOps.matmul dot_S5000x128_S128x128_S5000x128_1_0_0_1_n_n none a b (constant Cert.KernelIdeal.S5000x128 .f32 0x00000000#32) (ix2 p q)
      = ∑ k : Fin 128, a (ix2 p k) * b (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs5000_0 _ _
    | ⟨1, _⟩ => exact (lhs5000_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs5000_0 _ _).trans hk
    | ⟨1, _⟩ => exact rhs5000_1 _ _)
  rw [el, er]

/-- The body of the node projection at entry (p, q) of its block: row p of the block times column q of the weight
    matrix, then the maximum with zero.  The two changes of float format are the identity on extended reals. -/
theorem k1_pay1_apply (x0 : Vec Ideal Cert.KernelIdeal.S5000x128 .f32) (x1 : Vec Ideal Cert.KernelIdeal.S128x128 .f32) (p : Fin 5000) (q : Fin 128) :
    k1_pay1 x0 x1 (ix2 p q) = max (∑ k : Fin 128, x0 (ix2 p k) * x1 (ix2 k q)) 0 := by
  unfold k1_pay1
  simp only [shapeCast_self]
  rw [maximumf_apply, broadcast_apply]
  simp only [matmul]
  rw [matmul5000_apply]
  simp only [truncf_apply]
  rw [show (Scalar.ofBits .f32 0x00000000#32 : Ideal .f32) = 0 from Ideal.ofBits_zero_f32]

/-! ## From the blocks to the array: the node projection -/

/-- The zero offsets of an access to a whole staging buffer. -/
theorem zeros2 : (![0, 0] : Fin 2 → Nat) = fun _ => 0 := funext fun a => by fin_cases a <;> rfl

/-- One entry of the body's block, for any blocks whose row of the left operand is row (i 0) of an array A and whose
    column of the right operand is column (i 1) of a matrix Wt: entry i of the projection of A by Wt. -/
theorem block1_apply (A : Cert.Spec.S50000x128.Idx → EReal) (Wt : Cert.Spec.S128x128.Idx → EReal)
    (x0 : Vec Ideal Cert.KernelIdeal.S5000x128 .f32) (x1 : Vec Ideal Cert.KernelIdeal.S128x128 .f32)
    (j : Cert.KernelIdeal.S5000x128.Idx) (i : Cert.Spec.S50000x128.Idx)
    (h0 : ∀ k : Fin 128, x0 (ix2 (j 0) k) = A (ix2 (i 0) k))
    (h1 : ∀ k : Fin 128, x1 (ix2 k (j 1)) = Wt (ix2 k (i 1))) :
    k1_pay1 x0 x1 j = denseRelu50k A Wt i := by
  refine ((congrArg (k1_pay1 x0 x1) (eq_ix2 j)).trans (k1_pay1_apply x0 x1 (j 0) (j 1))).trans ?_
  show _ = denseReluAt A Wt (i 0) (i 1)
  unfold denseReluAt
  simp only [h0, h1]

/-- The printed index maps over the 10 points: the rows' window and the output's move together, one block of rows
    per point; the weight matrix is staged whole at every point. -/
theorem index1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point t writes back is block t of the projection of the arrays the region finds on entry. -/
theorem flushed1 (c : Dev nD) (t : Fin cfg1.N) :
    (dat1 (F := Ideal) V c).flushed 2 t
      = ((cfg1.win 2).blk t).view.read (Elt Ideal) (denseRelu50k (V c main_v32) (V c main_v33)) := by
  show (cfg1.win 2).cut (grid1.coords t) ((dat1 V c).after 2 t) = _
  rw [after1_2]
  unfold out1_2
  rw [View.canon_unit_zero zeros2]
  simp only [View.ld_unit_zero (S := Cert.KernelIdeal.S5000x128) zeros2, View.ld_unit_zero (S := Cert.KernelIdeal.S128x128) zeros2]
  obtain ⟨e0, e1, e2, e3, e4, e5⟩ := index1 t
  funext j
  show k1_pay1 (iblk1 V c 0 t) (iblk1 V c 1 t) j = denseRelu50k (V c main_v32) (V c main_v33) (((cfg1.win 2).blk t).view.emb j)
  refine block1_apply (V c main_v32) (V c main_v33) (iblk1 V c 0 t) (iblk1 V c 1 t) j (((cfg1.win 2).blk t).view.emb j) (fun k => ?_) (fun k => ?_)
  · show V c main_v32 (((cfg1.win 0).blk t).view.emb (ix2 (j 0) k)) = V c main_v32 (ix2 ((((cfg1.win 2).blk t).view.emb j) 0) k)
    refine congrArg (V c main_v32) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_v33 (((cfg1.win 1).blk t).view.emb (ix2 k (j 1))) = V c main_v33 (ix2 k ((((cfg1.win 2).blk t).view.emb j) 1))
    refine congrArg (V c main_v33) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the array is in point t's block iff each coordinate is in the block's range on its axis. -/
theorem mem_block1 (t : Fin cfg1.N) (i : Cert.KernelIdeal.S50000x128.Idx) :
    i ∈ ((cfg1.win 2).blk t).view.set ↔ ∀ a : Fin 2, win1_2.index t a * Cert.KernelIdeal.S5000x128.size a ≤ (i a).val
      ∧ (i a).val < win1_2.index t a * Cert.KernelIdeal.S5000x128.size a + Cert.KernelIdeal.S5000x128.size a := by
  show i ∈ ((View.whole main_v34).slice (win1_2.rect t)).set ↔ _
  rw [View.set_slice_whole, Rect.mem_set_unit]
  exact Iff.rfl

/-- The ten blocks of 5000 rows tile the 50000 rows: row r is in the block of point r / 5000. -/
theorem cover1 (i : Cert.KernelIdeal.S50000x128.Idx) :
    ∃ t : Fin cfg1.N, (cfg1.win 2).flush t = true ∧ i ∈ ((cfg1.win 2).blk t).view.set := by
  have hN : grid1.N = 10 := N_1
  have hi0 : (i 0).val < 50000 := (i 0).isLt
  have hi1 : (i 1).val < 128 := (i 1).isLt
  have ht : (i 0).val / 5000 < cfg1.N := by show _ < grid1.N; rw [hN]; omega
  obtain ⟨e0, e1, e2, e3, e4, e5⟩ := index1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e4]; omega

/-- The node projection with its maximum with zero: 10 points of 5000 rows each. -/
theorem region1_out (c : Dev nD) :
    ((dat1 (F := Ideal) V c).arrAt 2 cfg1.N : Cert.Spec.S50000x128.Idx → EReal)
      = Cert.Spec.denseRelu50k (V c main_v32) (V c main_v33) :=
  (dat1 (F := Ideal) V c).arrAt_eq_of_cover 2 (denseRelu50k (V c main_v32) (V c main_v33)) (fun t _ => flushed1 V c t) cover1

/-! ## The same arithmetic on a block of 2000 rows -/

/-- The left operand of the 2000-row product is read at (row of the output, contraction coordinate) … -/
theorem lhs2000_0 (i : Cert.KernelIdeal.S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin Cert.KernelIdeal.S2000x128.rank) ∈ dot_S2000x128_S128x128_S2000x128_1_0_0_1_n_n.lhsBatch by decide), dif_pos (show (0 : Fin Cert.KernelIdeal.S2000x128.rank) ∈ dot_S2000x128_S128x128_S2000x128_1_0_0_1_n_n.lhsNonContracting by decide)]
  rfl
theorem lhs2000_1 (i : Cert.KernelIdeal.S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- … and the right operand at (contraction coordinate, column of the output). -/
theorem rhs2000_0 (i : Cert.KernelIdeal.S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs2000_1 (i : Cert.KernelIdeal.S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin Cert.KernelIdeal.S128x128.rank) ∈ dot_S2000x128_S128x128_S2000x128_1_0_0_1_n_n.rhsBatch by decide), dif_pos (show (1 : Fin Cert.KernelIdeal.S128x128.rank) ∈ dot_S2000x128_S128x128_S2000x128_1_0_0_1_n_n.rhsNonContracting by decide)]
  rfl

/-- One entry of the product of a 2000-row block with the weight matrix, accumulated into zero: the sum over the
    128 contraction coordinates. -/
theorem matmul2000_apply (a : FVec Ideal Cert.KernelIdeal.S2000x128 .bf16) (b : FVec Ideal Cert.KernelIdeal.S128x128 .bf16)
    (p : Fin 2000) (q : Fin 128) :
    FloatOps.matmul dot_S2000x128_S128x128_S2000x128_1_0_0_1_n_n none a b (constant Cert.KernelIdeal.S2000x128 .f32 0x00000000#32) (ix2 p q)
      = ∑ k : Fin 128, a (ix2 p k) * b (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs2000_0 _ _
    | ⟨1, _⟩ => exact (lhs2000_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs2000_0 _ _).trans hk
    | ⟨1, _⟩ => exact rhs2000_1 _ _)
  rw [el, er]

/-- The body of the hyperedge projection at entry (p, q) of its block: row p of the block times column q of the
    weight matrix, then the maximum with zero. -/
theorem k3_pay1_apply (x0 : Vec Ideal Cert.KernelIdeal.S2000x128 .f32) (x1 : Vec Ideal Cert.KernelIdeal.S128x128 .f32) (p : Fin 2000) (q : Fin 128) :
    k3_pay1 x0 x1 (ix2 p q) = max (∑ k : Fin 128, x0 (ix2 p k) * x1 (ix2 k q)) 0 := by
  unfold k3_pay1
  simp only [shapeCast_self]
  rw [maximumf_apply, broadcast_apply]
  simp only [matmul]
  rw [matmul2000_apply]
  simp only [truncf_apply]
  rw [show (Scalar.ofBits .f32 0x00000000#32 : Ideal .f32) = 0 from Ideal.ofBits_zero_f32]

/-! ## From the blocks to the array: the hyperedge projection -/

/-- One entry of the body's block, for any blocks whose row of the left operand is row (i 0) of an array A and whose
    column of the right operand is column (i 1) of a matrix Wt: entry i of the projection of A by Wt. -/
theorem block3_apply (A : Cert.Spec.S10000x128.Idx → EReal) (Wt : Cert.Spec.S128x128.Idx → EReal)
    (x0 : Vec Ideal Cert.KernelIdeal.S2000x128 .f32) (x1 : Vec Ideal Cert.KernelIdeal.S128x128 .f32)
    (j : Cert.KernelIdeal.S2000x128.Idx) (i : Cert.Spec.S10000x128.Idx)
    (h0 : ∀ k : Fin 128, x0 (ix2 (j 0) k) = A (ix2 (i 0) k))
    (h1 : ∀ k : Fin 128, x1 (ix2 k (j 1)) = Wt (ix2 k (i 1))) :
    k3_pay1 x0 x1 j = denseRelu10k A Wt i := by
  refine ((congrArg (k3_pay1 x0 x1) (eq_ix2 j)).trans (k3_pay1_apply x0 x1 (j 0) (j 1))).trans ?_
  show _ = denseReluAt A Wt (i 0) (i 1)
  unfold denseReluAt
  simp only [h0, h1]

/-- The printed index maps over the 5 points: the rows' window and the output's move together, one block of rows
    per point; the weight matrix is staged whole at every point. -/
theorem index3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What point t writes back is block t of the projection of the arrays the region finds on entry. -/
theorem flushed3 (c : Dev nD) (t : Fin cfg3.N) :
    (dat3 (F := Ideal) V c).flushed 2 t
      = ((cfg3.win 2).blk t).view.read (Elt Ideal) (denseRelu10k (V c main_v62) (V c main_v63)) := by
  show (cfg3.win 2).cut (grid3.coords t) ((dat3 V c).after 2 t) = _
  rw [after3_2]
  unfold out3_2
  rw [View.canon_unit_zero zeros2]
  simp only [View.ld_unit_zero (S := Cert.KernelIdeal.S2000x128) zeros2, View.ld_unit_zero (S := Cert.KernelIdeal.S128x128) zeros2]
  obtain ⟨e0, e1, e2, e3, e4, e5⟩ := index3 t
  funext j
  show k3_pay1 (iblk3 V c 0 t) (iblk3 V c 1 t) j = denseRelu10k (V c main_v62) (V c main_v63) (((cfg3.win 2).blk t).view.emb j)
  refine block3_apply (V c main_v62) (V c main_v63) (iblk3 V c 0 t) (iblk3 V c 1 t) j (((cfg3.win 2).blk t).view.emb j) (fun k => ?_) (fun k => ?_)
  · show V c main_v62 (((cfg3.win 0).blk t).view.emb (ix2 (j 0) k)) = V c main_v62 (ix2 ((((cfg3.win 2).blk t).view.emb j) 0) k)
    refine congrArg (V c main_v62) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * k.val = k.val; omega
  · show V c main_v63 (((cfg3.win 1).blk t).view.emb (ix2 k (j 1))) = V c main_v63 (ix2 k ((((cfg3.win 2).blk t).view.emb j) 1))
    refine congrArg (V c main_v63) (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An index of the array is in point t's block iff each coordinate is in the block's range on its axis. -/
theorem mem_block3 (t : Fin cfg3.N) (i : Cert.KernelIdeal.S10000x128.Idx) :
    i ∈ ((cfg3.win 2).blk t).view.set ↔ ∀ a : Fin 2, win3_2.index t a * Cert.KernelIdeal.S2000x128.size a ≤ (i a).val
      ∧ (i a).val < win3_2.index t a * Cert.KernelIdeal.S2000x128.size a + Cert.KernelIdeal.S2000x128.size a := by
  show i ∈ ((View.whole main_v64).slice (win3_2.rect t)).set ↔ _
  rw [View.set_slice_whole, Rect.mem_set_unit]
  exact Iff.rfl

/-- The five blocks of 2000 rows tile the 10000 rows: row r is in the block of point r / 2000. -/
theorem cover3 (i : Cert.KernelIdeal.S10000x128.Idx) :
    ∃ t : Fin cfg3.N, (cfg3.win 2).flush t = true ∧ i ∈ ((cfg3.win 2).blk t).view.set := by
  have hN : grid3.N = 5 := N_3
  have hi0 : (i 0).val < 10000 := (i 0).isLt
  have hi1 : (i 1).val < 128 := (i 1).isLt
  have ht : (i 0).val / 2000 < cfg3.N := by show _ < grid3.N; rw [hN]; omega
  obtain ⟨e0, e1, e2, e3, e4, e5⟩ := index3 ⟨(i 0).val / 2000, ht⟩
  refine ⟨⟨(i 0).val / 2000, ht⟩, flush3_2 _, ?_⟩
  rw [mem_block3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val
      ∧ (i 1).val < win3_2.index ⟨(i 0).val / 2000, ht⟩ (1 : Fin 2) * 128 + 128
    rw [e4]; omega

/-- The hyperedge projection with its maximum with zero: 5 points of 2000 rows each. -/
theorem region3_out (c : Dev nD) :
    ((dat3 (F := Ideal) V c).arrAt 2 cfg3.N : Cert.Spec.S10000x128.Idx → EReal)
      = Cert.Spec.denseRelu10k (V c main_v62) (V c main_v63) :=
  (dat3 (F := Ideal) V c).arrAt_eq_of_cover 2 (denseRelu10k (V c main_v62) (V c main_v63)) (fun t _ => flushed3 V c t) cover3

end Cert.KernelIdeal.RegionDense

end
-- ==== Proof.TakeGather.lean ====
/-
  The kernel gathers rows with a take that fills out-of-range positions: the index is wrapped if negative, tested
  against [0, n − 1], the row is gathered (the gather itself clamps), and a select keeps the gathered row where the
  test passed and a fill value elsewhere.  When every index lies in [0, n) nothing wraps, every test passes, and the
  select returns the gathered rows: the take is the plain gather the reference uses.
-/
import proofs.«416382_j85126251807356_1_alg».proof.Proof.Gen.KernelIdeal
import proofs.«416382_j85126251807356_1_alg».proof.Proof.Spec
import Idealize.ShloMosaic.Lib.ReduceAll
import Idealize.ShloMosaic.Lib.StableHlo.Predicate
import Idealize.ShloMosaic.Lib.ValueIdx

noncomputable section

namespace Cert.KernelIdeal.Take

open Cert.KernelIdeal Idealize.ShloMosaic
open Cert.KernelIdeal.Facts₀ Cert.KernelIdeal.Facts

variable {F : FTy → Type} [FloatOps F]

/-! ### General facts: an all-ones fold, an all-ones mask under a select, the words of an in-range index -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduce by `and` from the constant 1 of an operand that is 1 everywhere is 1 everywhere. -/
theorem reduce_andi_ones {s t u : Shape} {axes : List (Fin s.rank)} (x : s.Idx → BitVec 1) (init : u.Idx → BitVec 1)
    (hr : s.ReducesTo axes t) (hu : 0 < u.numel) (hx : ∀ i, x i = 1#1) (hinit : init (Shape.Idx.first hu) = 1#1)
    (j : t.Idx) : Host.reduce IntOp.andi x init hr hu j = 1#1 := by
  rw [Host.reduce_eq_foldl, hinit]
  exact foldl_andi_ones x hx _

/-- A select whose mask is 1 everywhere returns its first branch. -/
theorem select_ones {s : Shape} {α : Type} (c : IVec s 1) (a b : s.Idx → α) (hc : ∀ i, c i = 1#1) : select c a b = a := by
  funext i
  show Scalar.select (c i) (a i) (b i) = a i
  rw [hc i]
  rfl

/-- A broadcast read at any result index is the operand at some operand index. -/
theorem bcast_reads {s t : Shape} {α : Type} (dims : Fin s.rank → Fin t.rank) (hb : s.BroadcastsInDim t dims)
    (x : s.Idx → α) (j : t.Idx) : ∃ k, broadcastInDim t dims hb x j = x k := by
  unfold broadcastInDim
  exact ⟨_, rfl⟩

/-- A signed word e with 0 ≤ e < n, for a count n below 2³¹ whose predecessor is hi, is not negative and is at most hi. -/
theorem word_facts {e n hi : BitVec 32} (hn : n.toNat < 2 ^ 31) (hhi : hi.toNat + 1 = n.toNat)
    (h0 : IntOp.cmpi .sge e 0#32 = 1#1) (h1 : IntOp.cmpi .slt e n = 1#1) :
    IntOp.cmpi .slt e 0#32 ≠ 1#1 ∧ IntOp.cmpi .sle e hi = 1#1 := by
  have hn' : n.toInt = n.toNat := StableHlo.Predicate.toInt_eq_toNat_of_lt hn
  have hhi' : hi.toInt = hi.toNat := StableHlo.Predicate.toInt_eq_toNat_of_lt (by omega)
  have hz : (0#32 : BitVec 32).toInt = 0 := by decide
  simp only [IntOp.cmpi, StableHlo.Predicate.ofBool_eq_one_iff, BitVec.sle, BitVec.slt, decide_eq_true_eq, ne_eq] at h0 h1 ⊢
  rw [hz] at h0
  rw [hz]
  constructor <;> omega

/-- An index vector with its negative entries wrapped (idx < 0 ↦ idx + n), as a column. -/
def wrap400000 (n : BitVec 32) (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 n))) idx)

/-- The range test 0 ≤ v ≤ hi of a column of indices, one bit per row. -/
def mask400000 (hi : BitVec 32) (v : IVec S400000x1 32) : IVec S400000 1 :=
  Host.reduce IntOp.andi
    (andi (cmpi .sge v (broadcastInDim S400000x1 ![] bcast_S_S400000x1 (constantI S_ 32 0#32)))
      (cmpi .sle v (broadcastInDim S400000x1 ![0, 1] bcast_S1x1_S400000x1_0_1 (broadcastInDim S1x1 ![1] bcast_S1_S1x1_1 (constantI S1 32 hi)))))
    (constantI S_ 1 1#1) reducesTo_S400000x1_S400000_d1 h_S_

/-- An index vector with its negative entries wrapped (idx < 0 ↦ idx + n), as a column. -/
def wrap80000 (n : BitVec 32) (idx : IVec S80000 32) : IVec S80000x1 32 :=
  broadcastInDim S80000x1 ![0] bcast_S80000_S80000x1_0
    (select (cmpi .slt idx (broadcastInDim S80000 ![] bcast_S_S80000 (constantI S_ 32 0#32)))
      (addi idx (broadcastInDim S80000 ![] bcast_S_S80000 (constantI S_ 32 n))) idx)

/-- The range test 0 ≤ v ≤ hi of a column of indices, one bit per row. -/
def mask80000 (hi : BitVec 32) (v : IVec S80000x1 32) : IVec S80000 1 :=
  Host.reduce IntOp.andi
    (andi (cmpi .sge v (broadcastInDim S80000x1 ![] bcast_S_S80000x1 (constantI S_ 32 0#32)))
      (cmpi .sle v (broadcastInDim S80000x1 ![0, 1] bcast_S1x1_S80000x1_0_1 (broadcastInDim S1x1 ![1] bcast_S1_S1x1_1 (constantI S1 32 hi)))))
    (constantI S_ 1 1#1) reducesTo_S80000x1_S80000_d1 h_S_

/-- With every index in [0, n) the wrapped column holds the indices themselves and passes the range test 0 ≤ v ≤ n − 1
    at every row: the reduced mask is all ones. -/
theorem mask400000_ones {n hi : BitVec 32} (hn : n.toNat < 2 ^ 31) (hhi : hi.toNat + 1 = n.toNat) (idx : IVec S400000 32)
    (h : Cert.Spec.InRange idx n) (r : S400000.Idx) : mask400000 hi (wrap400000 n idx) r = 1#1 := by
  unfold mask400000
  refine reduce_andi_ones _ _ _ _ (fun i => ?_) rfl r
  obtain ⟨k, hk⟩ : ∃ k, wrap400000 n idx i
      = Scalar.select (IntOp.cmpi .slt (idx k) 0#32) (IntOp.addi (idx k) n) (idx k) := by
    unfold wrap400000
    obtain ⟨k, hk⟩ := bcast_reads ![0] bcast_S400000_S400000x1_0
      (select (cmpi .slt idx (broadcastInDim S400000 ![] bcast_S_S400000 (constantI S_ 32 0#32)))
        (addi idx (broadcastInDim S400000 ![] bcast_S_S400000 (constantI S_ 32 n))) idx) i
    exact ⟨k, hk⟩
  obtain ⟨w1, w2⟩ := word_facts hn hhi (h k).1 (h k).2
  have hv : wrap400000 n idx i = idx k := by
    rw [hk]; unfold Scalar.select; exact if_neg w1
  show IntOp.andi (IntOp.cmpi .sge (wrap400000 n idx i) 0#32) (IntOp.cmpi .sle (wrap400000 n idx i) hi) = 1#1
  rw [hv, (h k).1, w2]
  rfl

/-- The same at 80000 rows. -/
theorem mask80000_ones {n hi : BitVec 32} (hn : n.toNat < 2 ^ 31) (hhi : hi.toNat + 1 = n.toNat) (idx : IVec S80000 32)
    (h : Cert.Spec.InRange idx n) (r : S80000.Idx) : mask80000 hi (wrap80000 n idx) r = 1#1 := by
  unfold mask80000
  refine reduce_andi_ones _ _ _ _ (fun i => ?_) rfl r
  obtain ⟨k, hk⟩ : ∃ k, wrap80000 n idx i
      = Scalar.select (IntOp.cmpi .slt (idx k) 0#32) (IntOp.addi (idx k) n) (idx k) := by
    unfold wrap80000
    obtain ⟨k, hk⟩ := bcast_reads ![0] bcast_S80000_S80000x1_0
      (select (cmpi .slt idx (broadcastInDim S80000 ![] bcast_S_S80000 (constantI S_ 32 0#32)))
        (addi idx (broadcastInDim S80000 ![] bcast_S_S80000 (constantI S_ 32 n))) idx) i
    exact ⟨k, hk⟩
  obtain ⟨w1, w2⟩ := word_facts hn hhi (h k).1 (h k).2
  have hv : wrap80000 n idx i = idx k := by
    rw [hk]; unfold Scalar.select; exact if_neg w1
  show IntOp.andi (IntOp.cmpi .sge (wrap80000 n idx i) 0#32) (IntOp.cmpi .sle (wrap80000 n idx i) hi) = 1#1
  rw [hv, (h k).1, w2]
  rfl

/-- The filled take of rows of a [50000, 128] table at 400000 indices: the wrapped index's row where it is in range, the
    fill value elsewhere. -/
def take50k (x : FVec F S50000x128 .f32) (idx : IVec S400000 32) : FVec F S400000x128 .f32 :=
  select (broadcastInDim S400000x128 ![0] bcast_S400000_S400000x128_0 (mask400000 49999#32 (wrap400000 50000#32 idx)))
    (Host.gather gather_S50000x128_S400000x1_S400000x128_1_0_n_n_0_1_1128 x (wrap400000 50000#32 idx))
    (broadcastInDim S400000x128 ![] bcast_S_S400000x128 (constant S_ .f32 0x7FC00000#32))

/-- With every index in [0, 50000) the range mask is all ones and the filled take is the plain gather. -/
theorem take50k_eq (x : FVec F S50000x128 .f32) (idx : IVec S400000 32) (h : Cert.Spec.InRange idx 50000#32) :
    take50k x idx = Host.gather gather_S50000x128_S400000x1_S400000x128_1_0_n_n_0_1_1128 x (wrap400000 50000#32 idx) := by
  unfold take50k
  refine select_ones _ _ _ fun i => ?_
  obtain ⟨k, hk⟩ := bcast_reads ![0] bcast_S400000_S400000x128_0 (mask400000 49999#32 (wrap400000 50000#32 idx)) i
  rw [hk]
  exact mask400000_ones (by decide) (by decide) idx h k

/-- The filled take of rows of a [10000, 128] table at 400000 indices: the wrapped index's row where it is in range, the
    fill value elsewhere. -/
def take10k (x : FVec F S10000x128 .f32) (idx : IVec S400000 32) : FVec F S400000x128 .f32 :=
  select (broadcastInDim S400000x128 ![0] bcast_S400000_S400000x128_0 (mask400000 9999#32 (wrap400000 10000#32 idx)))
    (Host.gather gather_S10000x128_S400000x1_S400000x128_1_0_n_n_0_1_1128 x (wrap400000 10000#32 idx))
    (broadcastInDim S400000x128 ![] bcast_S_S400000x128 (constant S_ .f32 0x7FC00000#32))

/-- With every index in [0, 10000) the range mask is all ones and the filled take is the plain gather. -/
theorem take10k_eq (x : FVec F S10000x128 .f32) (idx : IVec S400000 32) (h : Cert.Spec.InRange idx 10000#32) :
    take10k x idx = Host.gather gather_S10000x128_S400000x1_S400000x128_1_0_n_n_0_1_1128 x (wrap400000 10000#32 idx) := by
  unfold take10k
  refine select_ones _ _ _ fun i => ?_
  obtain ⟨k, hk⟩ := bcast_reads ![0] bcast_S400000_S400000x128_0 (mask400000 9999#32 (wrap400000 10000#32 idx)) i
  rw [hk]
  exact mask400000_ones (by decide) (by decide) idx h k

/-- The filled take of rows of a [10000, 128] table at 80000 indices: the wrapped index's row where it is in range, the
    fill value elsewhere. -/
def take10k80k (x : FVec F S10000x128 .f32) (idx : IVec S80000 32) : FVec F S80000x128 .f32 :=
  select (broadcastInDim S80000x128 ![0] bcast_S80000_S80000x128_0 (mask80000 9999#32 (wrap80000 10000#32 idx)))
    (Host.gather gather_S10000x128_S80000x1_S80000x128_1_0_n_n_0_1_1128 x (wrap80000 10000#32 idx))
    (broadcastInDim S80000x128 ![] bcast_S_S80000x128 (constant S_ .f32 0x7FC00000#32))

/-- With every index in [0, 10000) the range mask is all ones and the filled take is the plain gather. -/
theorem take10k80k_eq (x : FVec F S10000x128 .f32) (idx : IVec S80000 32) (h : Cert.Spec.InRange idx 10000#32) :
    take10k80k x idx = Host.gather gather_S10000x128_S80000x1_S80000x128_1_0_n_n_0_1_1128 x (wrap80000 10000#32 idx) := by
  unfold take10k80k
  refine select_ones _ _ _ fun i => ?_
  obtain ⟨k, hk⟩ := bcast_reads ![0] bcast_S80000_S80000x128_0 (mask80000 9999#32 (wrap80000 10000#32 idx)) i
  rw [hk]
  exact mask80000_ones (by decide) (by decide) idx h k

end Cert.KernelIdeal.Take

end
-- ==== Proof.Host0.lean ====
/-
  The buffers the first pallas_call is entered with, read off the host operations before it: the two gathered
  operands (rows of vfeat at inc_src, rows of efeat at inc_dst), the two transposed halves of psi1_W and the bias row.
  With every index in range the kernel's filled take is the reference's plain gather.
-/
import proofs.«416382_j85126251807356_1_alg».proof.Proof.Gen.KernelIdeal.Frame
import proofs.«416382_j85126251807356_1_alg».proof.Proof.Gen.ReferenceIdeal.Read
import proofs.«416382_j85126251807356_1_alg».proof.Proof.Args
import proofs.«416382_j85126251807356_1_alg».proof.Proof.TakeGather
import Idealize.ShloMosaic.Lib.StableHlo.Run
import Idealize.ShloMosaic.Lib.ValueIdx

set_option maxRecDepth 16384

noncomputable section

namespace Cert.KernelIdeal.Host0

open Cert.KernelIdeal Cert.KernelIdeal.Gen Cert.KernelIdeal.Args Cert.Spec
open Idealize.ShloMosaic Idealize.ShloMosaic.TcCoe Idealize.SL.Sem
open Cert.ReferenceIdeal.Read
open Idealize.ShloMosaic.StableHlo Idealize.ShloMosaic.ValueIdx

variable (m : (ℓ : Loc nD τ sig) → Buf (Elt Ideal) ℓ) (ρ : Dev nD → PrngReg) (c : Dev nD)

/-- A stretch of host operations leaves a buffer that none of them writes as it was: the goal
    `after ops V b = V b` for a literal list `ops`, each operation's result buffer told apart from `b`. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments the three stretches read, at the boundaries where they are read -/

theorem W0_arg (b : Ref sig .tc) : W0 (F := Ideal) m ρ c (Proc.devRef .tc b) = m ((c : Thread nD τ).loc b) := rfl

theorem W1_arg1 : W1 (F := Ideal) m ρ c (Proc.devRef .tc main_arg1) = a1 m c := by
  refine Eq.trans ?_ (W0_arg m ρ c main_arg1)
  keeps hostOps0

theorem W1_arg5 : W1 (F := Ideal) m ρ c (Proc.devRef .tc main_arg5) = a5 m c := by
  refine Eq.trans ?_ (W0_arg m ρ c main_arg5)
  keeps hostOps0

theorem W2_arg14 : W2 (F := Ideal) m ρ c (Proc.devRef .tc main_arg14) = a14 m c := by
  have e2 : W2 (F := Ideal) m ρ c (Proc.devRef .tc main_arg14) = W1 (F := Ideal) m ρ c (Proc.devRef .tc main_arg14) := by
    keeps hostOps0_1
  have e1 : W1 (F := Ideal) m ρ c (Proc.devRef .tc main_arg14) = W0 (F := Ideal) m ρ c (Proc.devRef .tc main_arg14) := by
    keeps hostOps0
  exact e2.trans (e1.trans (W0_arg m ρ c main_arg14))

theorem W2_arg15 : W2 (F := Ideal) m ρ c (Proc.devRef .tc main_arg15) = a15 m c := by
  have e2 : W2 (F := Ideal) m ρ c (Proc.devRef .tc main_arg15) = W1 (F := Ideal) m ρ c (Proc.devRef .tc main_arg15) := by
    keeps hostOps0_1
  have e1 : W1 (F := Ideal) m ρ c (Proc.devRef .tc main_arg15) = W0 (F := Ideal) m ρ c (Proc.devRef .tc main_arg15) := by
    keeps hostOps0
  exact e2.trans (e1.trans (W0_arg m ρ c main_arg15))

/-! ## The two takes -/

set_option maxHeartbeats 8000000 in
/-- The first stretch is the filled take of vfeat at inc_src. -/
theorem W1_v0 : W1 (F := Ideal) m ρ c (Proc.devRef .tc main_v0) = Take.take50k (F := Ideal) (a0 m c) (a4 m c) := by
  dsimp only [W1]
  after_results_simp
  simp only [cast_cast, cast_eq]
  rfl

set_option maxHeartbeats 8000000 in
/-- The second stretch is the filled take of efeat at inc_dst. -/
theorem W2_v1 : W2 (F := Ideal) m ρ c (Proc.devRef .tc main_v1) = Take.take10k (F := Ideal) (a1 m c) (a5 m c) := by
  have h : W2 (F := Ideal) m ρ c (Proc.devRef .tc main_v1)
      = Take.take10k (F := Ideal) (W1 (F := Ideal) m ρ c (Proc.devRef .tc main_arg1)) (W1 (F := Ideal) m ρ c (Proc.devRef .tc main_arg5)) := by
    dsimp only [W2]
    after_results_simp
    simp only [cast_cast, cast_eq]
    rfl
  rw [h, W1_arg1, W1_arg5]

/-- The two programs' gather records are the same record. -/
theorem gather50k_eq : Cert.KernelIdeal.gather_S50000x128_S400000x1_S400000x128_1_0_n_n_0_1_1128
    = Cert.ReferenceIdeal.gather_S50000x128_S400000x1_S400000x128_1_0_n_n_0_1_1128 := rfl
theorem gather10k_eq : Cert.KernelIdeal.gather_S10000x128_S400000x1_S400000x128_1_0_n_n_0_1_1128
    = Cert.ReferenceIdeal.gather_S10000x128_S400000x1_S400000x128_1_0_n_n_0_1_1128 := rfl

/-- The reference's column of inc_src wrapped by 50000 is the kernel's. -/
theorem wrap_v5 (x4 : IVec Cert.KernelIdeal.S400000 32) : val_main_v5 (F := Ideal) x4 = Take.wrap400000 50000#32 x4 := by
  unfold val_main_v5 val_main_v4 val_main_v3 val_main_v2 val_main_c_0 val_main_v1 val_main_v0 val_main_c Take.wrap400000
  rfl

/-- The reference's column of inc_dst wrapped by 10000 is the kernel's. -/
theorem wrap_v12 (x5 : IVec Cert.KernelIdeal.S400000 32) : val_main_v12 (F := Ideal) x5 = Take.wrap400000 10000#32 x5 := by
  unfold val_main_v12 val_main_v11 val_main_v10 val_main_v9 val_main_c_2 val_main_v8 val_main_v7 val_main_c_1 Take.wrap400000
  rfl

/-- Rows of vfeat at inc_src. -/
theorem W3_v0 (h4 : InRange (a4 m c) 50000#32) :
    W3 (F := Ideal) m ρ c (Proc.devRef .tc main_v0) = val_main_v6 (F := Ideal) (a0 m c) (a4 m c) := by
  have e3 : W3 (F := Ideal) m ρ c (Proc.devRef .tc main_v0) = W2 (F := Ideal) m ρ c (Proc.devRef .tc main_v0) := by
    keeps hostOps0_2
  have e2 : W2 (F := Ideal) m ρ c (Proc.devRef .tc main_v0) = W1 (F := Ideal) m ρ c (Proc.devRef .tc main_v0) := by
    keeps hostOps0_1
  refine e3.trans (e2.trans ((W1_v0 m ρ c).trans ?_))
  rw [Take.take50k_eq _ _ h4]
  unfold val_main_v6
  rw [wrap_v5, gather50k_eq]

/-- Rows of efeat at inc_dst. -/
theorem W3_v1 (h5 : InRange (a5 m c) 10000#32) :
    W3 (F := Ideal) m ρ c (Proc.devRef .tc main_v1) = val_main_v13 (F := Ideal) (a1 m c) (a5 m c) := by
  have e3 : W3 (F := Ideal) m ρ c (Proc.devRef .tc main_v1) = W2 (F := Ideal) m ρ c (Proc.devRef .tc main_v1) := by
    keeps hostOps0_2
  refine e3.trans ((W2_v1 m ρ c).trans ?_)
  rw [Take.take10k_eq _ _ h5]
  unfold val_main_v13
  rw [wrap_v12, gather10k_eq]

/-! ## The weight halves and the bias row -/

/-- The transposed left [128, 128] block of a [128, 256] matrix, read at an index: entry (k, j) is w (j, k). -/
theorem transpose_slice_apply (w : Cert.KernelIdeal.S128x256.Idx → EReal) (i : Cert.KernelIdeal.S128x128.Idx) :
    transpose Cert.KernelIdeal.S128x128 [1, 0] (extractStridedSlice Cert.KernelIdeal.S128x128 ![0, 0] w slices_S128x256_S128x128_0_0) transposes_S128x128_S128x128_1_0 i
      = wLo w i := by
  refine (transpose_apply [1, 0] _ transposes_S128x128_S128x128_1_0 i (ix2 (n0 := 128) (n1 := 128) (i 1) (i 0))
    (fun b => match b with | ⟨0, _⟩ => rfl | ⟨1, _⟩ => rfl)).trans ?_
  unfold wLo
  exact extractStridedSlice_apply ![0, 0] w slices_S128x256_S128x128_0_0 _ _
    (fun a => match a with | ⟨0, _⟩ => (Nat.zero_add _).symm | ⟨1, _⟩ => (Nat.zero_add _).symm)

/-- The transposed right [128, 128] block of a [128, 256] matrix, read at an index: entry (k, j) is w (j, 128 + k). -/
theorem transpose_slice_hi_apply (w : Cert.KernelIdeal.S128x256.Idx → EReal) (i : Cert.KernelIdeal.S128x128.Idx) :
    transpose Cert.KernelIdeal.S128x128 [1, 0] (extractStridedSlice Cert.KernelIdeal.S128x128 ![0, 128] w slices_S128x256_S128x128_0_128) transposes_S128x128_S128x128_1_0 i
      = wHi w i := by
  refine (transpose_apply [1, 0] _ transposes_S128x128_S128x128_1_0 i (ix2 (n0 := 128) (n1 := 128) (i 1) (i 0))
    (fun b => match b with | ⟨0, _⟩ => rfl | ⟨1, _⟩ => rfl)).trans ?_
  unfold wHi
  exact extractStridedSlice_apply ![0, 128] w slices_S128x256_S128x128_0_128 _ _
    (fun a => match a with | ⟨0, _⟩ => (Nat.zero_add _).symm | ⟨1, _⟩ => rfl)

/-- A [128] vector recast as [1, 128], read at an index. -/
theorem reshape_row_apply (b : Cert.KernelIdeal.S128.Idx → EReal) (i : Cert.KernelIdeal.S1x128.Idx) :
    shapeCast Cert.KernelIdeal.S1x128 b shapeCasts_S128_S1x128 i = row b i := by
  unfold row
  refine shapeCast_apply b shapeCasts_S128_S1x128 i _ ?_
  rw [Shape.rowMajor_val_one, Shape.rowMajor_val_two]
  have h0 : (i 0).val < 1 := (i 0).isLt
  show (i 1).val = (i 0).val * 128 + (i 1).val
  omega

/-- The left half of psi1_W, transposed. -/
theorem W3_v3 : W3 (F := Ideal) m ρ c (Proc.devRef .tc main_v3) = wLo (a14 m c) := by
  have h : W3 (F := Ideal) m ρ c (Proc.devRef .tc main_v3)
      = transpose Cert.KernelIdeal.S128x128 [1, 0] (extractStridedSlice Cert.KernelIdeal.S128x128 ![0, 0] (W2 (F := Ideal) m ρ c (Proc.devRef .tc main_arg14)) slices_S128x256_S128x128_0_0) transposes_S128x128_S128x128_1_0 := by
    dsimp only [W3]
    after_results_simp
  rw [h, W2_arg14]
  funext i
  exact transpose_slice_apply _ i

/-- The right half of psi1_W, transposed. -/
theorem W3_v5 : W3 (F := Ideal) m ρ c (Proc.devRef .tc main_v5) = wHi (a14 m c) := by
  have h : W3 (F := Ideal) m ρ c (Proc.devRef .tc main_v5)
      = transpose Cert.KernelIdeal.S128x128 [1, 0] (extractStridedSlice Cert.KernelIdeal.S128x128 ![0, 128] (W2 (F := Ideal) m ρ c (Proc.devRef .tc main_arg14)) slices_S128x256_S128x128_0_128) transposes_S128x128_S128x128_1_0 := by
    dsimp only [W3]
    after_results_simp
  rw [h, W2_arg14]
  funext i
  exact transpose_slice_hi_apply _ i

/-- psi1_b as a row. -/
theorem W3_v6 : W3 (F := Ideal) m ρ c (Proc.devRef .tc main_v6) = row (a15 m c) := by
  have h : W3 (F := Ideal) m ρ c (Proc.devRef .tc main_v6)
      = shapeCast Cert.KernelIdeal.S1x128 (W2 (F := Ideal) m ρ c (Proc.devRef .tc main_arg15)) shapeCasts_S128_S1x128 := by
    dsimp only [W3]
    after_results_simp
    rfl
  rw [h, W2_arg15]
  funext i
  exact reshape_row_apply _ i

end Cert.KernelIdeal.Host0

end
-- ==== Proof.Host1.lean ====
/-
  From the first dense stage's output to the node projection's input: the scaling by invDV at inc_src, the sum into
  hyperedges, the sparse product with emat, the residual efeat, and the sum of incident hyperedge rows into nodes.
  Both programs apply the same host operations here; the kernel's filled takes are plain gathers on in-range indices,
  and the one product written in the other order is the same product.
-/
import proofs.«416382_j85126251807356_1_alg».proof.Proof.Gen.KernelIdeal.Frame
import proofs.«416382_j85126251807356_1_alg».proof.Proof.Gen.ReferenceIdeal.Read
import proofs.«416382_j85126251807356_1_alg».proof.Proof.Args
import proofs.«416382_j85126251807356_1_alg».proof.Proof.TakeGather
import Idealize.ShloMosaic.Lib.StableHlo.Run
import Idealize.ShloMosaic.Lib.ValueIdx

set_option maxRecDepth 16384

noncomputable section

namespace Cert.KernelIdeal.Host1

open Cert.KernelIdeal Cert.KernelIdeal.Gen Cert.KernelIdeal.Args Cert.Spec
open Idealize.ShloMosaic Idealize.ShloMosaic.TcCoe Idealize.SL.Sem
open Cert.ReferenceIdeal.Read

open Idealize.ShloMosaic.StableHlo

variable (m : (ℓ : Loc nD τ sig) → Buf (Elt Ideal) ℓ) (ρ : Dev nD → PrngReg) (c : Dev nD)

/-! ## The argument arrays at the inner boundaries

No host operation writes an argument array and the first dense stage only reads them, so at every boundary an
argument array holds its launch contents. -/

/-- A buffer that no operation of a stretch writes holds after the stretch what it held before it. -/
local macro "unwritten " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem W4_arg1 : W4 (F := Ideal) m ρ c (Proc.devRef .tc main_arg1) = a1 m c :=
  calc W4 (F := Ideal) m ρ c (Proc.devRef .tc main_arg1)
    _ = W3 (F := Ideal) m ρ c (Proc.devRef .tc main_arg1) := W4_of_ne m ρ c main_arg1 (by decide)
    _ = W2 (F := Ideal) m ρ c (Proc.devRef .tc main_arg1) := by unwritten hostOps0_2
    _ = W1 (F := Ideal) m ρ c (Proc.devRef .tc main_arg1) := by unwritten hostOps0_1
    _ = W0 (F := Ideal) m ρ c (Proc.devRef .tc main_arg1) := by unwritten hostOps0
    _ = a1 m c := rfl

theorem W4_arg2 : W4 (F := Ideal) m ρ c (Proc.devRef .tc main_arg2) = a2 m c :=
  calc W4 (F := Ideal) m ρ c (Proc.devRef .tc main_arg2)
    _ = W3 (F := Ideal) m ρ c (Proc.devRef .tc main_arg2) := W4_of_ne m ρ c main_arg2 (by decide)
    _ = W2 (F := Ideal) m ρ c (Proc.devRef .tc main_arg2) := by unwritten hostOps0_2
    _ = W1 (F := Ideal) m ρ c (Proc.devRef .tc main_arg2) := by unwritten hostOps0_1
    _ = W0 (F := Ideal) m ρ c (Proc.devRef .tc main_arg2) := by unwritten hostOps0
    _ = a2 m c := rfl

theorem W4_arg4 : W4 (F := Ideal) m ρ c (Proc.devRef .tc main_arg4) = a4 m c :=
  calc W4 (F := Ideal) m ρ c (Proc.devRef .tc main_arg4)
    _ = W3 (F := Ideal) m ρ c (Proc.devRef .tc main_arg4) := W4_of_ne m ρ c main_arg4 (by decide)
    _ = W2 (F := Ideal) m ρ c (Proc.devRef .tc main_arg4) := by unwritten hostOps0_2
    _ = W1 (F := Ideal) m ρ c (Proc.devRef .tc main_arg4) := by unwritten hostOps0_1
    _ = W0 (F := Ideal) m ρ c (Proc.devRef .tc main_arg4) := by unwritten hostOps0
    _ = a4 m c := rfl

theorem W4_arg5 : W4 (F := Ideal) m ρ c (Proc.devRef .tc main_arg5) = a5 m c :=
  calc W4 (F := Ideal) m ρ c (Proc.devRef .tc main_arg5)
    _ = W3 (F := Ideal) m ρ c (Proc.devRef .tc main_arg5) := W4_of_ne m ρ c main_arg5 (by decide)
    _ = W2 (F := Ideal) m ρ c (Proc.devRef .tc main_arg5) := by unwritten hostOps0_2
    _ = W1 (F := Ideal) m ρ c (Proc.devRef .tc main_arg5) := by unwritten hostOps0_1
    _ = W0 (F := Ideal) m ρ c (Proc.devRef .tc main_arg5) := by unwritten hostOps0
    _ = a5 m c := rfl

theorem W4_arg6 : W4 (F := Ideal) m ρ c (Proc.devRef .tc main_arg6) = a6 m c :=
  calc W4 (F := Ideal) m ρ c (Proc.devRef .tc main_arg6)
    _ = W3 (F := Ideal) m ρ c (Proc.devRef .tc main_arg6) := W4_of_ne m ρ c main_arg6 (by decide)
    _ = W2 (F := Ideal) m ρ c (Proc.devRef .tc main_arg6) := by unwritten hostOps0_2
    _ = W1 (F := Ideal) m ρ c (Proc.devRef .tc main_arg6) := by unwritten hostOps0_1
    _ = W0 (F := Ideal) m ρ c (Proc.devRef .tc main_arg6) := by unwritten hostOps0
    _ = a6 m c := rfl

theorem W4_arg7 : W4 (F := Ideal) m ρ c (Proc.devRef .tc main_arg7) = a7 m c :=
  calc W4 (F := Ideal) m ρ c (Proc.devRef .tc main_arg7)
    _ = W3 (F := Ideal) m ρ c (Proc.devRef .tc main_arg7) := W4_of_ne m ρ c main_arg7 (by decide)
    _ = W2 (F := Ideal) m ρ c (Proc.devRef .tc main_arg7) := by unwritten hostOps0_2
    _ = W1 (F := Ideal) m ρ c (Proc.devRef .tc main_arg7) := by unwritten hostOps0_1
    _ = W0 (F := Ideal) m ρ c (Proc.devRef .tc main_arg7) := by unwritten hostOps0
    _ = a7 m c := rfl

theorem W4_arg8 : W4 (F := Ideal) m ρ c (Proc.devRef .tc main_arg8) = a8 m c :=
  calc W4 (F := Ideal) m ρ c (Proc.devRef .tc main_arg8)
    _ = W3 (F := Ideal) m ρ c (Proc.devRef .tc main_arg8) := W4_of_ne m ρ c main_arg8 (by decide)
    _ = W2 (F := Ideal) m ρ c (Proc.devRef .tc main_arg8) := by unwritten hostOps0_2
    _ = W1 (F := Ideal) m ρ c (Proc.devRef .tc main_arg8) := by unwritten hostOps0_1
    _ = W0 (F := Ideal) m ρ c (Proc.devRef .tc main_arg8) := by unwritten hostOps0
    _ = a8 m c := rfl

theorem W4_arg12 : W4 (F := Ideal) m ρ c (Proc.devRef .tc main_arg12) = a12 m c :=
  calc W4 (F := Ideal) m ρ c (Proc.devRef .tc main_arg12)
    _ = W3 (F := Ideal) m ρ c (Proc.devRef .tc main_arg12) := W4_of_ne m ρ c main_arg12 (by decide)
    _ = W2 (F := Ideal) m ρ c (Proc.devRef .tc main_arg12) := by unwritten hostOps0_2
    _ = W1 (F := Ideal) m ρ c (Proc.devRef .tc main_arg12) := by unwritten hostOps0_1
    _ = W0 (F := Ideal) m ρ c (Proc.devRef .tc main_arg12) := by unwritten hostOps0
    _ = a12 m c := rfl

theorem W5_arg1 : W5 (F := Ideal) m ρ c (Proc.devRef .tc main_arg1) = a1 m c :=
  calc W5 (F := Ideal) m ρ c (Proc.devRef .tc main_arg1)
    _ = W4 (F := Ideal) m ρ c (Proc.devRef .tc main_arg1) := by unwritten hostOps1
    _ = a1 m c := W4_arg1 m ρ c

theorem W5_arg4 : W5 (F := Ideal) m ρ c (Proc.devRef .tc main_arg4) = a4 m c :=
  calc W5 (F := Ideal) m ρ c (Proc.devRef .tc main_arg4)
    _ = W4 (F := Ideal) m ρ c (Proc.devRef .tc main_arg4) := by unwritten hostOps1
    _ = a4 m c := W4_arg4 m ρ c

theorem W5_arg5 : W5 (F := Ideal) m ρ c (Proc.devRef .tc main_arg5) = a5 m c :=
  calc W5 (F := Ideal) m ρ c (Proc.devRef .tc main_arg5)
    _ = W4 (F := Ideal) m ρ c (Proc.devRef .tc main_arg5) := by unwritten hostOps1
    _ = a5 m c := W4_arg5 m ρ c

theorem W5_arg6 : W5 (F := Ideal) m ρ c (Proc.devRef .tc main_arg6) = a6 m c :=
  calc W5 (F := Ideal) m ρ c (Proc.devRef .tc main_arg6)
    _ = W4 (F := Ideal) m ρ c (Proc.devRef .tc main_arg6) := by unwritten hostOps1
    _ = a6 m c := W4_arg6 m ρ c

theorem W5_arg7 : W5 (F := Ideal) m ρ c (Proc.devRef .tc main_arg7) = a7 m c :=
  calc W5 (F := Ideal) m ρ c (Proc.devRef .tc main_arg7)
    _ = W4 (F := Ideal) m ρ c (Proc.devRef .tc main_arg7) := by unwritten hostOps1
    _ = a7 m c := W4_arg7 m ρ c

theorem W5_arg8 : W5 (F := Ideal) m ρ c (Proc.devRef .tc main_arg8) = a8 m c :=
  calc W5 (F := Ideal) m ρ c (Proc.devRef .tc main_arg8)
    _ = W4 (F := Ideal) m ρ c (Proc.devRef .tc main_arg8) := by unwritten hostOps1
    _ = a8 m c := W4_arg8 m ρ c

theorem W5_arg12 : W5 (F := Ideal) m ρ c (Proc.devRef .tc main_arg12) = a12 m c :=
  calc W5 (F := Ideal) m ρ c (Proc.devRef .tc main_arg12)
    _ = W4 (F := Ideal) m ρ c (Proc.devRef .tc main_arg12) := by unwritten hostOps1
    _ = a12 m c := W4_arg12 m ρ c

theorem W6_arg1 : W6 (F := Ideal) m ρ c (Proc.devRef .tc main_arg1) = a1 m c :=
  calc W6 (F := Ideal) m ρ c (Proc.devRef .tc main_arg1)
    _ = W5 (F := Ideal) m ρ c (Proc.devRef .tc main_arg1) := by unwritten hostOps1_1
    _ = a1 m c := W5_arg1 m ρ c

theorem W6_arg4 : W6 (F := Ideal) m ρ c (Proc.devRef .tc main_arg4) = a4 m c :=
  calc W6 (F := Ideal) m ρ c (Proc.devRef .tc main_arg4)
    _ = W5 (F := Ideal) m ρ c (Proc.devRef .tc main_arg4) := by unwritten hostOps1_1
    _ = a4 m c := W5_arg4 m ρ c

theorem W6_arg5 : W6 (F := Ideal) m ρ c (Proc.devRef .tc main_arg5) = a5 m c :=
  calc W6 (F := Ideal) m ρ c (Proc.devRef .tc main_arg5)
    _ = W5 (F := Ideal) m ρ c (Proc.devRef .tc main_arg5) := by unwritten hostOps1_1
    _ = a5 m c := W5_arg5 m ρ c

theorem W6_arg6 : W6 (F := Ideal) m ρ c (Proc.devRef .tc main_arg6) = a6 m c :=
  calc W6 (F := Ideal) m ρ c (Proc.devRef .tc main_arg6)
    _ = W5 (F := Ideal) m ρ c (Proc.devRef .tc main_arg6) := by unwritten hostOps1_1
    _ = a6 m c := W5_arg6 m ρ c

theorem W6_arg8 : W6 (F := Ideal) m ρ c (Proc.devRef .tc main_arg8) = a8 m c :=
  calc W6 (F := Ideal) m ρ c (Proc.devRef .tc main_arg8)
    _ = W5 (F := Ideal) m ρ c (Proc.devRef .tc main_arg8) := by unwritten hostOps1_1
    _ = a8 m c := W5_arg8 m ρ c

theorem W6_arg12 : W6 (F := Ideal) m ρ c (Proc.devRef .tc main_arg12) = a12 m c :=
  calc W6 (F := Ideal) m ρ c (Proc.devRef .tc main_arg12)
    _ = W5 (F := Ideal) m ρ c (Proc.devRef .tc main_arg12) := by unwritten hostOps1_1
    _ = a12 m c := W5_arg12 m ρ c

theorem W7_arg4 : W7 (F := Ideal) m ρ c (Proc.devRef .tc main_arg4) = a4 m c :=
  calc W7 (F := Ideal) m ρ c (Proc.devRef .tc main_arg4)
    _ = W6 (F := Ideal) m ρ c (Proc.devRef .tc main_arg4) := by unwritten hostOps1_2
    _ = a4 m c := W6_arg4 m ρ c

theorem W7_arg5 : W7 (F := Ideal) m ρ c (Proc.devRef .tc main_arg5) = a5 m c :=
  calc W7 (F := Ideal) m ρ c (Proc.devRef .tc main_arg5)
    _ = W6 (F := Ideal) m ρ c (Proc.devRef .tc main_arg5) := by unwritten hostOps1_2
    _ = a5 m c := W6_arg5 m ρ c

theorem W7_arg12 : W7 (F := Ideal) m ρ c (Proc.devRef .tc main_arg12) = a12 m c :=
  calc W7 (F := Ideal) m ρ c (Proc.devRef .tc main_arg12)
    _ = W6 (F := Ideal) m ρ c (Proc.devRef .tc main_arg12) := by unwritten hostOps1_2
    _ = a12 m c := W6_arg12 m ρ c

theorem W8_arg4 : W8 (F := Ideal) m ρ c (Proc.devRef .tc main_arg4) = a4 m c :=
  calc W8 (F := Ideal) m ρ c (Proc.devRef .tc main_arg4)
    _ = W7 (F := Ideal) m ρ c (Proc.devRef .tc main_arg4) := by unwritten hostOps1_3
    _ = a4 m c := W7_arg4 m ρ c

theorem W8_arg12 : W8 (F := Ideal) m ρ c (Proc.devRef .tc main_arg12) = a12 m c :=
  calc W8 (F := Ideal) m ρ c (Proc.devRef .tc main_arg12)
    _ = W7 (F := Ideal) m ρ c (Proc.devRef .tc main_arg12) := by unwritten hostOps1_3
    _ = a12 m c := W7_arg12 m ρ c

/-! ## The two filled takes of this part, as the composite of their operations -/

set_option maxHeartbeats 8000000 in
/-- The rows of the hyperedge sums at emat_cols: the stretch's last buffer is the filled take of the table it finds
    in main_v20 at the indices it finds in argument 7.  The transports between a buffer's type and its value's type
    are identities and are removed before the two sides are compared. -/
theorem take_v21 (V : Valuation τ sig (Elt Ideal)) :
    StableHlo.after hostOps1_1 V (Proc.devRef .tc main_v21)
      = Take.take10k80k (F := Ideal) (V (Proc.devRef .tc main_v20)) (V (Proc.devRef .tc main_arg7)) := by
  after_results_simp
  simp only [TRef.ofBuf, TRef.toBuf, cast_cast, cast_eq]
  rfl

set_option maxHeartbeats 8000000 in
/-- The rows of the hyperedge features at inc_dst: the filled take of the table in main_v28 at argument 5. -/
theorem take_v29 (V : Valuation τ sig (Elt Ideal)) :
    StableHlo.after hostOps1_3 V (Proc.devRef .tc main_v29)
      = Take.take10k (F := Ideal) (V (Proc.devRef .tc main_v28)) (V (Proc.devRef .tc main_arg5)) := by
  after_results_simp
  simp only [TRef.ofBuf, TRef.toBuf, cast_cast, cast_eq]
  rfl

/-- On the extended reals the entrywise product of two arrays does not depend on the order of the factors. -/
theorem mulf_comm {s : Shape} {φ : FTy} (x y : FVec Ideal s φ) : mulf x y = mulf y x := by
  funext i
  simp only [mulf, Ideal.mulf_def]
  exact mul_comm _ _

/-! ## The chain, boundary by boundary

At each boundary the kernel's buffer is one reference stage of the argument arrays.  Each step reads the stretch's
operations off the fold, puts in what the operand buffers hold (the previous step's stage and argument arrays), and
is then the reference's operations on the same operands. -/

set_option maxHeartbeats 8000000 in
/-- The first dense stage's rows scaled by invDV at inc_src and summed into their hyperedges. -/
theorem W5_v20
    (hx : W4 (F := Ideal) m ρ c (Proc.devRef .tc main_v7) = val_main_v19 (F := Ideal) (a0 m c) (a1 m c) (a4 m c) (a5 m c) (a14 m c) (a15 m c)) :
    W5 (F := Ideal) m ρ c (Proc.devRef .tc main_v20)
      = val_main_v32 (F := Ideal) (a0 m c) (a1 m c) (a2 m c) (a4 m c) (a5 m c) (a14 m c) (a15 m c) := by
  have e2 := W4_arg2 m ρ c
  have e4 := W4_arg4 m ρ c
  have e5 := W4_arg5 m ρ c
  dsimp only [W5]
  generalize W4 (F := Ideal) m ρ c = V at hx e2 e4 e5 ⊢
  after_results_simp
  rw [hx, e2, e4, e5]
  unfold val_main_v32 val_main_v31 val_main_v30 val_main_cst val_main_v29 val_main_v28 val_main_v27 val_main_v26
    val_main_v25 val_main_v24 val_main_v23 val_main_v22 val_main_c_4 val_main_v21 val_main_v20 val_main_c_3
  rfl

/-- The wrapped column of emat_cols is the same in both programs. -/
theorem wrap_v39 (x7 : IVec S80000 32) : val_main_v39 (F := Ideal) x7 = Take.wrap80000 10000#32 x7 := by
  unfold val_main_v39 val_main_v38 val_main_v37 val_main_v36 val_main_c_6 val_main_v35 val_main_v34 val_main_c_5
    Take.wrap80000
  rfl

/-- The wrapped column of inc_dst is the same in both programs. -/
theorem wrap_v52 (x5 : IVec S400000 32) : val_main_v52 (F := Ideal) x5 = Take.wrap400000 10000#32 x5 := by
  unfold val_main_v52 val_main_v51 val_main_v50 val_main_v49 val_main_c_9 val_main_v48 val_main_v47 val_main_c_8
    Take.wrap400000
  rfl

/-- The hyperedge sums' rows at emat_cols: in range, the filled take is the reference's gather. -/
theorem W6_v21 (h7 : InRange (a7 m c) 10000#32)
    (h20 : W5 (F := Ideal) m ρ c (Proc.devRef .tc main_v20)
      = val_main_v32 (F := Ideal) (a0 m c) (a1 m c) (a2 m c) (a4 m c) (a5 m c) (a14 m c) (a15 m c)) :
    W6 (F := Ideal) m ρ c (Proc.devRef .tc main_v21)
      = val_main_v40 (F := Ideal) (a0 m c) (a1 m c) (a2 m c) (a4 m c) (a5 m c) (a7 m c) (a14 m c) (a15 m c) := by
  dsimp only [W6]
  rw [take_v21, h20, W5_arg7 m ρ c, Take.take10k80k_eq _ _ h7]
  unfold val_main_v40
  rw [wrap_v39]
  rfl

set_option maxHeartbeats 8000000 in
/-- The sparse product with emat (its values times the gathered rows, in either order), summed into emat_rows, plus
    the residual efeat. -/
theorem W7_v28
    (h21 : W6 (F := Ideal) m ρ c (Proc.devRef .tc main_v21)
      = val_main_v40 (F := Ideal) (a0 m c) (a1 m c) (a2 m c) (a4 m c) (a5 m c) (a7 m c) (a14 m c) (a15 m c)) :
    W7 (F := Ideal) m ρ c (Proc.devRef .tc main_v28)
      = val_main_v46 (F := Ideal) (a0 m c) (a1 m c) (a2 m c) (a4 m c) (a5 m c) (a6 m c) (a7 m c) (a8 m c) (a14 m c) (a15 m c) := by
  have e1 := W6_arg1 m ρ c
  have e6 := W6_arg6 m ρ c
  have e8 := W6_arg8 m ρ c
  dsimp only [W7]
  generalize W6 (F := Ideal) m ρ c = V at h21 e1 e6 e8 ⊢
  after_results_simp
  rw [h21, e1, e6, e8, mulf_comm]
  unfold val_main_v46 val_main_v45 val_main_v44 val_main_v43 val_main_cst_7 val_main_v42 val_main_v41 val_main_v33
  rfl

/-- The hyperedge features' rows at inc_dst: in range, the filled take is the reference's gather. -/
theorem W8_v29 (h5 : InRange (a5 m c) 10000#32)
    (h28 : W7 (F := Ideal) m ρ c (Proc.devRef .tc main_v28)
      = val_main_v46 (F := Ideal) (a0 m c) (a1 m c) (a2 m c) (a4 m c) (a5 m c) (a6 m c) (a7 m c) (a8 m c) (a14 m c) (a15 m c)) :
    W8 (F := Ideal) m ρ c (Proc.devRef .tc main_v29)
      = val_main_v53 (F := Ideal) (a0 m c) (a1 m c) (a2 m c) (a4 m c) (a5 m c) (a6 m c) (a7 m c) (a8 m c) (a14 m c) (a15 m c) := by
  dsimp only [W8]
  rw [take_v29, h28, W7_arg5 m ρ c, Take.take10k_eq _ _ h5]
  unfold val_main_v53
  rw [wrap_v52]
  rfl

set_option maxHeartbeats 8000000 in
/-- The gathered hyperedge rows summed into their nodes. -/
theorem W9_v32_of
    (h29 : W8 (F := Ideal) m ρ c (Proc.devRef .tc main_v29)
      = val_main_v53 (F := Ideal) (a0 m c) (a1 m c) (a2 m c) (a4 m c) (a5 m c) (a6 m c) (a7 m c) (a8 m c) (a14 m c) (a15 m c)) :
    W9 (F := Ideal) m ρ c (Proc.devRef .tc main_v32)
      = val_main_v56 (F := Ideal) (a0 m c) (a1 m c) (a2 m c) (a4 m c) (a5 m c) (a6 m c) (a7 m c) (a8 m c) (a14 m c) (a15 m c) := by
  have e4 := W8_arg4 m ρ c
  dsimp only [W9]
  generalize W8 (F := Ideal) m ρ c = V at h29 e4 ⊢
  after_results_simp
  rw [h29, e4]
  unfold val_main_v56 val_main_v55 val_main_v54 val_main_cst_10
  rfl

/-- The summed incident hyperedge rows per node (the node projection's input). -/
theorem W9_v32 (h4 : InRange (a4 m c) 50000#32) (h5 : InRange (a5 m c) 10000#32) (h7 : InRange (a7 m c) 10000#32)
    (hx : W4 (F := Ideal) m ρ c (Proc.devRef .tc main_v7) = val_main_v19 (F := Ideal) (a0 m c) (a1 m c) (a4 m c) (a5 m c) (a14 m c) (a15 m c)) :
    W9 (F := Ideal) m ρ c (Proc.devRef .tc main_v32) = val_main_v56 (F := Ideal) (a0 m c) (a1 m c) (a2 m c) (a4 m c) (a5 m c) (a6 m c) (a7 m c) (a8 m c) (a14 m c) (a15 m c) :=
  W9_v32_of m ρ c (W8_v29 m ρ c h5 (W7_v28 m ρ c (W6_v21 m ρ c h7 (W5_v20 m ρ c hx))))

set_option maxHeartbeats 8000000 in
/-- Wv transposed. -/
theorem W9_v33 : W9 (F := Ideal) m ρ c (Proc.devRef .tc main_v33) = val_main_v57 (F := Ideal) (a12 m c) := by
  have e12 := W8_arg12 m ρ c
  dsimp only [W9]
  generalize W8 (F := Ideal) m ρ c = V at e12 ⊢
  after_results_simp
  rw [e12]
  unfold val_main_v57
  rfl

end Cert.KernelIdeal.Host1

end
-- ==== Proof.Host2.lean ====
/-
  The buffers the second two-operand dense stage is entered with: rows of the node projection's output at inc_src,
  the rows of efeat at inc_dst gathered at the start, the two transposed halves of psi2_W and the bias row.
-/
import proofs.«416382_j85126251807356_1_alg».proof.Proof.Gen.KernelIdeal.Frame
import proofs.«416382_j85126251807356_1_alg».proof.Proof.Gen.ReferenceIdeal.Read
import proofs.«416382_j85126251807356_1_alg».proof.Proof.Args
import proofs.«416382_j85126251807356_1_alg».proof.Proof.TakeGather
import Idealize.ShloMosaic.Lib.StableHlo.Run
import Idealize.ShloMosaic.Lib.ValueIdx

set_option maxRecDepth 16384

noncomputable section

namespace Cert.KernelIdeal.Host2

open Cert.KernelIdeal Cert.KernelIdeal.Gen Cert.KernelIdeal.Args Cert.Spec
open Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

/-- A buffer that no operation of a stretch writes holds after the stretch what it held before. -/
local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Argument 4 is as launched when the second call returns: no host operation writes it and no call has it as an output. -/
theorem W10_arg4 : W10 (F := Ideal) m ρ c (Proc.devRef .tc main_arg4) = a4 m c :=
  calc W10 (F := Ideal) m ρ c (Proc.devRef .tc main_arg4)
    _ = W9 (F := Ideal) m ρ c (Proc.devRef .tc main_arg4) := W10_of_ne m ρ c main_arg4 (by decide)
    _ = W8 (F := Ideal) m ρ c (Proc.devRef .tc main_arg4) := by keeps hostOps1_4
    _ = W7 (F := Ideal) m ρ c (Proc.devRef .tc main_arg4) := by keeps hostOps1_3
    _ = W6 (F := Ideal) m ρ c (Proc.devRef .tc main_arg4) := by keeps hostOps1_2
    _ = W5 (F := Ideal) m ρ c (Proc.devRef .tc main_arg4) := by keeps hostOps1_1
    _ = W4 (F := Ideal) m ρ c (Proc.devRef .tc main_arg4) := by keeps hostOps1
    _ = W3 (F := Ideal) m ρ c (Proc.devRef .tc main_arg4) := W4_of_ne m ρ c main_arg4 (by decide)
    _ = W2 (F := Ideal) m ρ c (Proc.devRef .tc main_arg4) := by keeps hostOps0_2
    _ = W1 (F := Ideal) m ρ c (Proc.devRef .tc main_arg4) := by keeps hostOps0_1
    _ = W0 (F := Ideal) m ρ c (Proc.devRef .tc main_arg4) := by keeps hostOps0
    _ = a4 m c := rfl

/-- Argument 16 is as launched when the second call returns: no host operation writes it and no call has it as an output. -/
theorem W10_arg16 : W10 (F := Ideal) m ρ c (Proc.devRef .tc main_arg16) = a16 m c :=
  calc W10 (F := Ideal) m ρ c (Proc.devRef .tc main_arg16)
    _ = W9 (F := Ideal) m ρ c (Proc.devRef .tc main_arg16) := W10_of_ne m ρ c main_arg16 (by decide)
    _ = W8 (F := Ideal) m ρ c (Proc.devRef .tc main_arg16) := by keeps hostOps1_4
    _ = W7 (F := Ideal) m ρ c (Proc.devRef .tc main_arg16) := by keeps hostOps1_3
    _ = W6 (F := Ideal) m ρ c (Proc.devRef .tc main_arg16) := by keeps hostOps1_2
    _ = W5 (F := Ideal) m ρ c (Proc.devRef .tc main_arg16) := by keeps hostOps1_1
    _ = W4 (F := Ideal) m ρ c (Proc.devRef .tc main_arg16) := by keeps hostOps1
    _ = W3 (F := Ideal) m ρ c (Proc.devRef .tc main_arg16) := W4_of_ne m ρ c main_arg16 (by decide)
    _ = W2 (F := Ideal) m ρ c (Proc.devRef .tc main_arg16) := by keeps hostOps0_2
    _ = W1 (F := Ideal) m ρ c (Proc.devRef .tc main_arg16) := by keeps hostOps0_1
    _ = W0 (F := Ideal) m ρ c (Proc.devRef .tc main_arg16) := by keeps hostOps0
    _ = a16 m c := rfl

/-- Argument 17 is as launched when the second call returns: no host operation writes it and no call has it as an output. -/
theorem W10_arg17 : W10 (F := Ideal) m ρ c (Proc.devRef .tc main_arg17) = a17 m c :=
  calc W10 (F := Ideal) m ρ c (Proc.devRef .tc main_arg17)
    _ = W9 (F := Ideal) m ρ c (Proc.devRef .tc main_arg17) := W10_of_ne m ρ c main_arg17 (by decide)
    _ = W8 (F := Ideal) m ρ c (Proc.devRef .tc main_arg17) := by keeps hostOps1_4
    _ = W7 (F := Ideal) m ρ c (Proc.devRef .tc main_arg17) := by keeps hostOps1_3
    _ = W6 (F := Ideal) m ρ c (Proc.devRef .tc main_arg17) := by keeps hostOps1_2
    _ = W5 (F := Ideal) m ρ c (Proc.devRef .tc main_arg17) := by keeps hostOps1_1
    _ = W4 (F := Ideal) m ρ c (Proc.devRef .tc main_arg17) := by keeps hostOps1
    _ = W3 (F := Ideal) m ρ c (Proc.devRef .tc main_arg17) := W4_of_ne m ρ c main_arg17 (by decide)
    _ = W2 (F := Ideal) m ρ c (Proc.devRef .tc main_arg17) := by keeps hostOps0_2
    _ = W1 (F := Ideal) m ρ c (Proc.devRef .tc main_arg17) := by keeps hostOps0_1
    _ = W0 (F := Ideal) m ρ c (Proc.devRef .tc main_arg17) := by keeps hostOps0
    _ = a17 m c := rfl

/-- The reference's wrapped column of inc_src is the kernel's. -/
theorem wrap65 (x4 : IVec S400000 32) : val_main_v65 (F := Ideal) x4 = Take.wrap400000 50000#32 x4 := by
  unfold val_main_v65 val_main_v64 val_main_v63 val_main_v62 val_main_c_12 val_main_v61 val_main_v60 val_main_c_11 Take.wrap400000
  rfl

/-- The reference's wrapped column of inc_dst is the kernel's. -/
theorem wrap72 (x5 : IVec S400000 32) : val_main_v72 (F := Ideal) x5 = Take.wrap400000 10000#32 x5 := by
  unfold val_main_v72 val_main_v71 val_main_v70 val_main_v69 val_main_c_14 val_main_v68 val_main_v67 val_main_c_13 Take.wrap400000
  rfl

/-- The two programs' gather records for a [50000, 128] table at 400000 rows are the same record. -/
theorem gather50k_eq : Cert.KernelIdeal.gather_S50000x128_S400000x1_S400000x128_1_0_n_n_0_1_1128
    = Cert.ReferenceIdeal.gather_S50000x128_S400000x1_S400000x128_1_0_n_n_0_1_1128 := rfl

/-- The two programs' gather records for a [10000, 128] table at 400000 rows are the same record. -/
theorem gather10k_eq : Cert.KernelIdeal.gather_S10000x128_S400000x1_S400000x128_1_0_n_n_0_1_1128
    = Cert.ReferenceIdeal.gather_S10000x128_S400000x1_S400000x128_1_0_n_n_0_1_1128 := rfl

set_option maxHeartbeats 8000000 in
/-- The left half of psi2_W, transposed. -/
theorem W12_v37 : W12 (F := Ideal) m ρ c (Proc.devRef .tc main_v37) = wLo (a16 m c) := by
  dsimp only [W12]
  after_results_simp
  rw [W10_arg16]
  funext i
  refine (transpose_apply [1, 0] _ transposes_S128x128_S128x128_1_0 i (ValueIdx.ix2 (n0 := 128) (n1 := 128) (i 1) (i 0)) (fun b => match b with
    | ⟨0, _⟩ => rfl
    | ⟨1, _⟩ => rfl)).trans ?_
  unfold wLo
  exact extractStridedSlice_apply ![0, 0] (a16 m c) slices_S128x256_S128x128_0_0 _ _ (fun a => match a with
    | ⟨0, _⟩ => by show (i 1).val = 0 + (i 1).val; omega
    | ⟨1, _⟩ => by show (i 0).val = 0 + (i 0).val; omega)

set_option maxHeartbeats 8000000 in
/-- The right half of psi2_W, transposed. -/
theorem W12_v39 : W12 (F := Ideal) m ρ c (Proc.devRef .tc main_v39) = wHi (a16 m c) := by
  dsimp only [W12]
  after_results_simp
  rw [W10_arg16]
  funext i
  refine (transpose_apply [1, 0] _ transposes_S128x128_S128x128_1_0 i (ValueIdx.ix2 (n0 := 128) (n1 := 128) (i 1) (i 0)) (fun b => match b with
    | ⟨0, _⟩ => rfl
    | ⟨1, _⟩ => rfl)).trans ?_
  unfold wHi
  exact extractStridedSlice_apply ![0, 128] (a16 m c) slices_S128x256_S128x128_0_128 _ _ (fun a => match a with
    | ⟨0, _⟩ => by show (i 1).val = 0 + (i 1).val; omega
    | ⟨1, _⟩ => by show 128 + (i 0).val = 128 + (i 0).val; rfl)

set_option maxHeartbeats 8000000 in
/-- psi2_b as a row. -/
theorem W12_v40 : W12 (F := Ideal) m ρ c (Proc.devRef .tc main_v40) = row (a17 m c) := by
  dsimp only [W12]
  after_results_simp
  rw [W10_arg17]
  funext i
  show shapeCast S1x128 (a17 m c) shapeCasts_S128_S1x128 i = a17 m c (ValueIdx.ix1 (n := 128) (i 1))
  refine shapeCast_apply (a17 m c) shapeCasts_S128_S1x128 i _ ?_
  rw [Shape.rowMajor_val_one, Shape.rowMajor_val_two]
  have h0 : (i 0).val < 1 := (i 0).isLt
  show (i 1).val = (i 0).val * 128 + (i 1).val
  omega

set_option maxHeartbeats 8000000 in
/-- What the stretch before the third call writes into main_v35: the filled take of the projected node features at
    inc_src; the stretch after it leaves the buffer alone. -/
theorem W12_v35_take : W12 (F := Ideal) m ρ c (Proc.devRef .tc main_v35)
    = Take.take50k (F := Ideal) (W10 (F := Ideal) m ρ c (Proc.devRef .tc main_v34)) (W10 (F := Ideal) m ρ c (Proc.devRef .tc main_arg4)) := by
  dsimp only [W12]
  after_results_simp
  simp only [StableHlo.TRef.ofBuf, StableHlo.TRef.toBuf, cast_cast, cast_eq]
  rfl

/-- Rows of the projected node features at inc_src. -/
theorem W12_v35 (h4 : InRange (a4 m c) 50000#32)
    (hy : W10 (F := Ideal) m ρ c (Proc.devRef .tc main_v34) = val_main_v59 (F := Ideal) (a0 m c) (a1 m c) (a2 m c) (a4 m c) (a5 m c) (a6 m c) (a7 m c) (a8 m c) (a12 m c) (a14 m c) (a15 m c)) :
    W12 (F := Ideal) m ρ c (Proc.devRef .tc main_v35) = val_main_v66 (F := Ideal) (a0 m c) (a1 m c) (a2 m c) (a4 m c) (a5 m c) (a6 m c) (a7 m c) (a8 m c) (a12 m c) (a14 m c) (a15 m c) := by
  rw [W12_v35_take, hy, W10_arg4, Take.take50k_eq _ _ h4]
  unfold val_main_v66
  rw [wrap65, gather50k_eq]

set_option maxHeartbeats 8000000 in
/-- What the second stretch writes into main_v1: the filled take of efeat at inc_dst, both read as launched (the first
    stretch writes neither). -/
theorem W2_v1 : W2 (F := Ideal) m ρ c (Proc.devRef .tc main_v1)
    = Take.take10k (F := Ideal) (W0 (F := Ideal) m ρ c (Proc.devRef .tc main_arg1)) (W0 (F := Ideal) m ρ c (Proc.devRef .tc main_arg5)) := by
  dsimp only [W2]
  after_results_simp
  simp only [StableHlo.TRef.ofBuf, StableHlo.TRef.toBuf, cast_cast, cast_eq]
  rfl

/-- main_v1 is an input array of the first call: the call returns it as entered. -/
theorem W4_v1 : W4 (F := Ideal) m ρ c (Proc.devRef .tc main_v1) = W3 (F := Ideal) m ρ c (Proc.devRef .tc main_v1) :=
  (W4_arr m ρ c 1).trans ((Pipeline.Dat.arrAt_in (dat0 (V3 m ρ) c) 1 (by decide) cfg0.N).trans (A_eq0 (V3 m ρ) c 1))

/-- Rows of efeat at inc_dst, as gathered before the first stage and untouched since. -/
theorem W12_v1 (h5 : InRange (a5 m c) 10000#32) :
    W12 (F := Ideal) m ρ c (Proc.devRef .tc main_v1) = val_main_v73 (F := Ideal) (a1 m c) (a5 m c) :=
  calc W12 (F := Ideal) m ρ c (Proc.devRef .tc main_v1)
    _ = W11 (F := Ideal) m ρ c (Proc.devRef .tc main_v1) := by keeps hostOps2_1
    _ = W10 (F := Ideal) m ρ c (Proc.devRef .tc main_v1) := by keeps hostOps2
    _ = W9 (F := Ideal) m ρ c (Proc.devRef .tc main_v1) := W10_of_ne m ρ c main_v1 (by decide)
    _ = W8 (F := Ideal) m ρ c (Proc.devRef .tc main_v1) := by keeps hostOps1_4
    _ = W7 (F := Ideal) m ρ c (Proc.devRef .tc main_v1) := by keeps hostOps1_3
    _ = W6 (F := Ideal) m ρ c (Proc.devRef .tc main_v1) := by keeps hostOps1_2
    _ = W5 (F := Ideal) m ρ c (Proc.devRef .tc main_v1) := by keeps hostOps1_1
    _ = W4 (F := Ideal) m ρ c (Proc.devRef .tc main_v1) := by keeps hostOps1
    _ = W3 (F := Ideal) m ρ c (Proc.devRef .tc main_v1) := W4_v1 m ρ c
    _ = W2 (F := Ideal) m ρ c (Proc.devRef .tc main_v1) := by keeps hostOps0_2
    _ = Take.take10k (F := Ideal) (W0 (F := Ideal) m ρ c (Proc.devRef .tc main_arg1)) (W0 (F := Ideal) m ρ c (Proc.devRef .tc main_arg5)) :=
        W2_v1 m ρ c
    _ = Take.take10k (F := Ideal) (a1 m c) (a5 m c) := rfl
    _ = Host.gather gather_S10000x128_S400000x1_S400000x128_1_0_n_n_0_1_1128 (a1 m c) (Take.wrap400000 10000#32 (a5 m c)) :=
        Take.take10k_eq (F := Ideal) _ _ h5
    _ = val_main_v73 (F := Ideal) (a1 m c) (a5 m c) := by
        unfold val_main_v73
        rw [wrap72, gather10k_eq]

end Cert.KernelIdeal.Host2

end
-- ==== Proof.Host3.lean ====
/-
  From the second dense stage's output to the hyperedge projection's input: the sum into hyperedges scaled by invDE,
  and beside it the raw efeat rows summed into nodes, the sparse product with vmat, the rows at inc_src summed back
  into hyperedges; the two are added.  The node projection's output, the first result, is not touched after its region.
-/
import proofs.«416382_j85126251807356_1_alg».proof.Proof.Gen.KernelIdeal.Frame
import proofs.«416382_j85126251807356_1_alg».proof.Proof.Gen.ReferenceIdeal.Read
import proofs.«416382_j85126251807356_1_alg».proof.Proof.Args
import proofs.«416382_j85126251807356_1_alg».proof.Proof.TakeGather
import Idealize.ShloMosaic.Lib.StableHlo.Run
import Idealize.ShloMosaic.Lib.ValueIdx

set_option maxRecDepth 16384

noncomputable section

namespace Cert.KernelIdeal.Host3

open Cert.KernelIdeal Cert.KernelIdeal.Gen Cert.KernelIdeal.Args Cert.Spec
open Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

/-! ### Buffers that a stretch of host operations does not write -/

/-- Closes `after ops V b = V b` for a literal stretch `ops` none of whose operations writes the buffer `b`:
    each operation writes one named buffer, and distinct names are distinct buffers. -/
local macro "unwritten" : tactic => `(tactic| (
  refine StableHlo.after_of_forall_not_mem _ _ (List.forall_iff_forall_mem.mp ?_)
  simp only [hostOps0, hostOps0_1, hostOps0_2, hostOps1, hostOps1_1, hostOps1_2, hostOps1_3, hostOps1_4, hostOps2, hostOps2_1,
    hostOps3, hostOps3_1, hostOps3_2, hostOps3_3, hostOps3_4,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The same through `n` consecutive stretches, from the later boundary down to the earlier one. -/
local macro "unwritten_through " n:num : tactic => `(tactic| (
  iterate $n (refine Eq.trans (by unwritten) ?_)
  exact rfl))

/-! ### The argument arrays at the boundaries where this part of the program reads them

    No host operation and no region writes an argument array, so at every boundary it holds the launch contents. -/

theorem W18_arg3 : W18 (F := Ideal) m ρ c (Proc.devRef .tc main_arg3) = a3 m c :=
  (W19_of_ne m ρ c main_arg3 (by decide)).symm.trans (W19_main_arg3 m ρ c)
theorem W18_arg4 : W18 (F := Ideal) m ρ c (Proc.devRef .tc main_arg4) = a4 m c :=
  (W19_of_ne m ρ c main_arg4 (by decide)).symm.trans (W19_main_arg4 m ρ c)
theorem W18_arg5 : W18 (F := Ideal) m ρ c (Proc.devRef .tc main_arg5) = a5 m c :=
  (W19_of_ne m ρ c main_arg5 (by decide)).symm.trans (W19_main_arg5 m ρ c)
theorem W18_arg9 : W18 (F := Ideal) m ρ c (Proc.devRef .tc main_arg9) = a9 m c :=
  (W19_of_ne m ρ c main_arg9 (by decide)).symm.trans (W19_main_arg9 m ρ c)
theorem W18_arg10 : W18 (F := Ideal) m ρ c (Proc.devRef .tc main_arg10) = a10 m c :=
  (W19_of_ne m ρ c main_arg10 (by decide)).symm.trans (W19_main_arg10 m ρ c)
theorem W18_arg11 : W18 (F := Ideal) m ρ c (Proc.devRef .tc main_arg11) = a11 m c :=
  (W19_of_ne m ρ c main_arg11 (by decide)).symm.trans (W19_main_arg11 m ρ c)
theorem W18_arg13 : W18 (F := Ideal) m ρ c (Proc.devRef .tc main_arg13) = a13 m c :=
  (W19_of_ne m ρ c main_arg13 (by decide)).symm.trans (W19_main_arg13 m ρ c)

theorem W17_arg13 : W17 (F := Ideal) m ρ c (Proc.devRef .tc main_arg13) = a13 m c := by
  refine Eq.trans (Eq.symm ?_) (W18_arg13 m ρ c); unwritten_through 1
theorem W17_arg5 : W17 (F := Ideal) m ρ c (Proc.devRef .tc main_arg5) = a5 m c := by
  refine Eq.trans (Eq.symm ?_) (W18_arg5 m ρ c); unwritten_through 1
theorem W16_arg4 : W16 (F := Ideal) m ρ c (Proc.devRef .tc main_arg4) = a4 m c := by
  refine Eq.trans (Eq.symm ?_) (W18_arg4 m ρ c); unwritten_through 2
theorem W15_arg9 : W15 (F := Ideal) m ρ c (Proc.devRef .tc main_arg9) = a9 m c := by
  refine Eq.trans (Eq.symm ?_) (W18_arg9 m ρ c); unwritten_through 3
theorem W15_arg11 : W15 (F := Ideal) m ρ c (Proc.devRef .tc main_arg11) = a11 m c := by
  refine Eq.trans (Eq.symm ?_) (W18_arg11 m ρ c); unwritten_through 3
theorem W14_arg10 : W14 (F := Ideal) m ρ c (Proc.devRef .tc main_arg10) = a10 m c := by
  refine Eq.trans (Eq.symm ?_) (W18_arg10 m ρ c); unwritten_through 4
theorem W13_arg3 : W13 (F := Ideal) m ρ c (Proc.devRef .tc main_arg3) = a3 m c := by
  refine Eq.trans (Eq.symm ?_) (W18_arg3 m ρ c); unwritten_through 5
theorem W13_arg4 : W13 (F := Ideal) m ρ c (Proc.devRef .tc main_arg4) = a4 m c := by
  refine Eq.trans (Eq.symm ?_) (W18_arg4 m ρ c); unwritten_through 5
theorem W13_arg5 : W13 (F := Ideal) m ρ c (Proc.devRef .tc main_arg5) = a5 m c := by
  refine Eq.trans (Eq.symm ?_) (W18_arg5 m ρ c); unwritten_through 5

theorem W1_arg1 : W1 (F := Ideal) m ρ c (Proc.devRef .tc main_arg1) = a1 m c := by
  unwritten_through 1
theorem W1_arg5 : W1 (F := Ideal) m ρ c (Proc.devRef .tc main_arg5) = a5 m c := by
  unwritten_through 1

/-! ### Contents at a buffer's own type -/

/-- Contents moved to a buffer's own type and back are the contents: the two transports are along one equation
    and its inverse. -/
theorem ofBuf_toBuf {Val : EltTy → Type} {T : BufTy} (r : Ref sig .tc) (e e' : r.ty = T) (d d' : r.space ≠ .host)
    (u u' : r.isScoped = false) (v : T.Contents Val) :
    (StableHlo.TRef.of r e d u).ofBuf ((StableHlo.TRef.of r e' d' u').toBuf v) = v := by
  subst e
  rfl

/-! ### The index columns and the one product written in the other order -/

/-- The reference's wrapped column of inc_dst, for a table of 10000 rows. -/
theorem v91_eq (x5) : val_main_v91 (F := Ideal) x5 = Take.wrap400000 10000#32 x5 := by
  unfold val_main_v91 val_main_v90 val_main_v89 val_main_v88 val_main_c_17 val_main_v87 val_main_v86 val_main_c_16 Take.wrap400000
  rfl
/-- The reference's wrapped column of vmat_cols, for a table of 50000 rows. -/
theorem v102_eq (x10) : val_main_v102 (F := Ideal) x10 = Take.wrap400000 50000#32 x10 := by
  unfold val_main_v102 val_main_v101 val_main_v100 val_main_v99 val_main_c_20 val_main_v98 val_main_v97 val_main_c_19 Take.wrap400000
  rfl
/-- The reference's wrapped column of inc_src, for a table of 50000 rows. -/
theorem v114_eq (x4) : val_main_v114 (F := Ideal) x4 = Take.wrap400000 50000#32 x4 := by
  unfold val_main_v114 val_main_v113 val_main_v112 val_main_v111 val_main_c_23 val_main_v110 val_main_v109 val_main_c_22 Take.wrap400000
  rfl

/-- On the extended reals the entrywise product of two arrays does not depend on the order of the factors. -/
theorem mulf_comm_vec {s : Shape} (x y : FVec Ideal s .f32) : mulf x y = mulf y x := by
  funext i
  simp only [mulf, Ideal.mulf_def]
  exact mul_comm _ _

/-! ### The efeat rows at inc_dst: gathered once before the first region, read again here

    The buffer is an input array of the first and of the third region and is written by nothing else, so at the
    third region's exit it still holds the take that filled it. -/

set_option maxHeartbeats 8000000 in
theorem W3_v1 : W3 (F := Ideal) m ρ c (Proc.devRef .tc main_v1) = Take.take10k (F := Ideal) (a1 m c) (a5 m c) := by
  refine Eq.trans (by unwritten) ?_
  refine Eq.trans (b := Take.take10k (F := Ideal) (W1 (F := Ideal) m ρ c (Proc.devRef .tc main_arg1)) (W1 (F := Ideal) m ρ c (Proc.devRef .tc main_arg5))) ?_ ?_
  · dsimp only [W2]
    generalize W1 (F := Ideal) m ρ c = V
    after_results_simp
    simp only [ofBuf_toBuf]
    simp only [StableHlo.TRef.ofBuf, StableHlo.TRef.toBuf, cast_eq]
    unfold Take.take10k Take.mask400000 Take.wrap400000
    rfl
  · rw [W1_arg1 m ρ c, W1_arg5 m ρ c]

theorem W13_v1_W3 : W13 (F := Ideal) m ρ c (Proc.devRef .tc main_v1) = W3 (F := Ideal) m ρ c (Proc.devRef .tc main_v1) := by
  refine Eq.trans (W13_arr m ρ c 1) ?_
  refine Eq.trans ((dat2 (V12 m ρ) c).arrAt_in 1 (by decide) _) ?_
  refine Eq.trans (A_eq2 (V12 m ρ) c 1) ?_
  show W12 (F := Ideal) m ρ c (Proc.devRef .tc main_v1) = _
  iterate 2 (refine Eq.trans (by unwritten) ?_)
  refine Eq.trans (W10_of_ne m ρ c main_v1 (by decide)) ?_
  iterate 5 (refine Eq.trans (by unwritten) ?_)
  refine Eq.trans (W4_arr m ρ c 1) ?_
  refine Eq.trans ((dat0 (V3 m ρ) c).arrAt_in 1 (by decide) _) ?_
  exact A_eq0 (V3 m ρ) c 1

/-- At the third region's exit the buffer holds the reference's third gather of efeat at inc_dst. -/
theorem W13_v1 (h5 : InRange (a5 m c) 10000#32) :
    W13 (F := Ideal) m ρ c (Proc.devRef .tc main_v1) = val_main_v92 (F := Ideal) (a1 m c) (a5 m c) := by
  rw [W13_v1_W3 m ρ c, W3_v1 m ρ c, Take.take10k_eq _ _ h5, ← v91_eq]
  unfold val_main_v92
  rfl

/-! ### After the third region: the two sums, stretch by stretch -/

set_option maxHeartbeats 8000000 in
/-- The dense stage's output summed into hyperedges and scaled by invDE. -/
theorem W14_v47
    (hz : W13 (F := Ideal) m ρ c (Proc.devRef .tc main_v41) = val_main_v79 (F := Ideal) (a0 m c) (a1 m c) (a2 m c) (a4 m c) (a5 m c) (a6 m c) (a7 m c) (a8 m c) (a12 m c) (a14 m c) (a15 m c) (a16 m c) (a17 m c)) :
    W14 (F := Ideal) m ρ c (Proc.devRef .tc main_v47) = val_main_v85 (F := Ideal) (a0 m c) (a1 m c) (a2 m c) (a3 m c) (a4 m c) (a5 m c) (a6 m c) (a7 m c) (a8 m c) (a12 m c) (a14 m c) (a15 m c) (a16 m c) (a17 m c) := by
  dsimp only [W14]
  after_results_simp
  rw [W13_arg3 m ρ c, W13_arg5 m ρ c, hz]
  unfold val_main_v85 val_main_v82 val_main_v80 val_main_cst_15 val_main_v81 val_main_v84 val_main_v83
  rfl

set_option maxHeartbeats 8000000 in
/-- The efeat rows at inc_dst summed into nodes at inc_src. -/
theorem W14_v50 (h5 : InRange (a5 m c) 10000#32) :
    W14 (F := Ideal) m ρ c (Proc.devRef .tc main_v50) = val_main_v95 (F := Ideal) (a1 m c) (a4 m c) (a5 m c) := by
  dsimp only [W14]
  after_results_simp
  rw [W13_arg4 m ρ c, W13_v1 m ρ c h5]
  unfold val_main_v95 val_main_v93 val_main_cst_18 val_main_v94
  rfl

set_option maxHeartbeats 8000000 in
/-- Its rows at vmat_cols. -/
theorem W15_v51 (h5 : InRange (a5 m c) 10000#32) (h10 : InRange (a10 m c) 50000#32) :
    W15 (F := Ideal) m ρ c (Proc.devRef .tc main_v51) = val_main_v103 (F := Ideal) (a1 m c) (a4 m c) (a5 m c) (a10 m c) := by
  refine Eq.trans (b := Take.take50k (F := Ideal) (W14 (F := Ideal) m ρ c (Proc.devRef .tc main_v50)) (W14 (F := Ideal) m ρ c (Proc.devRef .tc main_arg10))) ?_ ?_
  · dsimp only [W15]
    generalize W14 (F := Ideal) m ρ c = V
    after_results_simp
    simp only [ofBuf_toBuf]
    simp only [StableHlo.TRef.ofBuf, StableHlo.TRef.toBuf, cast_eq]
    unfold Take.take50k Take.mask400000 Take.wrap400000
    rfl
  · rw [W14_v50 m ρ c h5, W14_arg10 m ρ c, Take.take50k_eq _ _ h10, ← v102_eq]
    unfold val_main_v103
    rfl

set_option maxHeartbeats 8000000 in
/-- The sparse product with vmat: the rows scaled by vmat_vals and summed into nodes at vmat_rows. -/
theorem W16_v57 (h5 : InRange (a5 m c) 10000#32) (h10 : InRange (a10 m c) 50000#32) :
    W16 (F := Ideal) m ρ c (Proc.devRef .tc main_v57) = val_main_v108 (F := Ideal) (a1 m c) (a4 m c) (a5 m c) (a9 m c) (a10 m c) (a11 m c) := by
  dsimp only [W16]
  generalize hV : W15 (F := Ideal) m ρ c = V
  after_results_simp
  subst hV
  rw [W15_arg9 m ρ c, W15_arg11 m ρ c, W15_v51 m ρ c h5 h10, mulf_comm_vec]
  unfold val_main_v108 val_main_v106 val_main_cst_21 val_main_v107 val_main_v105 val_main_v104 val_main_v96
  rfl

set_option maxHeartbeats 8000000 in
/-- Its rows at inc_src. -/
theorem W17_v58 (h4 : InRange (a4 m c) 50000#32) (h5 : InRange (a5 m c) 10000#32) (h10 : InRange (a10 m c) 50000#32) :
    W17 (F := Ideal) m ρ c (Proc.devRef .tc main_v58) = val_main_v115 (F := Ideal) (a1 m c) (a4 m c) (a5 m c) (a9 m c) (a10 m c) (a11 m c) := by
  refine Eq.trans (b := Take.take50k (F := Ideal) (W16 (F := Ideal) m ρ c (Proc.devRef .tc main_v57)) (W16 (F := Ideal) m ρ c (Proc.devRef .tc main_arg4))) ?_ ?_
  · dsimp only [W17]
    generalize W16 (F := Ideal) m ρ c = V
    after_results_simp
    simp only [ofBuf_toBuf]
    simp only [StableHlo.TRef.ofBuf, StableHlo.TRef.toBuf, cast_eq]
    unfold Take.take50k Take.mask400000 Take.wrap400000
    rfl
  · rw [W16_v57 m ρ c h5 h10, W16_arg4 m ρ c, Take.take50k_eq _ _ h4, ← v114_eq]
    unfold val_main_v115
    rfl

/-- The scaled sum is written once and read again three stretches later. -/
theorem W17_v47 : W17 (F := Ideal) m ρ c (Proc.devRef .tc main_v47) = W14 (F := Ideal) m ρ c (Proc.devRef .tc main_v47) := by
  unwritten_through 3

set_option maxHeartbeats 8000000 in
/-- The hyperedge projection's input. -/
theorem W18_v62 (h4 : InRange (a4 m c) 50000#32) (h5 : InRange (a5 m c) 10000#32) (h10 : InRange (a10 m c) 50000#32)
    (hz : W13 (F := Ideal) m ρ c (Proc.devRef .tc main_v41) = val_main_v79 (F := Ideal) (a0 m c) (a1 m c) (a2 m c) (a4 m c) (a5 m c) (a6 m c) (a7 m c) (a8 m c) (a12 m c) (a14 m c) (a15 m c) (a16 m c) (a17 m c)) :
    W18 (F := Ideal) m ρ c (Proc.devRef .tc main_v62) = val_main_v119 (F := Ideal) (a0 m c) (a1 m c) (a2 m c) (a3 m c) (a4 m c) (a5 m c) (a6 m c) (a7 m c) (a8 m c) (a9 m c) (a10 m c) (a11 m c) (a12 m c) (a14 m c) (a15 m c) (a16 m c) (a17 m c) := by
  dsimp only [W18]
  generalize hV : W17 (F := Ideal) m ρ c = V
  after_results_simp
  subst hV
  rw [W17_arg5 m ρ c, W17_v58 m ρ c h4 h5 h10, W17_v47 m ρ c, W14_v47 m ρ c hz]
  unfold val_main_v119 val_main_v118 val_main_v116 val_main_cst_24 val_main_v117
  rfl

set_option maxHeartbeats 8000000 in
/-- We transposed. -/
theorem W18_v63 : W18 (F := Ideal) m ρ c (Proc.devRef .tc main_v63) = val_main_v120 (F := Ideal) (a13 m c) := by
  dsimp only [W18]
  generalize hV : W17 (F := Ideal) m ρ c = V
  after_results_simp
  subst hV
  rw [W17_arg13 m ρ c]
  unfold val_main_v120
  rfl

/-- The first result keeps what the node projection left in it. -/
theorem W19_v34 : W19 (F := Ideal) m ρ c (Proc.devRef .tc main_v34) = W10 (F := Ideal) m ρ c (Proc.devRef .tc main_v34) := by
  refine Eq.trans (W19_of_ne m ρ c main_v34 (by decide)) ?_
  iterate 5 (refine Eq.trans (by unwritten) ?_)
  refine Eq.trans (W13_of_ne m ρ c main_v34 (by decide)) ?_
  unwritten_through 2

end Cert.KernelIdeal.Host3

end
-- ==== Proof.RefStages.lean ====
/-
  The reference's dense stages as the common functions.  Its first stage joins the two gathered [n, 128] operands
  into [n, 256] rows and multiplies by the whole transposed [256, 128] weight matrix: entry (p, q) is a sum over 256
  products, the first 128 with the left operand and the left half of the weights, the last 128 with the right ones.
  Its projections are a product and the maximum with a zero splat.
-/
import proofs.«416382_j85126251807356_1_alg».proof.Proof.Gen.ReferenceIdeal.Read
import proofs.«416382_j85126251807356_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefStages

open Cert.ReferenceIdeal Cert.ReferenceIdeal.Read Cert.Spec
open Cert.ReferenceIdeal.Facts₀ Cert.ReferenceIdeal.Facts
open Idealize.ShloMosaic Idealize.ShloMosaic.ValueIdx

/-! ## The joined rows -/

/-- A joined [n, 256] row at a column of its first half is the left operand's entry. -/
theorem join_left (a b : Cert.ReferenceIdeal.S400000x128.Idx → EReal) (p : Fin 400000) (k : Fin 128) :
    concatenate Cert.ReferenceIdeal.S400000x256 1 [⟨Cert.ReferenceIdeal.S400000x128, a⟩, ⟨Cert.ReferenceIdeal.S400000x128, b⟩]
        concatenates_S400000x128_S400000x128_S400000x256_d1 (ix2 p (⟨k.val, by omega⟩ : Fin 256)) = a (ix2 p k) :=
  concatenate_pair_apply_left 1 a b concatenates_S400000x128_S400000x128_S400000x256_d1 _ rfl (ix2 p k)
    (fun bb => by match bb with | ⟨0, _⟩ => rfl | ⟨1, _⟩ => rfl)

/-- A joined [n, 256] row at a column of its second half is the right operand's entry, 128 columns back. -/
theorem join_right (a b : Cert.ReferenceIdeal.S400000x128.Idx → EReal) (p : Fin 400000) (k : Fin 128) :
    concatenate Cert.ReferenceIdeal.S400000x256 1 [⟨Cert.ReferenceIdeal.S400000x128, a⟩, ⟨Cert.ReferenceIdeal.S400000x128, b⟩]
        concatenates_S400000x128_S400000x128_S400000x256_d1 (ix2 p (⟨128 + k.val, by omega⟩ : Fin 256)) = b (ix2 p k) :=
  concatenate_pair_apply_right 1 a b concatenates_S400000x128_S400000x128_S400000x256_d1 _ rfl rfl (ix2 p k)
    (fun bb hb => by
      match bb with
      | ⟨0, _⟩ => rfl
      | ⟨1, _⟩ => exact absurd rfl hb)
    (by show k.val + 128 = 128 + k.val; omega)

/-- The two-operand dense stage of the reference, over abstract operands: the product of the joined rows with the
    transposed weights plus the broadcast bias is the sum of the two half products plus the bias. -/
theorem joined_dense (a b : Cert.ReferenceIdeal.S400000x128.Idx → EReal) (w : Cert.ReferenceIdeal.S128x256.Idx → EReal)
    (bias : Cert.ReferenceIdeal.S128.Idx → EReal) (p : Fin 400000) (q : Fin 128) :
    (∑ k : Fin 256,
        concatenate Cert.ReferenceIdeal.S400000x256 1 [⟨Cert.ReferenceIdeal.S400000x128, a⟩, ⟨Cert.ReferenceIdeal.S400000x128, b⟩]
          concatenates_S400000x128_S400000x128_S400000x256_d1 (ix2 p k) * w (ix2 q k)) + bias (ix1 q)
      = affine2At a b (wLo w) (wHi w) (row bias) p q := by
  unfold affine2At
  rw [sum_256_split]
  refine congrArg₂ (· + ·) (congrArg₂ (· + ·) ?_ ?_) rfl
  · refine Finset.sum_congr rfl fun k _ => ?_
    rw [join_left]; rfl
  · refine Finset.sum_congr rfl fun k _ => ?_
    rw [join_right]; rfl

theorem ref_v19 (x0 : Cert.Spec.S50000x128.Idx → EReal) (x1 : Cert.Spec.S10000x128.Idx → EReal) (x4 : Cert.Spec.S400000.Idx → BitVec 32) (x5 : Cert.Spec.S400000.Idx → BitVec 32) (x14 : Cert.Spec.S128x256.Idx → EReal) (x15 : Cert.Spec.S128.Idx → EReal) :
    val_main_v19 (F := Ideal) x0 x1 x4 x5 x14 x15
      = affine2 (val_main_v6 (F := Ideal) x0 x4) (val_main_v13 (F := Ideal) x1 x5) (wLo x14) (wHi x14) (row x15) := by
  funext i
  obtain ⟨p, q, rfl⟩ : ∃ (p : Fin 400000) (q : Fin 128), i = ix2 p q := ⟨i 0, i 1, eq_ix2 i⟩
  rw [val_main_v19_apply, val_main_v16_apply, val_main_v18_apply, val_main_v17_apply]
  show (∑ k : Fin 256, _) + _ = affine2At _ _ _ _ _ p q
  rw [← joined_dense]
  refine congrArg₂ (· + ·) (Finset.sum_congr rfl fun k _ => ?_) ?_
  · rw [val_main_v15_apply]
    unfold val_main_v14
    refine congrArg₂ (· * ·) (congrArg _ ?_) (congrArg _ ?_)
    · funext a; match a with | ⟨0, _⟩ => rfl | ⟨1, _⟩ => rfl
    · funext a; match a with | ⟨0, _⟩ => rfl | ⟨1, _⟩ => rfl
  · refine congrArg _ ?_
    funext a; match a with | ⟨0, _⟩ => rfl

/-! ## The projections -/

/-- The zero splat the reference's relu compares with is the real zero. -/
theorem zero50k (i : Cert.ReferenceIdeal.S50000x128.Idx) : val_main_call0_v0 (F := Ideal) i = 0 := by
  rw [val_main_call0_v0_apply, val_main_call0_cst_apply]
  exact Ideal.ofBits_zero_f32

theorem ref_v59 (x0 : Cert.Spec.S50000x128.Idx → EReal) (x1 : Cert.Spec.S10000x128.Idx → EReal) (x2 : Cert.Spec.S50000.Idx → EReal) (x4 : Cert.Spec.S400000.Idx → BitVec 32) (x5 : Cert.Spec.S400000.Idx → BitVec 32) (x6 : Cert.Spec.S80000.Idx → BitVec 32) (x7 : Cert.Spec.S80000.Idx → BitVec 32) (x8 : Cert.Spec.S80000.Idx → EReal) (x12 : Cert.Spec.S128x128.Idx → EReal) (x14 : Cert.Spec.S128x256.Idx → EReal) (x15 : Cert.Spec.S128.Idx → EReal) :
    val_main_v59 (F := Ideal) x0 x1 x2 x4 x5 x6 x7 x8 x12 x14 x15
      = denseRelu50k (val_main_v56 (F := Ideal) x0 x1 x2 x4 x5 x6 x7 x8 x14 x15) (val_main_v57 (F := Ideal) x12) := by
  funext i
  rw [val_main_v59_apply, val_main_v58_apply, zero50k]
  show max (∑ k : Fin 128, _) 0 = max (∑ k : Fin 128, _) 0
  refine congrArg (max · 0) (Finset.sum_congr rfl fun k _ => ?_)
  refine congrArg₂ (· * ·) (congrArg _ ?_) (congrArg _ ?_)
  · funext a; match a with | ⟨0, _⟩ => rfl | ⟨1, _⟩ => rfl
  · funext a; match a with | ⟨0, _⟩ => rfl | ⟨1, _⟩ => rfl

theorem ref_v79 (x0 : Cert.Spec.S50000x128.Idx → EReal) (x1 : Cert.Spec.S10000x128.Idx → EReal) (x2 : Cert.Spec.S50000.Idx → EReal) (x4 : Cert.Spec.S400000.Idx → BitVec 32) (x5 : Cert.Spec.S400000.Idx → BitVec 32) (x6 : Cert.Spec.S80000.Idx → BitVec 32) (x7 : Cert.Spec.S80000.Idx → BitVec 32) (x8 : Cert.Spec.S80000.Idx → EReal) (x12 : Cert.Spec.S128x128.Idx → EReal) (x14 : Cert.Spec.S128x256.Idx → EReal) (x15 : Cert.Spec.S128.Idx → EReal) (x16 : Cert.Spec.S128x256.Idx → EReal) (x17 : Cert.Spec.S128.Idx → EReal) :
    val_main_v79 (F := Ideal) x0 x1 x2 x4 x5 x6 x7 x8 x12 x14 x15 x16 x17
      = affine2 (val_main_v66 (F := Ideal) x0 x1 x2 x4 x5 x6 x7 x8 x12 x14 x15) (val_main_v73 (F := Ideal) x1 x5) (wLo x16) (wHi x16) (row x17) := by
  funext i
  obtain ⟨p, q, rfl⟩ : ∃ (p : Fin 400000) (q : Fin 128), i = ix2 p q := ⟨i 0, i 1, eq_ix2 i⟩
  rw [val_main_v79_apply, val_main_v76_apply, val_main_v78_apply, val_main_v77_apply]
  show (∑ k : Fin 256, _) + _ = affine2At _ _ _ _ _ p q
  rw [← joined_dense]
  refine congrArg₂ (· + ·) (Finset.sum_congr rfl fun k _ => ?_) ?_
  · rw [val_main_v75_apply]
    unfold val_main_v74
    refine congrArg₂ (· * ·) (congrArg _ ?_) (congrArg _ ?_)
    · funext a; match a with | ⟨0, _⟩ => rfl | ⟨1, _⟩ => rfl
    · funext a; match a with | ⟨0, _⟩ => rfl | ⟨1, _⟩ => rfl
  · refine congrArg _ ?_
    funext a; match a with | ⟨0, _⟩ => rfl

/-- The zero splat the reference's second relu compares with is the real zero. -/
theorem zero10k (i : Cert.ReferenceIdeal.S10000x128.Idx) : val_main_call1_v0 (F := Ideal) i = 0 := by
  rw [val_main_call1_v0_apply, val_main_call1_cst_apply]
  exact Ideal.ofBits_zero_f32

theorem ref_v122 (x0 : Cert.Spec.S50000x128.Idx → EReal) (x1 : Cert.Spec.S10000x128.Idx → EReal) (x2 : Cert.Spec.S50000.Idx → EReal) (x3 : Cert.Spec.S10000.Idx → EReal) (x4 : Cert.Spec.S400000.Idx → BitVec 32) (x5 : Cert.Spec.S400000.Idx → BitVec 32) (x6 : Cert.Spec.S80000.Idx → BitVec 32) (x7 : Cert.Spec.S80000.Idx → BitVec 32) (x8 : Cert.Spec.S80000.Idx → EReal) (x9 : Cert.Spec.S400000.Idx → BitVec 32) (x10 : Cert.Spec.S400000.Idx → BitVec 32) (x11 : Cert.Spec.S400000.Idx → EReal) (x12 : Cert.Spec.S128x128.Idx → EReal) (x13 : Cert.Spec.S128x128.Idx → EReal) (x14 : Cert.Spec.S128x256.Idx → EReal) (x15 : Cert.Spec.S128.Idx → EReal) (x16 : Cert.Spec.S128x256.Idx → EReal) (x17 : Cert.Spec.S128.Idx → EReal) :
    val_main_v122 (F := Ideal) x0 x1 x2 x3 x4 x5 x6 x7 x8 x9 x10 x11 x12 x13 x14 x15 x16 x17
      = denseRelu10k (val_main_v119 (F := Ideal) x0 x1 x2 x3 x4 x5 x6 x7 x8 x9 x10 x11 x12 x14 x15 x16 x17) (val_main_v120 (F := Ideal) x13) := by
  funext i
  rw [val_main_v122_apply, val_main_v121_apply, zero10k]
  show max (∑ k : Fin 128, _) 0 = max (∑ k : Fin 128, _) 0
  refine congrArg (max · 0) (Finset.sum_congr rfl fun k _ => ?_)
  refine congrArg₂ (· * ·) (congrArg _ ?_) (congrArg _ ?_)
  · funext a; match a with | ⟨0, _⟩ => rfl | ⟨1, _⟩ => rfl
  · funext a; match a with | ⟨0, _⟩ => rfl | ⟨1, _⟩ => rfl

end Cert.ReferenceIdeal.RefStages

end
-- ==== Proof.Bridge.lean ====
/-
  The two programs end with equal results.  The kernel's run leaves its two results at the last boundary's
  contents; walking back, each pallas_call's output array is the common dense function of what the call was
  entered with, each stretch of host operations between the calls is the reference's own operations on in-range
  indices, and the reference's dense stages are the same common functions.  So the node projection's output is the
  reference's first result and the hyperedge projection's output its second, as functions of the argument arrays.
-/
import proofs.«416382_j85126251807356_1_alg».proof.Proof.RegionsAffine
import proofs.«416382_j85126251807356_1_alg».proof.Proof.RegionsDense
import proofs.«416382_j85126251807356_1_alg».proof.Proof.Host0
import proofs.«416382_j85126251807356_1_alg».proof.Proof.Host1
import proofs.«416382_j85126251807356_1_alg».proof.Proof.Host2
import proofs.«416382_j85126251807356_1_alg».proof.Proof.Host3
import proofs.«416382_j85126251807356_1_alg».proof.Proof.RefStages

set_option maxRecDepth 16384

noncomputable section

namespace Cert.Proof.Bridge

open Cert.KernelIdeal Cert.KernelIdeal.Gen Cert.KernelIdeal.Args Cert.Spec
open Cert.ReferenceIdeal.Read Cert.ReferenceIdeal.RefStages
open Idealize.ShloMosaic Idealize.ShloMosaic.TcCoe Idealize.SL.Sem

variable (m : (ℓ : Loc nD τ sig) → Buf (Elt Ideal) ℓ) (ρ : Dev nD → PrngReg) (c : Dev nD)

/-- The first dense stage's output is the reference's: the common function of the two gathered operands, the two
    transposed halves of psi1_W and the bias row. -/
theorem stage_psi1 (h4 : InRange (a4 m c) 50000#32) (h5 : InRange (a5 m c) 10000#32) :
    W4 (F := Ideal) m ρ c (Proc.devRef .tc main_v7) = val_main_v19 (F := Ideal) (a0 m c) (a1 m c) (a4 m c) (a5 m c) (a14 m c) (a15 m c) := by
  refine ((W4_arr m ρ c 5).trans (Cert.KernelIdeal.RegionAffine.region0_out (V3 m ρ) c)).trans ?_
  show affine2 (W3 m ρ c (Proc.devRef .tc main_v0)) (W3 m ρ c (Proc.devRef .tc main_v1)) (W3 m ρ c (Proc.devRef .tc main_v3))
    (W3 m ρ c (Proc.devRef .tc main_v5)) (W3 m ρ c (Proc.devRef .tc main_v6)) = _
  rw [Cert.KernelIdeal.Host0.W3_v0 m ρ c h4, Cert.KernelIdeal.Host0.W3_v1 m ρ c h5, Cert.KernelIdeal.Host0.W3_v3 m ρ c,
    Cert.KernelIdeal.Host0.W3_v5 m ρ c, Cert.KernelIdeal.Host0.W3_v6 m ρ c]
  exact (ref_v19 _ _ _ _ _ _).symm

/-- The node projection's output is the reference's first result. -/
theorem stage_node (h4 : InRange (a4 m c) 50000#32) (h5 : InRange (a5 m c) 10000#32) (h7 : InRange (a7 m c) 10000#32) :
    W10 (F := Ideal) m ρ c (Proc.devRef .tc main_v34) = val_main_v59 (F := Ideal) (a0 m c) (a1 m c) (a2 m c) (a4 m c) (a5 m c) (a6 m c) (a7 m c) (a8 m c) (a12 m c) (a14 m c) (a15 m c) := by
  refine ((W10_arr m ρ c 2).trans (Cert.KernelIdeal.RegionDense.region1_out (V9 m ρ) c)).trans ?_
  show denseRelu50k (W9 m ρ c (Proc.devRef .tc main_v32)) (W9 m ρ c (Proc.devRef .tc main_v33)) = _
  rw [Cert.KernelIdeal.Host1.W9_v32 m ρ c h4 h5 h7 (stage_psi1 m ρ c h4 h5), Cert.KernelIdeal.Host1.W9_v33 m ρ c]
  exact (ref_v59 _ _ _ _ _ _ _ _ _ _ _).symm

/-- The second dense stage's output is the reference's. -/
theorem stage_psi2 (h4 : InRange (a4 m c) 50000#32) (h5 : InRange (a5 m c) 10000#32) (h7 : InRange (a7 m c) 10000#32) :
    W13 (F := Ideal) m ρ c (Proc.devRef .tc main_v41) = val_main_v79 (F := Ideal) (a0 m c) (a1 m c) (a2 m c) (a4 m c) (a5 m c) (a6 m c) (a7 m c) (a8 m c) (a12 m c) (a14 m c) (a15 m c) (a16 m c) (a17 m c) := by
  refine ((W13_arr m ρ c 5).trans (Cert.KernelIdeal.RegionAffine.region2_out (V12 m ρ) c)).trans ?_
  show affine2 (W12 m ρ c (Proc.devRef .tc main_v35)) (W12 m ρ c (Proc.devRef .tc main_v1)) (W12 m ρ c (Proc.devRef .tc main_v37))
    (W12 m ρ c (Proc.devRef .tc main_v39)) (W12 m ρ c (Proc.devRef .tc main_v40)) = _
  rw [Cert.KernelIdeal.Host2.W12_v35 m ρ c h4 (stage_node m ρ c h4 h5 h7), Cert.KernelIdeal.Host2.W12_v1 m ρ c h5,
    Cert.KernelIdeal.Host2.W12_v37 m ρ c, Cert.KernelIdeal.Host2.W12_v39 m ρ c, Cert.KernelIdeal.Host2.W12_v40 m ρ c]
  exact (ref_v79 _ _ _ _ _ _ _ _ _ _ _ _ _).symm

/-- The hyperedge projection's output, the second result, is the reference's second result. -/
theorem result_edge (h4 : InRange (a4 m c) 50000#32) (h5 : InRange (a5 m c) 10000#32) (h7 : InRange (a7 m c) 10000#32)
    (h10 : InRange (a10 m c) 50000#32) :
    W19 (F := Ideal) m ρ c (Proc.devRef .tc main_v64) = val_main_v122 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  refine ((W19_arr m ρ c 2).trans (Cert.KernelIdeal.RegionDense.region3_out (V18 m ρ) c)).trans ?_
  show denseRelu10k (W18 m ρ c (Proc.devRef .tc main_v62)) (W18 m ρ c (Proc.devRef .tc main_v63)) = _
  rw [Cert.KernelIdeal.Host3.W18_v62 m ρ c h4 h5 h10 (stage_psi2 m ρ c h4 h5 h7), Cert.KernelIdeal.Host3.W18_v63 m ρ c]
  exact (ref_v122 _ _ _ _ _ _ _ _ _ _ _ _ _ _ _ _ _ _).symm

/-- The first result is the node projection's output, untouched after its call: the reference's first result. -/
theorem result_node (h4 : InRange (a4 m c) 50000#32) (h5 : InRange (a5 m c) 10000#32) (h7 : InRange (a7 m c) 10000#32) :
    W19 (F := Ideal) m ρ c (Proc.devRef .tc main_v34) = val_main_v59 (F := Ideal) (a0 m c) (a1 m c) (a2 m c) (a4 m c) (a5 m c) (a6 m c) (a7 m c) (a8 m c) (a12 m c) (a14 m c) (a15 m c) :=
  (Cert.KernelIdeal.Host3.W19_v34 m ρ c).trans (stage_node m ρ c h4 h5 h7)

end Cert.Proof.Bridge

end
-- ==== Proof.lean ====
/-
  The certificate of the hypergraph layer: a Pallas program of four dense stages among host gathers and segment sums,
  against its jnp reference, over the extended reals.

  The precondition asks that every float input be finite and that the four index arrays the programs gather with
  name rows of the tables they index (inc_src and vmat_cols below 50000, inc_dst and emat_cols below 10000, none
  negative).  On such inputs the kernel's filled take and the reference's clamping gather read the same rows, and
  from there the two programs apply the same host operations to equal values; the dense stages differ only in how a
  sum over 256 products is grouped and in the order of two factors, which the extended reals do not see.  No step uses
  finiteness: only commutativity and associativity of + and ·.

  The three frames are the generated ones (the reference's is its generated run with the results dropped), the
  idealization ledger is empty, and the value claim pairs the kernel's run, its results named at the last boundary's
  contents, with the reference's generated run.
-/
import proofs.«416382_j85126251807356_1_alg».proof.Defs
import proofs.«416382_j85126251807356_1_alg».proof.Proof.Gen.Kernel
import proofs.«416382_j85126251807356_1_alg».proof.Proof.Gen.Kernel.Frame
import proofs.«416382_j85126251807356_1_alg».proof.Proof.Gen.KernelIdeal
import proofs.«416382_j85126251807356_1_alg».proof.Proof.Gen.KernelIdeal.Frame
import proofs.«416382_j85126251807356_1_alg».proof.Proof.Gen.ReferenceIdeal
import proofs.«416382_j85126251807356_1_alg».proof.Proof.Gen.ReferenceIdeal.Run
import proofs.«416382_j85126251807356_1_alg».proof.Proof.Gen.ReferenceIdeal.Read
import proofs.«416382_j85126251807356_1_alg».proof.Proof.Gen.Pre_finite_inputs
import proofs.«416382_j85126251807356_1_alg».proof.Proof.RunK
import proofs.«416382_j85126251807356_1_alg».proof.Proof.PreIdx
import proofs.«416382_j85126251807356_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization applied no rewrite. -/
theorem preserves : Cert.preserves_Kernel_KernelIdeal := trivial

/-- From memories agreeing on the arguments both programs run, and their results are equal: each of the kernel's two
    results, read at the last boundary of its run, is the reference's result as a function of the argument arrays. -/
theorem algebraic : Cert.algebraic_KernelIdeal_ReferenceIdeal := by
  intro m ρ m' ρ' hpre hagree
  refine ⟨fun c => Cert.KernelIdeal.Gen.W19 (F := Ideal) m ρ c (Proc.devRef .tc Cert.KernelIdeal.main_v34),
    fun c => Cert.KernelIdeal.Gen.W19 (F := Ideal) m ρ c (Proc.devRef .tc Cert.KernelIdeal.main_v64),
    Cert.KernelIdeal.GenRun.run_results m ρ, ?_⟩
  refine (θ_run Cert.ReferenceIdeal.defs _ _).mono (fun r h c => ?_) (Cert.ReferenceIdeal.Value.run (F := Ideal) m' ρ')
  obtain ⟨h0, h1, hargs⟩ := h c
  obtain ⟨e0, e1, e2, e3, e4, e5, e6, e7, e8, e9, e10, e11, e12, e13, e14, e15, e16, e17⟩ := hagree c
  obtain ⟨h4, h5, h7, h10⟩ := Cert.KernelIdeal.PreIdx.ranges_of_pre m hpre c
  refine ⟨h0.trans ?_, h1.trans ?_, hargs⟩
  · rw [Cert.ReferenceIdeal.Read.val_main_v59_eq, e0, e1, e2, e4, e5, e6, e7, e8, e12, e14, e15]
    exact (Cert.Proof.Bridge.result_node m ρ c h4 h5 h7).symm
  · rw [Cert.ReferenceIdeal.Read.val_main_v122_eq, e0, e1, e2, e3, e4, e5, e6, e7, e8, e9, e10, e11, e12, e13, e14, e15, e16, e17]
    exact (Cert.Proof.Bridge.result_edge m ρ c h4 h5 h7 h10).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
